-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096 : Shape := ⟨1, ![4096]⟩
abbrev S128 : Shape := ⟨1, ![128]⟩
abbrev S2048 : Shape := ⟨1, ![2048]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S128 : S_.BroadcastsInDim S128 (![] : Fin 0 → Fin S128.rank)
  reducesTo_S128_S_d0 : S128.ReducesTo [0] S_
  bcast_S_S2048 : S_.BroadcastsInDim S2048 (![] : Fin 0 → Fin S2048.rank)
  reducesTo_S2048_S_d0 : S2048.ReducesTo [0] S_

variable [Facts]

def fn_part5 {F : FTy → Type} [FloatOps F] (main_v79 : IVec S_ 1) (main_v81 : IVec S4096 1) (main_v83 : IVec S4096 1) : IVec S_ 1 :=
  let main_v84 : IVec S4096 1 := andi main_v81 main_v83
  let main_c_34 : IVec S_ 1 := constantI S_ 1 1#1
  let main_v85 : IVec S_ 1 := (fun x v => Host.reduce IntOp.andi x v reducesTo_S4096_S_d0 h_S_) main_v84 main_c_34
  let main_v86 : IVec S_ 1 := andi main_v79 main_v85
  main_v86

def fn_part4 {F : FTy → Type} [FloatOps F] (main_arg11 : IVec S4096 32) (main_arg12 : IVec S4096 32) (main_arg13 : IVec S4096 32) (main_v65 : IVec S_ 1) (main_v66 : IVec S4096 32) : IVec S_ 1 :=
  let main_v67 : IVec S4096 1 := cmpi .sge main_arg11 main_v66
  let main_c_27 : IVec S_ 32 := constantI S_ 32 128#32
  let main_v68 : IVec S4096 32 := broadcastInDim S4096 ![] bcast_S_S4096 main_c_27
  let main_v69 : IVec S4096 1 := cmpi .slt main_arg11 main_v68
  let main_v70 : IVec S4096 1 := andi main_v67 main_v69
  let main_c_28 : IVec S_ 1 := constantI S_ 1 1#1
  let main_v71 : IVec S_ 1 := (fun x v => Host.reduce IntOp.andi x v reducesTo_S4096_S_d0 h_S_) main_v70 main_c_28
  let main_v72 : IVec S_ 1 := andi main_v65 main_v71
  let main_c_29 : IVec S_ 32 := constantI S_ 32 0#32
  let main_v73 : IVec S4096 32 := broadcastInDim S4096 ![] bcast_S_S4096 main_c_29
  let main_v74 : IVec S4096 1 := cmpi .sge main_arg12 main_v73
  let main_c_30 : IVec S_ 32 := constantI S_ 32 128#32
  let main_v75 : IVec S4096 32 := broadcastInDim S4096 ![] bcast_S_S4096 main_c_30
  let main_v76 : IVec S4096 1 := cmpi .slt main_arg12 main_v75
  let main_v77 : IVec S4096 1 := andi main_v74 main_v76
  let main_c_31 : IVec S_ 1 := constantI S_ 1 1#1
  let main_v78 : IVec S_ 1 := (fun x v => Host.reduce IntOp.andi x v reducesTo_S4096_S_d0 h_S_) main_v77 main_c_31
  let main_v79 : IVec S_ 1 := andi main_v72 main_v78
  let main_c_32 : IVec S_ 32 := constantI S_ 32 0#32
  let main_v80 : IVec S4096 32 := broadcastInDim S4096 ![] bcast_S_S4096 main_c_32
  let main_v81 : IVec S4096 1 := cmpi .sge main_arg13 main_v80
  let main_c_33 : IVec S_ 32 := constantI S_ 32 128#32
  let main_v82 : IVec S4096 32 := broadcastInDim S4096 ![] bcast_S_S4096 main_c_33
  let main_v83 : IVec S4096 1 := cmpi .slt main_arg13 main_v82
  fn_part5 (F := F) main_v79 main_v81 main_v83

def fn_part3 {F : FTy → Type} [FloatOps F] (main_arg8 : IVec S2048 32) (main_arg10 : IVec S4096 32) (main_arg11 : IVec S4096 32) (main_arg12 : IVec S4096 32) (main_arg13 : IVec S4096 32) (main_v44 : IVec S_ 1) (main_v49 : IVec S2048 1) (main_c_19 : IVec S_ 1) : IVec S_ 1 :=
  let main_v50 : IVec S_ 1 := (fun x v => Host.reduce IntOp.andi x v reducesTo_S2048_S_d0 h_S_) main_v49 main_c_19
  let main_v51 : IVec S_ 1 := andi main_v44 main_v50
  let main_c_20 : IVec S_ 32 := constantI S_ 32 0#32
  let main_v52 : IVec S2048 32 := broadcastInDim S2048 ![] bcast_S_S2048 main_c_20
  let main_v53 : IVec S2048 1 := cmpi .sge main_arg8 main_v52
  let main_c_21 : IVec S_ 32 := constantI S_ 32 128#32
  let main_v54 : IVec S2048 32 := broadcastInDim S2048 ![] bcast_S_S2048 main_c_21
  let main_v55 : IVec S2048 1 := cmpi .slt main_arg8 main_v54
  let main_v56 : IVec S2048 1 := andi main_v53 main_v55
  let main_c_22 : IVec S_ 1 := constantI S_ 1 1#1
  let main_v57 : IVec S_ 1 := (fun x v => Host.reduce IntOp.andi x v reducesTo_S2048_S_d0 h_S_) main_v56 main_c_22
  let main_v58 : IVec S_ 1 := andi main_v51 main_v57
  let main_c_23 : IVec S_ 32 := constantI S_ 32 0#32
  let main_v59 : IVec S4096 32 := broadcastInDim S4096 ![] bcast_S_S4096 main_c_23
  let main_v60 : IVec S4096 1 := cmpi .sge main_arg10 main_v59
  let main_c_24 : IVec S_ 32 := constantI S_ 32 128#32
  let main_v61 : IVec S4096 32 := broadcastInDim S4096 ![] bcast_S_S4096 main_c_24
  let main_v62 : IVec S4096 1 := cmpi .slt main_arg10 main_v61
  let main_v63 : IVec S4096 1 := andi main_v60 main_v62
  let main_c_25 : IVec S_ 1 := constantI S_ 1 1#1
  let main_v64 : IVec S_ 1 := (fun x v => Host.reduce IntOp.andi x v reducesTo_S4096_S_d0 h_S_) main_v63 main_c_25
  let main_v65 : IVec S_ 1 := andi main_v58 main_v64
  let main_c_26 : IVec S_ 32 := constantI S_ 32 0#32
  let main_v66 : IVec S4096 32 := broadcastInDim S4096 ![] bcast_S_S4096 main_c_26
  fn_part4 (F := F) main_arg11 main_arg12 main_arg13 main_v65 main_v66

def fn_part2 {F : FTy → Type} [FloatOps F] (main_arg4 : IVec S128 32) (main_arg6 : IVec S2048 32) (main_arg7 : IVec S2048 32) (main_arg8 : IVec S2048 32) (main_arg10 : IVec S4096 32) (main_arg11 : IVec S4096 32) (main_arg12 : IVec S4096 32) (main_arg13 : IVec S4096 32) (main_v30 : IVec S_ 1) (main_v32 : IVec S128 1) (main_c_12 : IVec S_ 32) : IVec S_ 1 :=
  let main_v33 : IVec S128 32 := broadcastInDim S128 ![] bcast_S_S128 main_c_12
  let main_v34 : IVec S128 1 := cmpi .slt main_arg4 main_v33
  let main_v35 : IVec S128 1 := andi main_v32 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v30 main_v36
  let main_c_14 : IVec S_ 32 := constantI S_ 32 0#32
  let main_v38 : IVec S2048 32 := broadcastInDim S2048 ![] bcast_S_S2048 main_c_14
  let main_v39 : IVec S2048 1 := cmpi .sge main_arg6 main_v38
  let main_c_15 : IVec S_ 32 := constantI S_ 32 128#32
  let main_v40 : IVec S2048 32 := broadcastInDim S2048 ![] bcast_S_S2048 main_c_15
  let main_v41 : IVec S2048 1 := cmpi .slt main_arg6 main_v40
  let main_v42 : IVec S2048 1 := andi main_v39 main_v41
  let main_c_16 : IVec S_ 1 := constantI S_ 1 1#1
  let main_v43 : IVec S_ 1 := (fun x v => Host.reduce IntOp.andi x v reducesTo_S2048_S_d0 h_S_) main_v42 main_c_16
  let main_v44 : IVec S_ 1 := andi main_v37 main_v43
  let main_c_17 : IVec S_ 32 := constantI S_ 32 0#32
  let main_v45 : IVec S2048 32 := broadcastInDim S2048 ![] bcast_S_S2048 main_c_17
  let main_v46 : IVec S2048 1 := cmpi .sge main_arg7 main_v45
  let main_c_18 : IVec S_ 32 := constantI S_ 32 128#32
  let main_v47 : IVec S2048 32 := broadcastInDim S2048 ![] bcast_S_S2048 main_c_18
  let main_v48 : IVec S2048 1 := cmpi .slt main_arg7 main_v47
  let main_v49 : IVec S2048 1 := andi main_v46 main_v48
  let main_c_19 : IVec S_ 1 := constantI S_ 1 1#1
  fn_part3 (F := F) main_arg8 main_arg10 main_arg11 main_arg12 main_arg13 main_v44 main_v49 main_c_19

def fn_part1 {F : FTy → Type} [FloatOps F] (main_arg3 : IVec S128 32) (main_arg4 : IVec S128 32) (main_arg6 : IVec S2048 32) (main_arg7 : IVec S2048 32) (main_arg8 : IVec S2048 32) (main_arg9 : FVec F S4096 .f32) (main_arg10 : IVec S4096 32) (main_arg11 : IVec S4096 32) (main_arg12 : IVec S4096 32) (main_arg13 : IVec S4096 32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096 .f32 := Host.absf main_arg9
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg3 main_v24
  let main_c_9 : IVec S_ 32 := constantI S_ 32 128#32
  let main_v26 : IVec S128 32 := broadcastInDim S128 ![] bcast_S_S128 main_c_9
  let main_v27 : IVec S128 1 := cmpi .slt main_arg3 main_v26
  let main_v28 : IVec S128 1 := andi main_v25 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v23 main_v29
  let main_c_11 : IVec S_ 32 := constantI S_ 32 0#32
  let main_v31 : IVec S128 32 := broadcastInDim S128 ![] bcast_S_S128 main_c_11
  let main_v32 : IVec S128 1 := cmpi .sge main_arg4 main_v31
  let main_c_12 : IVec S_ 32 := constantI S_ 32 128#32
  fn_part2 (F := F) main_arg4 main_arg6 main_arg7 main_arg8 main_arg10 main_arg11 main_arg12 main_arg13 main_v30 main_v32 main_c_12

def fn {F : FTy → Type} [FloatOps F] (main_arg0 : FVec F S1024x4096 .f32) (main_arg1 : FVec F S4096 .f32) (main_arg2 : FVec F S128 .f32) (main_arg3 : IVec S128 32) (main_arg4 : IVec S128 32) (main_arg5 : FVec F S2048 .f32) (main_arg6 : IVec S2048 32) (main_arg7 : IVec S2048 32) (main_arg8 : IVec S2048 32) (main_arg9 : FVec F S4096 .f32) (main_arg10 : IVec S4096 32) (main_arg11 : IVec S4096 32) (main_arg12 : IVec S4096 32) (main_arg13 : IVec S4096 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg3 main_arg4 main_arg6 main_arg7 main_arg8 main_arg9 main_arg10 main_arg11 main_arg12 main_arg13 main_v13 main_v16
-- ==== Kernel.lean ====
abbrev S1024x4096 : Shape := ⟨2, ![1024, 4096]⟩
abbrev S4096 : Shape := ⟨1, ![4096]⟩
abbrev S128 : Shape := ⟨1, ![128]⟩
abbrev S2048 : Shape := ⟨1, ![2048]⟩
abbrev S1024x128x32 : Shape := ⟨3, ![1024, 128, 32]⟩
abbrev S1024x32x128 : Shape := ⟨3, ![1024, 32, 128]⟩
abbrev S32768x128 : Shape := ⟨2, ![32768, 128]⟩
abbrev S_ : Shape := ⟨0, ![]⟩
abbrev S128x128 : Shape := ⟨2, ![128, 128]⟩
abbrev S128x1 : Shape := ⟨2, ![128, 1]⟩
abbrev S128x2 : Shape := ⟨2, ![128, 2]⟩
abbrev S2048x1 : Shape := ⟨2, ![2048, 1]⟩
abbrev S1x128 : Shape := ⟨2, ![1, 128]⟩
abbrev S2048x128 : Shape := ⟨2, ![2048, 128]⟩
abbrev S128x2048 : Shape := ⟨2, ![128, 2048]⟩
abbrev S4096x1 : Shape := ⟨2, ![4096, 1]⟩
abbrev S4096x128 : Shape := ⟨2, ![4096, 128]⟩
abbrev S128x4096 : Shape := ⟨2, ![128, 4096]⟩
abbrev S128x32 : Shape := ⟨2, ![128, 32]⟩
abbrev S32x128 : Shape := ⟨2, ![32, 128]⟩
abbrev S1x32x1x128 : Shape := ⟨4, ![1, 32, 1, 128]⟩
abbrev S32x32x1x128 : Shape := ⟨4, ![32, 32, 1, 128]⟩
abbrev S1024x128 : Shape := ⟨2, ![1024, 128]⟩
abbrev S128x512 : Shape := ⟨2, ![128, 512]⟩
abbrev S512x128 : Shape := ⟨2, ![512, 128]⟩
abbrev S1024x512 : Shape := ⟨2, ![1024, 512]⟩

abbrev nBuf : Space → Nat
  | .hbm => 103
  | .vmem => 13
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S128, .f32⟩
  | .hbm, ⟨3, _⟩ => ⟨S128, .i32⟩
  | .hbm, ⟨4, _⟩ => ⟨S128, .i32⟩
  | .hbm, ⟨5, _⟩ => ⟨S2048, .f32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S4096, .f32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S1024x128x32, .f32⟩
  | .hbm, ⟨15, _⟩ => ⟨S1024x32x128, .f32⟩
  | .hbm, ⟨16, _⟩ => ⟨S32768x128, .f32⟩
  | .hbm, ⟨17, _⟩ => ⟨S32768x128, .bf16⟩
  | .hbm, ⟨18, _⟩ => ⟨S_, .f32⟩
  | .hbm, ⟨19, _⟩ => ⟨S128x128, .f32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S128x1, .i32⟩
  | .hbm, ⟨35, _⟩ => ⟨S128x1, .i32⟩
  | .hbm, ⟨36, _⟩ => ⟨S128x2, .i32⟩
  | .hbm, ⟨37, _⟩ => ⟨S128x128, .f32⟩
  | .hbm, ⟨38, _⟩ => ⟨S128x128, .bf16⟩
  | .hbm, ⟨39, _⟩ => ⟨S2048x1, .i32⟩
  | .hbm, ⟨40, _⟩ => ⟨S1x128, .i32⟩
  | .hbm, ⟨41, _⟩ => ⟨S2048x128, .i32⟩
  | .hbm, ⟨42, _⟩ => ⟨S2048x128, .i32⟩
  | .hbm, ⟨43, _⟩ => ⟨S2048x128, .i1⟩
  | .hbm, ⟨44, _⟩ => ⟨S2048x128, .bf16⟩
  | .hbm, ⟨45, _⟩ => ⟨S128x2048, .bf16⟩
  | .hbm, ⟨46, _⟩ => ⟨S2048x1, .i32⟩
  | .hbm, ⟨47, _⟩ => ⟨S1x128, .i32⟩
  | .hbm, ⟨48, _⟩ => ⟨S2048x128, .i32⟩
  | .hbm, ⟨49, _⟩ => ⟨S2048x128, .i32⟩
  | .hbm, ⟨50, _⟩ => ⟨S2048x128, .i1⟩
  | .hbm, ⟨51, _⟩ => ⟨S2048x128, .bf16⟩
  | .hbm, ⟨52, _⟩ => ⟨S128x2048, .bf16⟩
  | .hbm, ⟨53, _⟩ => ⟨S2048x1, .i32⟩
  | .hbm, ⟨54, _⟩ => ⟨S1x128, .i32⟩
  | .hbm, ⟨55, _⟩ => ⟨S2048x128, .i32⟩
  | .hbm, ⟨56, _⟩ => ⟨S2048x128, .i32⟩
  | .hbm, ⟨57, _⟩ => ⟨S2048x128, .i1⟩
  | .hbm, ⟨58, _⟩ => ⟨S2048x128, .f32⟩
  | .hbm, ⟨59, _⟩ => ⟨S2048x1, .f32⟩
  | .hbm, ⟨60, _⟩ => ⟨S2048x128, .f32⟩
  | .hbm, ⟨61, _⟩ => ⟨S2048x128, .f32⟩
  | .hbm, ⟨62, _⟩ => ⟨S2048x128, .bf16⟩
  | .hbm, ⟨63, _⟩ => ⟨S4096x1, .i32⟩
  | .hbm, ⟨64, _⟩ => ⟨S1x128, .i32⟩
  | .hbm, ⟨65, _⟩ => ⟨S4096x128, .i32⟩
  | .hbm, ⟨66, _⟩ => ⟨S4096x128, .i32⟩
  | .hbm, ⟨67, _⟩ => ⟨S4096x128, .i1⟩
  | .hbm, ⟨68, _⟩ => ⟨S4096x128, .bf16⟩
  | .hbm, ⟨69, _⟩ => ⟨S128x4096, .bf16⟩
  | .hbm, ⟨70, _⟩ => ⟨S4096x1, .i32⟩
  | .hbm, ⟨71, _⟩ => ⟨S1x128, .i32⟩
  | .hbm, ⟨72, _⟩ => ⟨S4096x128, .i32⟩
  | .hbm, ⟨73, _⟩ => ⟨S4096x128, .i32⟩
  | .hbm, ⟨74, _⟩ => ⟨S4096x128, .i1⟩
  | .hbm, ⟨75, _⟩ => ⟨S4096x128, .bf16⟩
  | .hbm, ⟨76, _⟩ => ⟨S128x4096, .bf16⟩
  | .hbm, ⟨77, _⟩ => ⟨S4096x1, .i32⟩
  | .hbm, ⟨78, _⟩ => ⟨S1x128, .i32⟩
  | .hbm, ⟨79, _⟩ => ⟨S4096x128, .i32⟩
  | .hbm, ⟨80, _⟩ => ⟨S4096x128, .i32⟩
  | .hbm, ⟨81, _⟩ => ⟨S4096x128, .i1⟩
  | .hbm, ⟨82, _⟩ => ⟨S4096x128, .bf16⟩
  | .hbm, ⟨83, _⟩ => ⟨S128x4096, .bf16⟩
  | .hbm, ⟨84, _⟩ => ⟨S4096x1, .i32⟩
  | .hbm, ⟨85, _⟩ => ⟨S1x128, .i32⟩
  | .hbm, ⟨86, _⟩ => ⟨S4096x128, .i32⟩
  | .hbm, ⟨87, _⟩ => ⟨S4096x128, .i32⟩
  | .hbm, ⟨88, _⟩ => ⟨S4096x128, .i1⟩
  | .hbm, ⟨89, _⟩ => ⟨S4096x128, .f32⟩
  | .hbm, ⟨90, _⟩ => ⟨S4096x1, .f32⟩
  | .hbm, ⟨91, _⟩ => ⟨S4096x128, .f32⟩
  | .hbm, ⟨92, _⟩ => ⟨S4096x128, .f32⟩
  | .hbm, ⟨93, _⟩ => ⟨S4096x128, .bf16⟩
  | .hbm, ⟨94, _⟩ => ⟨S128x32, .f32⟩
  | .hbm, ⟨95, _⟩ => ⟨S32x128, .f32⟩
  | .hbm, ⟨96, _⟩ => ⟨S1x32x1x128, .f32⟩
  | .hbm, ⟨97, _⟩ => ⟨S32x32x1x128, .f32⟩
  | .hbm, ⟨98, _⟩ => ⟨S1024x128, .f32⟩
  | .hbm, ⟨99, _⟩ => ⟨S32768x128, .f32⟩
  | .hbm, ⟨100, _⟩ => ⟨S1024x32x128, .f32⟩
  | .hbm, ⟨101, _⟩ => ⟨S1024x128x32, .f32⟩
  | .hbm, ⟨102, _⟩ => ⟨S1024x4096, .f32⟩
  | .local _ .vmem, ⟨0, _⟩ => ⟨S1024x128, .bf16⟩
  | .local _ .vmem, ⟨1, _⟩ => ⟨S1024x128, .bf16⟩
  | .local _ .vmem, ⟨2, _⟩ => ⟨S128x128, .bf16⟩
  | .local _ .vmem, ⟨3, _⟩ => ⟨S128x2048, .bf16⟩
  | .local _ .vmem, ⟨4, _⟩ => ⟨S128x2048, .bf16⟩
  | .local _ .vmem, ⟨5, _⟩ => ⟨S2048x128, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | .local _ .vmem, ⟨9, _⟩ => ⟨S4096x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v20 : Ref sig .tc := ⟨.hbm, 44, rfl⟩
abbrev main_v21 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v22 : Ref sig .tc := ⟨.hbm, 51, rfl⟩
abbrev main_v23 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v29 : Ref sig .tc := ⟨.hbm, 68, rfl⟩
abbrev main_v30 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v31 : Ref sig .tc := ⟨.hbm, 75, rfl⟩
abbrev main_v32 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v33 : Ref sig .tc := ⟨.hbm, 82, rfl⟩
abbrev main_v34 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  v17
def k0_off1 (k0_t1 : Fin k0_t1_loop.trips) : Fin 2 → Nat :=
  let c0_13 : Index := 0#32
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v19 : Index := Scalar.indexCast v18
  ![0, v19.toNat]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v17 : BitVec 32 := Scalar.muli arg12 c512_i32
  let v18 : BitVec 32 := v17
  let v25 : Index := Scalar.indexCast v18
  let c0_15 : Index := 0#32
  ![v25.toNat, 0]
@[reducible] def k0_t2_loop : Scf.Loop 32 :=
  let c0_i32_6 : BitVec 32 := 0#32
  let c8_i32 : BitVec 32 := 8#32
  let v9 : BitVec 32 := Scalar.addi c0_i32_6 c8_i32
  let c1_i32_7 : BitVec 32 := 1#32
  ⟨c0_i32_6, v9, c1_i32_7⟩
def k0_mult2 (k0_t2 : Fin k0_t2_loop.trips) : BitVec 32 :=
  let c0_i32_6 : BitVec 32 := 0#32
  let c1_i32_7 : BitVec 32 := 1#32
  let arg12 : BitVec 32 := Scf.iv c0_i32_6 c1_i32_7 k0_t2
  let c512_i32 : BitVec 32 := 512#32
  let v17 : BitVec 32 := Scalar.muli arg12 c512_i32
  v17
def k0_off3 (k0_t2 : Fin k0_t2_loop.trips) : Fin 2 → Nat :=
  let c0_13 : Index := 0#32
  let c0_i32_6 : BitVec 32 := 0#32
  let c1_i32_7 : BitVec 32 := 1#32
  let arg12 : BitVec 32 := Scf.iv c0_i32_6 c1_i32_7 k0_t2
  let c512_i32 : BitVec 32 := 512#32
  let v17 : BitVec 32 := Scalar.muli arg12 c512_i32
  let v18 : BitVec 32 := v17
  let v19 : Index := Scalar.indexCast v18
  ![0, v19.toNat]
def k0_off4 (k0_t2 : Fin k0_t2_loop.trips) : Fin 2 → Nat :=
  let c0_i32_6 : BitVec 32 := 0#32
  let c1_i32_7 : BitVec 32 := 1#32
  let arg12 : BitVec 32 := Scf.iv c0_i32_6 c1_i32_7 k0_t2
  let c512_i32 : BitVec 32 := 512#32
  let v17 : BitVec 32 := Scalar.muli arg12 c512_i32
  let v18 : BitVec 32 := v17
  let v28 : Index := Scalar.indexCast v18
  let c0_16 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024x4096_S1024x128x32 : S1024x4096.ShapeCasts S1024x128x32
  transposes_S1024x128x32_S1024x32x128_0_2_1 : S1024x128x32.Transposes [0, 2, 1] S1024x32x128
  shapeCasts_S1024x32x128_S32768x128 : S1024x32x128.ShapeCasts S32768x128
  bitsLt_bf16_f32 : FTy.bits .bf16 < FTy.bits .f32
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  transposes_S2048x128_S128x2048_1_0 : S2048x128.Transposes [1, 0] S128x2048
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  transposes_S4096x128_S128x4096_1_0 : S4096x128.Transposes [1, 0] S128x4096
  shapeCasts_S4096_S128x32 : S4096.ShapeCasts S128x32
  transposes_S128x32_S32x128_1_0 : S128x32.Transposes [1, 0] S32x128
  shapeCasts_S32x128_S1x32x1x128 : S32x128.ShapeCasts S1x32x1x128
  bcast_S1x32x1x128_S32x32x1x128_0_1_2_3 : S1x32x1x128.BroadcastsInDim S32x32x1x128 (![0, 1, 2, 3] : Fin 4 → Fin S32x32x1x128.rank)
  shapeCasts_S32x32x1x128_S1024x128 : S32x32x1x128.ShapeCasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S128x512 : 0 < S128x512.numel
  shapeCasts_S128x512_S128x512 : S128x512.ShapeCasts S128x512
  h_S512x128 : 0 < S512x128.numel
  shapeCasts_S512x128_S512x128 : S512x128.ShapeCasts S512x128
  shapeCasts_S32768x128_S1024x32x128 : S32768x128.ShapeCasts S1024x32x128
  transposes_S1024x32x128_S1024x128x32_0_2_1 : S1024x32x128.Transposes [0, 2, 1] S1024x128x32
  shapeCasts_S1024x128x32_S1024x4096 : S1024x128x32.ShapeCasts S1024x4096
  scatter_S128x128_S128x2_S128_n_01_01_1_wf : ScatterDims.WF S128x128 S128x2 S128 [] [0, 1] [0, 1] 1
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x512.size a ≤ S128x2048.size a
  k0_off2_inb : ∀ k0_t1 : Fin k0_t1_loop.trips, ∀ a, (k0_off2 k0_t1) a + S512x128.size a ≤ S2048x128.size a
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S128x512.size a ≤ S128x4096.size a
  k0_off4_inb : ∀ k0_t2 : Fin k0_t2_loop.trips, ∀ a, (k0_off4 k0_t2) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .bf16 = 32 ∨ (Rect.block (s := S32768x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .bf16 = 32 ∨ (Rect.block (s := S128x2048) S128x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x128.size a
  hwx0_4 : ∀ i : grid0.Coords, EltTy.bits .bf16 = 32 ∨ (Rect.block (s := S2048x128) S2048x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x4096.size a
  hwx0_5 : ∀ i : grid0.Coords, EltTy.bits .bf16 = 32 ∨ (Rect.block (s := S128x4096) S128x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .bf16 = 32 ∨ (Rect.block (s := S128x4096) S128x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S128x4096.size a
  hwx0_7 : ∀ i : grid0.Coords, EltTy.bits .bf16 = 32 ∨ (Rect.block (s := S128x4096) S128x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S4096x128.size a
  hwx0_8 : ∀ i : grid0.Coords, EltTy.bits .bf16 = 32 ∨ (Rect.block (s := S4096x128) S4096x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x128.size a
  hwx0_9 : ∀ i : grid0.Coords, EltTy.bits .f32 = 32 ∨ (Rect.block (s := S1024x128) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S32768x128.size a
  hwx0_10 : ∀ i : grid0.Coords, EltTy.bits .f32 = 32 ∨ (Rect.block (s := S32768x128) S1024x128.size (cc0_transform_10 i) (hinb0_10 i)).WholeWords (EltTy.packing .f32)

variable [Facts₀]

def scatter_S128x128_S128x2_S128_n_01_01_1 : ScatterDims S128x128 S128x2 S128 where
  updateWindowDims := []
  insertedWindowDims := [0, 1]
  scatterDimsToOperandDims := [0, 1]
  indexVectorDim := 1
  wf := scatter_S128x128_S128x2_S128_n_01_01_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v3) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2048x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S128x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S4096x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S1024x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v45) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096 : Shape := ⟨1, ![4096]⟩
abbrev S128 : Shape := ⟨1, ![128]⟩
abbrev S2048 : Shape := ⟨1, ![2048]⟩
abbrev S1024x128x32 : Shape := ⟨3, ![1024, 128, 32]⟩
abbrev S_ : Shape := ⟨0, ![]⟩
abbrev S1x128x1 : Shape := ⟨3, ![1, 128, 1]⟩
abbrev S128x1 : Shape := ⟨2, ![128, 1]⟩
abbrev S1x2048x1 : Shape := ⟨3, ![1, 2048, 1]⟩
abbrev S2048x1 : Shape := ⟨2, ![2048, 1]⟩
abbrev S1024x2048x32 : Shape := ⟨3, ![1024, 2048, 32]⟩
abbrev S1x4096x1 : Shape := ⟨3, ![1, 4096, 1]⟩
abbrev S4096x1 : Shape := ⟨2, ![4096, 1]⟩
abbrev S1024x4096x32 : Shape := ⟨3, ![1024, 4096, 32]⟩
abbrev S1x4096 : Shape := ⟨2, ![1, 4096]⟩

abbrev nBuf : Space → Nat
  | .hbm => 114
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S128, .f32⟩
  | .hbm, ⟨3, _⟩ => ⟨S128, .i32⟩
  | .hbm, ⟨4, _⟩ => ⟨S128, .i32⟩
  | .hbm, ⟨5, _⟩ => ⟨S2048, .f32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S4096, .f32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S1024x128x32, .f32⟩
  | .hbm, ⟨15, _⟩ => ⟨S_, .f32⟩
  | .hbm, ⟨16, _⟩ => ⟨S1024x128x32, .f32⟩
  | .hbm, ⟨17, _⟩ => ⟨S1x128x1, .f32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1024x128x32, .f32⟩
  | .hbm, ⟨27, _⟩ => ⟨S1024x128x32, .f32⟩
  | .hbm, ⟨28, _⟩ => ⟨S1024x128x32, .f32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S1024x128x32, .f32⟩
  | .hbm, ⟨38, _⟩ => ⟨S1x2048x1, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S1024x2048x32, .f32⟩
  | .hbm, ⟨48, _⟩ => ⟨S1024x2048x32, .f32⟩
  | .hbm, ⟨49, _⟩ => ⟨S1024x2048x32, .f32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S1024x2048x32, .f32⟩
  | .hbm, ⟨59, _⟩ => ⟨S1024x2048x32, .f32⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S2048x1, .i32⟩
  | .hbm, ⟨68, _⟩ => ⟨S1024x128x32, .f32⟩
  | .hbm, ⟨69, _⟩ => ⟨S1x4096x1, .f32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S1024x4096x32, .f32⟩
  | .hbm, ⟨79, _⟩ => ⟨S1024x4096x32, .f32⟩
  | .hbm, ⟨80, _⟩ => ⟨S1024x4096x32, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S1024x4096x32, .f32⟩
  | .hbm, ⟨90, _⟩ => ⟨S1024x4096x32, .f32⟩
  | .hbm, ⟨91, _⟩ => ⟨S_, .i32⟩
  | .hbm, ⟨92, _⟩ => ⟨S4096, .i32⟩
  | .hbm, ⟨93, _⟩ => ⟨S4096, .i1⟩
  | .hbm, ⟨94, _⟩ => ⟨S_, .i32⟩
  | .hbm, ⟨95, _⟩ => ⟨S4096, .i32⟩
  | .hbm, ⟨96, _⟩ => ⟨S4096, .i32⟩
  | .hbm, ⟨97, _⟩ => ⟨S4096, .i32⟩
  | .hbm, ⟨98, _⟩ => ⟨S4096x1, .i32⟩
  | .hbm, ⟨99, _⟩ => ⟨S1024x4096x32, .f32⟩
  | .hbm, ⟨100, _⟩ => ⟨S1024x4096x32, .f32⟩
  | .hbm, ⟨101, _⟩ => ⟨S_, .i32⟩
  | .hbm, ⟨102, _⟩ => ⟨S4096, .i32⟩
  | .hbm, ⟨103, _⟩ => ⟨S4096, .i1⟩
  | .hbm, ⟨104, _⟩ => ⟨S_, .i32⟩
  | .hbm, ⟨105, _⟩ => ⟨S4096, .i32⟩
  | .hbm, ⟨106, _⟩ => ⟨S4096, .i32⟩
  | .hbm, ⟨107, _⟩ => ⟨S4096, .i32⟩
  | .hbm, ⟨108, _⟩ => ⟨S4096x1, .i32⟩
  | .hbm, ⟨109, _⟩ => ⟨S1024x128x32, .f32⟩
  | .hbm, ⟨110, _⟩ => ⟨S1024x4096, .f32⟩
  | .hbm, ⟨111, _⟩ => ⟨S1x4096, .f32⟩
  | .hbm, ⟨112, _⟩ => ⟨S1024x4096, .f32⟩
  | .hbm, ⟨113, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  shapeCasts_S1024x4096_S1024x128x32 : S1024x4096.ShapeCasts S1024x128x32
  bcast_S_S1024x128x32 : S_.BroadcastsInDim S1024x128x32 (![] : Fin 0 → Fin S1024x128x32.rank)
  bcast_S128_S1x128x1_1 : S128.BroadcastsInDim S1x128x1 (![1] : Fin 1 → Fin S1x128x1.rank)
  bcast_S_S128 : S_.BroadcastsInDim S128 (![] : Fin 0 → Fin S128.rank)
  bcast_S128_S128x1_0 : S128.BroadcastsInDim S128x1 (![0] : Fin 1 → Fin S128x1.rank)
  bcast_S1x128x1_S1024x128x32_0_1_2 : S1x128x1.BroadcastsInDim S1024x128x32 (![0, 1, 2] : Fin 3 → Fin S1024x128x32.rank)
  bcast_S2048_S1x2048x1_1 : S2048.BroadcastsInDim S1x2048x1 (![1] : Fin 1 → Fin S1x2048x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S1x2048x1_S1024x2048x32_0_1_2 : S1x2048x1.BroadcastsInDim S1024x2048x32 (![0, 1, 2] : Fin 3 → Fin S1024x2048x32.rank)
  bcast_S4096_S1x4096x1_1 : S4096.BroadcastsInDim S1x4096x1 (![1] : Fin 1 → Fin S1x4096x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x4096x1_S1024x4096x32_0_1_2 : S1x4096x1.BroadcastsInDim S1024x4096x32 (![0, 1, 2] : Fin 3 → Fin S1024x4096x32.rank)
  shapeCasts_S1024x128x32_S1024x4096 : S1024x128x32.ShapeCasts S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  gather_S1024x128x32_S128x1_S1024x128x32_02_1_n_n_1_1_1024132_wf : GatherDims.WF S1024x128x32 S128x1 S1024x128x32 [0, 2] [1] [] [1] [] 1 ![1024, 1, 32]
  scatter_S1024x128x32_S128x1_S1024x128x32_02_1_1_1_wf : ScatterDims.WF S1024x128x32 S128x1 S1024x128x32 [0, 2] [1] [1] 1
  gather_S1024x128x32_S2048x1_S1024x2048x32_02_1_n_n_1_1_1024132_wf : GatherDims.WF S1024x128x32 S2048x1 S1024x2048x32 [0, 2] [1] [] [1] [] 1 ![1024, 1, 32]
  scatter_S1024x128x32_S2048x1_S1024x2048x32_02_1_1_1_wf : ScatterDims.WF S1024x128x32 S2048x1 S1024x2048x32 [0, 2] [1] [1] 1
  gather_S1024x128x32_S4096x1_S1024x4096x32_02_1_n_n_1_1_1024132_wf : GatherDims.WF S1024x128x32 S4096x1 S1024x4096x32 [0, 2] [1] [] [1] [] 1 ![1024, 1, 32]
  scatter_S1024x128x32_S4096x1_S1024x4096x32_02_1_1_1_wf : ScatterDims.WF S1024x128x32 S4096x1 S1024x4096x32 [0, 2] [1] [1] 1

variable [Facts₀]

def gather_S1024x128x32_S128x1_S1024x128x32_02_1_n_n_1_1_1024132 : GatherDims S1024x128x32 S128x1 S1024x128x32 where
  offsetDims := [0, 2]
  collapsedSliceDims := [1]
  operandBatchingDims := []
  startIndicesBatchingDims := []
  startIndexMap := [1]
  indexVectorDim := 1
  sliceSizes := ![1024, 1, 32]
  wf := gather_S1024x128x32_S128x1_S1024x128x32_02_1_n_n_1_1_1024132_wf
def scatter_S1024x128x32_S128x1_S1024x128x32_02_1_1_1 : ScatterDims S1024x128x32 S128x1 S1024x128x32 where
  updateWindowDims := [0, 2]
  insertedWindowDims := [1]
  scatterDimsToOperandDims := [1]
  indexVectorDim := 1
  wf := scatter_S1024x128x32_S128x1_S1024x128x32_02_1_1_1_wf
def gather_S1024x128x32_S2048x1_S1024x2048x32_02_1_n_n_1_1_1024132 : GatherDims S1024x128x32 S2048x1 S1024x2048x32 where
  offsetDims := [0, 2]
  collapsedSliceDims := [1]
  operandBatchingDims := []
  startIndicesBatchingDims := []
  startIndexMap := [1]
  indexVectorDim := 1
  sliceSizes := ![1024, 1, 32]
  wf := gather_S1024x128x32_S2048x1_S1024x2048x32_02_1_n_n_1_1_1024132_wf
def scatter_S1024x128x32_S2048x1_S1024x2048x32_02_1_1_1 : ScatterDims S1024x128x32 S2048x1 S1024x2048x32 where
  updateWindowDims := [0, 2]
  insertedWindowDims := [1]
  scatterDimsToOperandDims := [1]
  indexVectorDim := 1
  wf := scatter_S1024x128x32_S2048x1_S1024x2048x32_02_1_1_1_wf
def gather_S1024x128x32_S4096x1_S1024x4096x32_02_1_n_n_1_1_1024132 : GatherDims S1024x128x32 S4096x1 S1024x4096x32 where
  offsetDims := [0, 2]
  collapsedSliceDims := [1]
  operandBatchingDims := []
  startIndicesBatchingDims := []
  startIndexMap := [1]
  indexVectorDim := 1
  sliceSizes := ![1024, 1, 32]
  wf := gather_S1024x128x32_S4096x1_S1024x4096x32_02_1_n_n_1_1_1024132_wf
def scatter_S1024x128x32_S4096x1_S1024x4096x32_02_1_1_1 : ScatterDims S1024x128x32 S4096x1 S1024x4096x32 where
  updateWindowDims := [0, 2]
  insertedWindowDims := [1]
  scatterDimsToOperandDims := [1]
  indexVectorDim := 1
  wf := scatter_S1024x128x32_S4096x1_S1024x4096x32_02_1_1_1_wf

class Facts : Prop extends Facts₀ where

variable [Facts]
-- ==== Proof.Spec.lean ====
/-
  The segmented polynomial both programs compute, written once over the raw argument arrays.

  The input `x0` is read as 1024 rows of 128 segments of 32 numbers: entry (s, d) of row b sits at flat position
  s·32 + d.  Three families of paths add products of segments into output segments:
    degree 1:  out[b, o1 p, d] += c1 p · x[b, i1 p, d]
    degree 2:  out[b, o2 p, d] += c2 p · x[b, a2 p, d] · x[b, b2 p, d]
    degree 3:  out[b, o3 p, d] += c3 p · x[b, a3 p, d] · x[b, b3 p, d] · x[b, d3 p, d]
  and `coeff0` is added to every row.  `G` states this with the index conventions of the array operations the
  reference uses (a negative word is first shifted by 128; a read clamps its index into the table, an accumulating
  write outside the table is dropped).  `Kres` states what the fused kernel computes: the same rows laid out as a
  32768 × 128 matrix (row b·32 + d, column s), the paths as products with 0/1 routing matrices, the two higher degrees
  accumulated over tiles of 512 paths.
-/
import Idealize.ShloMosaic.PureOps.Ideal
import Idealize.ShloMosaic.Lib.ValueIdx

noncomputable section

namespace Cert.SegPoly

open Idealize.ShloMosaic Idealize.ShloMosaic.ValueIdx

/-- The argument arrays, at the ideal values: floats are extended reals, index arrays 32-bit words. -/
structure Inputs where
  x0 : (⟨2, ![1024, 4096]⟩ : Shape).Idx → EReal
  coeff0 : (⟨1, ![4096]⟩ : Shape).Idx → EReal
  c1 : (⟨1, ![128]⟩ : Shape).Idx → EReal
  i1 : (⟨1, ![128]⟩ : Shape).Idx → BitVec 32
  o1 : (⟨1, ![128]⟩ : Shape).Idx → BitVec 32
  c2 : (⟨1, ![2048]⟩ : Shape).Idx → EReal
  a2 : (⟨1, ![2048]⟩ : Shape).Idx → BitVec 32
  b2 : (⟨1, ![2048]⟩ : Shape).Idx → BitVec 32
  o2 : (⟨1, ![2048]⟩ : Shape).Idx → BitVec 32
  c3 : (⟨1, ![4096]⟩ : Shape).Idx → EReal
  a3 : (⟨1, ![4096]⟩ : Shape).Idx → BitVec 32
  b3 : (⟨1, ![4096]⟩ : Shape).Idx → BitVec 32
  d3 : (⟨1, ![4096]⟩ : Shape).Idx → BitVec 32
  o3 : (⟨1, ![4096]⟩ : Shape).Idx → BitVec 32

/-- Flat position of sub-dimension d of segment s. -/
def flat (s : Fin 128) (d : Fin 32) : Fin 4096 := ⟨s.val * 32 + d.val, by omega⟩

/-- A negative index word counts from the end of a table of 128 entries. -/
def wrap (w : BitVec 32) : BitVec 32 := if w.toInt < 0 then w + 128#32 else w

/-- The table entry a read at word w takes: the wrapped word clamped into [0, 127]. -/
def rd (w : BitVec 32) : Fin 128 := ⟨min (wrap w).toInt.toNat 127, by omega⟩

/-- An accumulating write at word w lands on entry s (and is dropped when it names no entry). -/
def hits (w : BitVec 32) (s : Fin 128) : Prop := (wrap w).toInt = (s.val : Int)

instance (w : BitVec 32) (s : Fin 128) : Decidable (hits w s) := by unfold hits; infer_instance

variable (I : Inputs)

/-- Entry (s, d) of row b of the input. -/
def seg (b : Fin 1024) (s : Fin 128) (d : Fin 32) : EReal := I.x0 (ix2 b (flat s d))

/-- Every float argument is a real number. -/
structure Finite : Prop where
  x0 : ∀ i, ∃ r : ℝ, I.x0 i = (r : EReal)
  coeff0 : ∀ i, ∃ r : ℝ, I.coeff0 i = (r : EReal)
  c1 : ∀ i, ∃ r : ℝ, I.c1 i = (r : EReal)
  c2 : ∀ i, ∃ r : ℝ, I.c2 i = (r : EReal)
  c3 : ∀ i, ∃ r : ℝ, I.c3 i = (r : EReal)

/-- Every index word names one of the 128 segments. -/
structure InRange : Prop where
  i1 : ∀ p, (I.i1 p).toNat < 128
  o1 : ∀ p, (I.o1 p).toNat < 128
  a2 : ∀ p, (I.a2 p).toNat < 128
  b2 : ∀ p, (I.b2 p).toNat < 128
  o2 : ∀ p, (I.o2 p).toNat < 128
  a3 : ∀ p, (I.a3 p).toNat < 128
  b3 : ∀ p, (I.b3 p).toNat < 128
  d3 : ∀ p, (I.d3 p).toNat < 128
  o3 : ∀ p, (I.o3 p).toNat < 128

/-! ## The reference's form -/

/-- After the degree-1 paths. -/
def out1 (b : Fin 1024) (s : Fin 128) (d : Fin 32) : EReal :=
  0 + ∑ p ∈ Finset.univ.filter (fun p : Fin 128 => hits (I.o1 (ix1 p)) s), I.c1 (ix1 p) * seg I b (rd (I.i1 (ix1 p))) d

/-- After the degree-2 paths. -/
def out2 (b : Fin 1024) (s : Fin 128) (d : Fin 32) : EReal :=
  out1 I b s d + ∑ p ∈ Finset.univ.filter (fun p : Fin 2048 => hits (I.o2 (ix1 p)) s),
    I.c2 (ix1 p) * seg I b (rd (I.a2 (ix1 p))) d * seg I b (rd (I.b2 (ix1 p))) d

/-- After the degree-3 paths. -/
def out3 (b : Fin 1024) (s : Fin 128) (d : Fin 32) : EReal :=
  out2 I b s d + ∑ p ∈ Finset.univ.filter (fun p : Fin 4096 => hits (I.o3 (ix1 p)) s),
    I.c3 (ix1 p) * seg I b (rd (I.a3 (ix1 p))) d * seg I b (rd (I.b3 (ix1 p))) d * seg I b (rd (I.d3 (ix1 p))) d

/-- The result: row b, flat position s·32 + d. -/
def G (b : Fin 1024) (s : Fin 128) (d : Fin 32) : EReal := out3 I b s d + I.coeff0 (ix1 (flat s d))

/-! ## The kernel's form -/

/-- The input as the 32768 × 128 matrix the kernel multiplies: row b·32 + d, column s. -/
def xt (n : Fin 32768) (k : Fin 128) : EReal :=
  I.x0 (ix2 (⟨n.val / 32, by omega⟩ : Fin 1024) (flat k ⟨n.val % 32, Nat.mod_lt _ (by decide)⟩))

/-- The degree-1 routing matrix: entry (k, s) collects the coefficients of the paths from segment k to segment s. -/
def w1 (k s : Fin 128) : EReal :=
  0 + ∑ p ∈ Finset.univ.filter (fun p : Fin 128 => hits (I.i1 (ix1 p)) k ∧ hits (I.o1 (ix1 p)) s), I.c1 (ix1 p)

/-- The 0/1 entry of a routing matrix: word w names segment k. -/
def oh (w : BitVec 32) (k : Fin 128) : EReal := if w = BitVec.ofNat 32 k.val then 1 else 0

/-- The bias tile: row r of a tile belongs to sub-dimension r mod 32. -/
def bias (r : Fin 1024) (s : Fin 128) : EReal := I.coeff0 (ix1 (flat s ⟨r.val % 32, Nat.mod_lt _ (by decide)⟩))

/-- One tile of 512 degree-2 paths, starting at path `base`. -/
def tile2 (n : Fin 32768) (s : Fin 128) (base : Nat) (hb : base + 512 ≤ 2048) : EReal :=
  ∑ q : Fin 512,
    ((∑ k : Fin 128, xt I n k * oh (I.a2 (ix1 ⟨base + q.val, by omega⟩)) k)
      * (∑ k : Fin 128, xt I n k * oh (I.b2 (ix1 ⟨base + q.val, by omega⟩)) k))
    * (oh (I.o2 (ix1 ⟨base + q.val, by omega⟩)) s * I.c2 (ix1 ⟨base + q.val, by omega⟩))

/-- One tile of 512 degree-3 paths, starting at path `base`. -/
def tile3 (n : Fin 32768) (s : Fin 128) (base : Nat) (hb : base + 512 ≤ 4096) : EReal :=
  ∑ q : Fin 512,
    (((∑ k : Fin 128, xt I n k * oh (I.a3 (ix1 ⟨base + q.val, by omega⟩)) k)
        * (∑ k : Fin 128, xt I n k * oh (I.b3 (ix1 ⟨base + q.val, by omega⟩)) k))
      * (∑ k : Fin 128, xt I n k * oh (I.d3 (ix1 ⟨base + q.val, by omega⟩)) k))
    * (oh (I.o3 (ix1 ⟨base + q.val, by omega⟩)) s * I.c3 (ix1 ⟨base + q.val, by omega⟩))

/-- The degree-2 accumulator before tile j (tiles past the last add nothing). -/
def acc2 (n : Fin 32768) (s : Fin 128) : Nat → EReal
  | 0 => 0
  | j + 1 => if h : j * 512 + 512 ≤ 2048 then acc2 n s j + tile2 I n s (j * 512) h else acc2 n s j

/-- The degree-3 accumulator before tile j. -/
def acc3 (n : Fin 32768) (s : Fin 128) : Nat → EReal
  | 0 => 0
  | j + 1 => if h : j * 512 + 512 ≤ 4096 then acc3 n s j + tile3 I n s (j * 512) h else acc3 n s j

/-- What the kernel leaves at row n, column s of its 32768 × 128 output. -/
def Kout (n : Fin 32768) (s : Fin 128) : EReal :=
  (((∑ k : Fin 128, xt I n k * w1 I k s) + acc2 I n s 4) + acc3 I n s 8)
    + bias I ⟨n.val % 1024, Nat.mod_lt _ (by decide)⟩ s

/-- The kernel's result re-laid as rows of segments: row b, flat position s·32 + d. -/
def Kres (b : Fin 1024) (s : Fin 128) (d : Fin 32) : EReal := Kout I ⟨b.val * 32 + d.val, by omega⟩ s

end Cert.SegPoly

end
-- ==== Proof.RefIndex.lean ====
/-
  Reads of whole segments and accumulating writes of whole segments, at an index.

  An array of 1024 rows of 128 segments of 32 numbers is read, or added into, through P index words, one per path:
  the read takes for path p the segment its word names (the word read signed and clamped into [0, 127]); the write adds
  the update of path p into the segment its word names, and drops it when the word names none.  Both are stated for any
  number of paths P.
-/
import proofs.«401186_j52879637348694_2_alg».proof.Proof.Spec
import Idealize.ShloMosaic.Lib.ValueIdx
import Idealize.ShloMosaic.PureOps.Ideal.Laws

set_option maxRecDepth 16384
noncomputable section
namespace Cert.ReferenceIdeal

open Idealize.ShloMosaic Idealize.ShloMosaic.ValueIdx
open Cert.SegPoly

/-! ## Reads -/

/-- The dimension numbers of a read of whole segments: P start words, one per path. -/
abbrev segGather (P : Nat)
    (wf : GatherDims.WF ⟨3, ![1024, 128, 32]⟩ ⟨2, ![P, 1]⟩ ⟨3, ![1024, P, 32]⟩ [0, 2] [1] [] [1] [] 1 ![1024, 1, 32]) :
    GatherDims ⟨3, ![1024, 128, 32]⟩ ⟨2, ![P, 1]⟩ ⟨3, ![1024, P, 32]⟩ :=
  { offsetDims := [0, 2], collapsedSliceDims := [1], operandBatchingDims := [], startIndicesBatchingDims := [],
    startIndexMap := [1], indexVectorDim := 1, sliceSizes := ![1024, 1, 32], wf := wf }

/-- Of three axes, the ones other than the middle one. -/
theorem filter3_mid : (List.finRange 3).filter (fun a => a ∉ [(1 : Fin 3)]) = [0, 2] := by decide
/-- Of three axes, the one other than the outer two. -/
theorem filter3_outer : (List.finRange 3).filter (fun a => a ∉ [(0 : Fin 3), 2]) = [1] := by decide
/-- Of two axes, the one that is not the second. -/
theorem filter2_fst : (List.finRange 2).filter (fun a : Fin 2 => a.val ≠ 1) = [0] := by decide

/-- The entry of one list at the position an element has in another, once both lists are known. -/
theorem getElem_idxOf_of_eq {β γ : Type} [DecidableEq β] (l' l : List β) (m' m : List γ) (a : β)
    (h : l' = l) (hm : m' = m) (hlt : l'.idxOf a < m'.length) (k : Nat) (hk : l.idxOf a = k) (hk2 : k < m.length) :
    m'[l'.idxOf a]'hlt = m[k]'hk2 := by
  subst h hm hk; rfl

theorem fin2_cases (a : Fin 2) : a = 0 ∨ a = 1 := by revert a; decide
theorem fin3_cases (a : Fin 3) : a = 0 ∨ a = 1 ∨ a = 2 := by revert a; decide

/-- The start-index position a result index (b, p, d) reads: row p of the one-column word array. -/
theorem segGather_siIdx {P : Nat}
    (wf : GatherDims.WF ⟨3, ![1024, 128, 32]⟩ ⟨2, ![P, 1]⟩ ⟨3, ![1024, P, 32]⟩ [0, 2] [1] [] [1] [] 1 ![1024, 1, 32])
    (j : (⟨3, ![1024, P, 32]⟩ : Shape).Idx) (c : Fin (segGather P wf).startIndexMap.length) :
    (segGather P wf).siIdx j c = ix2 (j 1) 0 := by
  funext e; refine Fin.ext ?_
  rcases fin2_cases e with rfl | rfl
  · unfold GatherDims.siIdx GatherDims.siCoord
    rw [dif_neg (show ¬ ((0 : Fin 2).val = 1) by decide)]
    simp only [Fin.coe_cast]
    rw [getElem_idxOf_of_eq (segGather P wf).siKept [(0 : Fin 2)] (segGather P wf).batchDims [(1 : Fin 3)] (0 : Fin 2)
      filter2_fst filter3_outer _ 0 rfl (by simp)]
    rfl
  · have hc : c.val < 1 := c.isLt
    show c.val = 0
    omega

/-- A read of whole segments at (b, p, d): the operand's segment named by word p, read signed and clamped
    into [0, 127], at the same row and sub-dimension. -/
theorem segGather_apply {α : Type} {P w : Nat}
    (wf : GatherDims.WF ⟨3, ![1024, 128, 32]⟩ ⟨2, ![P, 1]⟩ ⟨3, ![1024, P, 32]⟩ [0, 2] [1] [] [1] [] 1 ![1024, 1, 32])
    (x : (⟨3, ![1024, 128, 32]⟩ : Shape).Idx → α) (idx : IVec ⟨2, ![P, 1]⟩ w)
    (b : Fin 1024) (p : Fin P) (d : Fin 32) :
    Host.gather (segGather P wf) x idx (ix3 b p d)
      = x (ix3 b ⟨min (idx (ix2 p 0)).toInt.toNat 127, by omega⟩ d) := by
  unfold Host.gather
  congr 1
  funext a
  refine Fin.ext ?_
  show (segGather P wf).start (ix3 b p d) idx a + (segGather P wf).batchCoord (ix3 b p d) a
    + (segGather P wf).offCoord (ix3 b p d) a = _
  rw [GatherDims.batchCoord_eq_zero _ _ _ List.not_mem_nil, Nat.add_zero]
  have hk : (segGather P wf).sKept = [0, 2] := filter3_mid
  rcases fin3_cases a with rfl | rfl | rfl
  · unfold GatherDims.start GatherDims.offCoord
    rw [dif_neg (show (0 : Fin 3) ∉ [(1 : Fin 3)] by decide), dif_pos (by rw [hk]; decide), Nat.zero_add]
    rw [getElem_idxOf_of_eq (segGather P wf).sKept [(0 : Fin 3), 2] (segGather P wf).offsetDims [(0 : Fin 3), 2] (0 : Fin 3)
      hk rfl _ 0 rfl (by simp)]
    rfl
  · unfold GatherDims.start
    rw [GatherDims.offCoord_eq_zero _ _ _ (by rw [hk]; decide), Nat.add_zero]
    rw [dif_pos (show (1 : Fin 3) ∈ [(1 : Fin 3)] by decide), segGather_siIdx]
    rfl
  · unfold GatherDims.start GatherDims.offCoord
    rw [dif_neg (show (2 : Fin 3) ∉ [(1 : Fin 3)] by decide), dif_pos (by rw [hk]; decide), Nat.zero_add]
    rw [getElem_idxOf_of_eq (segGather P wf).sKept [(0 : Fin 3), 2] (segGather P wf).offsetDims [(0 : Fin 3), 2] (2 : Fin 3)
      hk rfl _ 1 rfl (by simp)]
    rfl

/-! ## Accumulating writes -/

/-- The dimension numbers of an accumulating write of whole segments: P target words, one per path. -/
abbrev segScatter (P : Nat)
    (wf : ScatterDims.WF ⟨3, ![1024, 128, 32]⟩ ⟨2, ![P, 1]⟩ ⟨3, ![1024, P, 32]⟩ [0, 2] [1] [1] 1) :
    ScatterDims ⟨3, ![1024, 128, 32]⟩ ⟨2, ![P, 1]⟩ ⟨3, ![1024, P, 32]⟩ :=
  { updateWindowDims := [0, 2], insertedWindowDims := [1], scatterDimsToOperandDims := [1], indexVectorDim := 1, wf := wf }

/-- The target-word position an update index reads: row (its path) of the one-column word array. -/
theorem segScatter_siIdx {P : Nat}
    (wf : ScatterDims.WF ⟨3, ![1024, 128, 32]⟩ ⟨2, ![P, 1]⟩ ⟨3, ![1024, P, 32]⟩ [0, 2] [1] [1] 1)
    (j : (⟨3, ![1024, P, 32]⟩ : Shape).Idx) (c : Fin (segScatter P wf).scatterDimsToOperandDims.length) :
    (segScatter P wf).siIdx j c = ix2 (j 1) 0 := by
  funext e; refine Fin.ext ?_
  rcases fin2_cases e with rfl | rfl
  · unfold ScatterDims.siIdx ScatterDims.siCoord
    rw [dif_neg (show ¬ ((0 : Fin 2).val = 1) by decide)]
    simp only [Fin.coe_cast]
    rw [getElem_idxOf_of_eq (segScatter P wf).siKept [(0 : Fin 2)] (segScatter P wf).uScatter [(1 : Fin 3)] (0 : Fin 2)
      filter2_fst filter3_outer _ 0 rfl (by simp)]
    rfl
  · have hc : c.val < 1 := c.isLt
    show c.val = 0
    omega

section
variable {P w : Nat} (wf : ScatterDims.WF ⟨3, ![1024, 128, 32]⟩ ⟨2, ![P, 1]⟩ ⟨3, ![1024, P, 32]⟩ [0, 2] [1] [1] 1)
  (j : (⟨3, ![1024, P, 32]⟩ : Shape).Idx) (idx : IVec ⟨2, ![P, 1]⟩ w)

/-- Only the segment axis has a start: the target word, read signed. -/
theorem segScatter_start0 : (segScatter P wf).start j idx 0 = 0 := by
  unfold ScatterDims.start; rw [dif_neg (show (0 : Fin 3) ∉ [(1 : Fin 3)] by decide)]
theorem segScatter_start1 : (segScatter P wf).start j idx 1 = (idx (ix2 (j 1) 0)).toInt := by
  unfold ScatterDims.start; rw [dif_pos (show (1 : Fin 3) ∈ [(1 : Fin 3)] by decide), segScatter_siIdx]; rfl
theorem segScatter_start2 : (segScatter P wf).start j idx 2 = 0 := by
  unfold ScatterDims.start; rw [dif_neg (show (2 : Fin 3) ∉ [(1 : Fin 3)] by decide)]

/-- The row and the sub-dimension are window coordinates; the segment axis has none. -/
theorem segScatter_window0 : (segScatter P wf).window j 0 = (j 0).val := by
  have hk : (segScatter P wf).sKept = [0, 2] := filter3_mid
  unfold ScatterDims.window
  rw [dif_pos (by rw [hk]; decide)]
  rw [getElem_idxOf_of_eq (segScatter P wf).sKept [(0 : Fin 3), 2] (segScatter P wf).updateWindowDims [(0 : Fin 3), 2] (0 : Fin 3)
      hk rfl _ 0 rfl (by simp)]
  rfl
theorem segScatter_window1 : (segScatter P wf).window j 1 = 0 := by
  have hk : (segScatter P wf).sKept = [0, 2] := filter3_mid
  unfold ScatterDims.window
  rw [dif_neg (by rw [hk]; decide)]
theorem segScatter_window2 : (segScatter P wf).window j 2 = (j 2).val := by
  have hk : (segScatter P wf).sKept = [0, 2] := filter3_mid
  unfold ScatterDims.window
  rw [dif_pos (by rw [hk]; decide)]
  rw [getElem_idxOf_of_eq (segScatter P wf).sKept [(0 : Fin 3), 2] (segScatter P wf).updateWindowDims [(0 : Fin 3), 2] (2 : Fin 3)
      hk rfl _ 1 rfl (by simp)]
  rfl

/-- An update at (b', p, d') lands on (b, s, d) exactly when b' = b, d' = d and target word p, read signed, is s. -/
theorem segScatter_hit (b : Fin 1024) (s : Fin 128) (d : Fin 32) :
    (segScatter P wf).resultIdx? j idx = some (ix3 b s d)
      ↔ j 0 = b ∧ j 2 = d ∧ (idx (ix2 (j 1) 0)).toInt = (s.val : Int) := by
  have hb : (j 0).val < 1024 := (j 0).isLt
  have hd : (j 2).val < 32 := (j 2).isLt
  have hs : s.val < 128 := s.isLt
  unfold ScatterDims.resultIdx?
  split
  · rename_i h
    rw [Option.some.injEq]
    constructor
    · intro hf
      have h0 := congrArg (fun f => (f 0).val) hf
      have h1 := congrArg (fun f => (f 1).val) hf
      have h2 := congrArg (fun f => (f 2).val) hf
      have g1 := (h 1).1
      simp only [segScatter_start0, segScatter_start1, segScatter_start2, segScatter_window0, segScatter_window1,
        segScatter_window2] at h0 h1 h2 g1
      refine ⟨Fin.ext ?_, Fin.ext ?_, ?_⟩
      · show (j 0).val = b.val
        have : (ix3 b s d 0).val = b.val := rfl
        omega
      · show (j 2).val = d.val
        have : (ix3 b s d 2).val = d.val := rfl
        omega
      · have : (ix3 b s d 1).val = s.val := rfl
        omega
    · rintro ⟨h0, h2, h1⟩
      funext a; refine Fin.ext ?_
      rcases fin3_cases a with rfl | rfl | rfl
      · simp only [segScatter_start0, segScatter_window0]
        show ((0 : Int) + ((j 0).val : Int)).toNat = b.val
        rw [h0]; omega
      · simp only [segScatter_start1, segScatter_window1]
        show ((idx (ix2 (j 1) 0)).toInt + ((0 : Nat) : Int)).toNat = s.val
        rw [h1]; omega
      · simp only [segScatter_start2, segScatter_window2]
        show ((0 : Int) + ((j 2).val : Int)).toNat = d.val
        rw [h2]; omega
  · rename_i h
    constructor
    · intro hf; exact absurd hf (by simp)
    · rintro ⟨h0, h2, h1⟩
      exfalso; apply h
      intro a
      rcases fin3_cases a with rfl | rfl | rfl
      · simp only [segScatter_start0, segScatter_window0]
        show 0 ≤ (0 : Int) + ((j 0).val : Int) ∧ (0 : Int) + ((j 0).val : Int) < ((1024 : Nat) : Int)
        omega
      · simp only [segScatter_start1, segScatter_window1]
        show 0 ≤ (idx (ix2 (j 1) 0)).toInt + ((0 : Nat) : Int) ∧ (idx (ix2 (j 1) 0)).toInt + ((0 : Nat) : Int) < ((128 : Nat) : Int)
        omega
      · simp only [segScatter_start2, segScatter_window2]
        show 0 ≤ (0 : Int) + ((j 2).val : Int) ∧ (0 : Int) + ((j 2).val : Int) < ((32 : Nat) : Int)
        omega
end

/-- The accumulating write read at (b, s, d): the operand there plus the updates of the paths whose target
    word, read signed, is s. The paths are selected by any predicate q equivalent to that. -/
theorem segScatter_apply {P w : Nat}
    (wf : ScatterDims.WF ⟨3, ![1024, 128, 32]⟩ ⟨2, ![P, 1]⟩ ⟨3, ![1024, P, 32]⟩ [0, 2] [1] [1] 1)
    (x : (⟨3, ![1024, 128, 32]⟩ : Shape).Idx → EReal) (idx : IVec ⟨2, ![P, 1]⟩ w)
    (upd : (⟨3, ![1024, P, 32]⟩ : Shape).Idx → EReal) (b : Fin 1024) (s : Fin 128) (d : Fin 32)
    (q : Fin P → Prop) [DecidablePred q] (hq : ∀ p, q p ↔ (idx (ix2 p 0)).toInt = (s.val : Int)) :
    Ideal.hostScatterAdd (segScatter P wf) x idx upd (ix3 b s d)
      = x (ix3 b s d) + ∑ p ∈ Finset.univ.filter q, upd (ix3 b p d) := by
  unfold Ideal.hostScatterAdd
  congr 1
  have back : ∀ j : (⟨3, ![1024, P, 32]⟩ : Shape).Idx, j 0 = b → j 2 = d → ix3 b (j 1 : Fin P) d = j := by
    intro j h0 h2
    funext a
    rcases fin3_cases a with rfl | rfl | rfl
    · exact h0.symm
    · rfl
    · exact h2.symm
  refine Finset.sum_nbij' (fun j => (j 1 : Fin P)) (fun p => ix3 b p d) ?_ ?_ ?_ ?_ ?_
  · intro j hj
    have hj' := (Finset.mem_filter.1 hj).2
    exact Finset.mem_filter.2 ⟨Finset.mem_univ _, (hq _).2 ((segScatter_hit wf j idx b s d).1 hj').2.2⟩
  · intro p hp
    have hp' := (Finset.mem_filter.1 hp).2
    exact Finset.mem_filter.2
      ⟨Finset.mem_univ _, (segScatter_hit wf (ix3 b p d) idx b s d).2 ⟨rfl, rfl, (hq p).1 hp'⟩⟩
  · intro j hj
    obtain ⟨h0, h2, _⟩ := (segScatter_hit wf j idx b s d).1 (Finset.mem_filter.1 hj).2
    exact back j h0 h2
  · intro p _; rfl
  · intro j hj
    obtain ⟨h0, h2, _⟩ := (segScatter_hit wf j idx b s d).1 (Finset.mem_filter.1 hj).2
    exact congrArg upd (back j h0 h2).symm

/-! ## The index words -/

/-- The printed select: a word below zero is shifted by 128. -/
theorem select_wrap (w : BitVec 32) :
    Scalar.select (IntOp.cmpi .slt w 0#32) (IntOp.addi w 128#32) w = wrap w := by
  unfold Scalar.select IntOp.cmpi IntOp.addi wrap
  by_cases h : w.toInt < 0
  · rw [if_pos h, if_pos]
    simp [BitVec.slt, h]
  · rw [if_neg h, if_neg]
    simp [BitVec.slt, h]

end Cert.ReferenceIdeal
end
-- ==== Proof.RefValue.lean ====
/-
  The reference's result, read at an index, is the specification's function G of its argument arrays.

  The program reshapes the input to rows of 128 segments of 32 numbers, and three times reads segments through wrapped
  index words, multiplies them by a coefficient per path, and adds the products into the segments named by wrapped
  target words; at the end it flattens the rows again and adds coeff0.  Each step is read at an index: the words are
  Spec's `wrap`, a read is Spec's `rd` (clamped), an accumulating write sums over the paths that `hits` the segment.
-/
import proofs.«401186_j52879637348694_2_alg».proof.Proof.Spec
import proofs.«401186_j52879637348694_2_alg».proof.Proof.Gen.ReferenceIdeal.Run
import proofs.«401186_j52879637348694_2_alg».proof.Proof.Gen.ReferenceIdeal.Read
import proofs.«401186_j52879637348694_2_alg».proof.Proof.RefIndex
import Idealize.ShloMosaic.Lib.ValueIdx
import Idealize.ShloMosaic.Lib.Pipeline.Value
import Idealize.ShloMosaic.PureOps.Ideal.Laws

set_option maxRecDepth 16384
noncomputable section
namespace Cert.ReferenceIdeal

open Idealize.ShloMosaic Idealize.ShloMosaic.TcCoe Idealize.SL.Sem Idealize.ShloMosaic.ValueIdx
open Cert.SegPoly

/-! ## The input as rows of segments -/

/-- The reshaped input at (b, s, d) is the input at row b, flat position s·32 + d. -/
theorem x_seg (x0 : (⟨2, ![1024, 4096]⟩ : Shape).Idx → EReal) (b : Fin 1024) (s : Fin 128) (d : Fin 32) :
    Read.val_main_v0 (F := Ideal) x0 (ix3 b s d) = x0 (ix2 b (flat s d)) := by
  rw [Read.val_main_v0_apply]
  congr 1
  have hb : b.val < 1024 := b.isLt
  have hs : s.val < 128 := s.isLt
  have hd : d.val < 32 := d.isLt
  funext a
  match a with
  | ⟨0, _⟩ =>
    refine Fin.ext ?_
    show ((b.val * 128 + s.val) * 32 + d.val) / 4096 = b.val
    omega
  | ⟨1, _⟩ =>
    refine Fin.ext ?_
    show ((b.val * 128 + s.val) * 32 + d.val) % 4096 = s.val * 32 + d.val
    omega

/-! ## The program's index words

  Each of the nine word arrays goes through the same four operations before it is used: compare with 0, add 128,
  select, and a reshape to one column.  Row p of the column is the wrapped word p. -/

theorem word_i1 (x : (⟨1, ![128]⟩ : Shape).Idx → BitVec 32) (p : Fin 128) :
    Read.val_main_v8 (F := Ideal) x (ix2 p 0) = wrap (x (ix1 p)) := by
  rw [Read.val_main_v8_apply, Read.val_main_v7_apply, Read.val_main_v4_apply, Read.val_main_v6_apply, Read.val_main_v3_apply, Read.val_main_v5_apply,
    Read.val_main_c_apply, Read.val_main_c_0_apply, select_wrap]
  congr 2
  funext a; match a with | ⟨0, _⟩ => rfl

theorem word_o1 (x : (⟨1, ![128]⟩ : Shape).Idx → BitVec 32) (p : Fin 128) :
    Read.val_main_v17 (F := Ideal) x (ix2 p 0) = wrap (x (ix1 p)) := by
  rw [Read.val_main_v17_apply, Read.val_main_v16_apply, Read.val_main_v13_apply, Read.val_main_v15_apply, Read.val_main_v12_apply, Read.val_main_v14_apply,
    Read.val_main_c_1_apply, Read.val_main_c_2_apply, select_wrap]
  congr 2
  funext a; match a with | ⟨0, _⟩ => rfl

theorem word_a2 (x : (⟨1, ![2048]⟩ : Shape).Idx → BitVec 32) (p : Fin 2048) :
    Read.val_main_v25 (F := Ideal) x (ix2 p 0) = wrap (x (ix1 p)) := by
  rw [Read.val_main_v25_apply, Read.val_main_v24_apply, Read.val_main_v21_apply, Read.val_main_v23_apply, Read.val_main_v20_apply, Read.val_main_v22_apply,
    Read.val_main_c_3_apply, Read.val_main_c_4_apply, select_wrap]
  congr 2
  funext a; match a with | ⟨0, _⟩ => rfl

theorem word_b2 (x : (⟨1, ![2048]⟩ : Shape).Idx → BitVec 32) (p : Fin 2048) :
    Read.val_main_v34 (F := Ideal) x (ix2 p 0) = wrap (x (ix1 p)) := by
  rw [Read.val_main_v34_apply, Read.val_main_v33_apply, Read.val_main_v30_apply, Read.val_main_v32_apply, Read.val_main_v29_apply, Read.val_main_v31_apply,
    Read.val_main_c_5_apply, Read.val_main_c_6_apply, select_wrap]
  congr 2
  funext a; match a with | ⟨0, _⟩ => rfl

theorem word_o2 (x : (⟨1, ![2048]⟩ : Shape).Idx → BitVec 32) (p : Fin 2048) :
    Read.val_main_v42 (F := Ideal) x (ix2 p 0) = wrap (x (ix1 p)) := by
  rw [Read.val_main_v42_apply, Read.val_main_v41_apply, Read.val_main_v38_apply, Read.val_main_v40_apply, Read.val_main_v37_apply, Read.val_main_v39_apply,
    Read.val_main_c_7_apply, Read.val_main_c_8_apply, select_wrap]
  congr 2
  funext a; match a with | ⟨0, _⟩ => rfl

theorem word_a3 (x : (⟨1, ![4096]⟩ : Shape).Idx → BitVec 32) (p : Fin 4096) :
    Read.val_main_v50 (F := Ideal) x (ix2 p 0) = wrap (x (ix1 p)) := by
  rw [Read.val_main_v50_apply, Read.val_main_v49_apply, Read.val_main_v46_apply, Read.val_main_v48_apply, Read.val_main_v45_apply, Read.val_main_v47_apply,
    Read.val_main_c_9_apply, Read.val_main_c_10_apply, select_wrap]
  congr 2
  funext a; match a with | ⟨0, _⟩ => rfl

theorem word_b3 (x : (⟨1, ![4096]⟩ : Shape).Idx → BitVec 32) (p : Fin 4096) :
    Read.val_main_v59 (F := Ideal) x (ix2 p 0) = wrap (x (ix1 p)) := by
  rw [Read.val_main_v59_apply, Read.val_main_v58_apply, Read.val_main_v55_apply, Read.val_main_v57_apply, Read.val_main_v54_apply, Read.val_main_v56_apply,
    Read.val_main_c_11_apply, Read.val_main_c_12_apply, select_wrap]
  congr 2
  funext a; match a with | ⟨0, _⟩ => rfl

theorem word_d3 (x : (⟨1, ![4096]⟩ : Shape).Idx → BitVec 32) (p : Fin 4096) :
    Read.val_main_v67 (F := Ideal) x (ix2 p 0) = wrap (x (ix1 p)) := by
  rw [Read.val_main_v67_apply, Read.val_main_v66_apply, Read.val_main_v63_apply, Read.val_main_v65_apply, Read.val_main_v62_apply, Read.val_main_v64_apply,
    Read.val_main_c_13_apply, Read.val_main_c_14_apply, select_wrap]
  congr 2
  funext a; match a with | ⟨0, _⟩ => rfl

theorem word_o3 (x : (⟨1, ![4096]⟩ : Shape).Idx → BitVec 32) (p : Fin 4096) :
    Read.val_main_v75 (F := Ideal) x (ix2 p 0) = wrap (x (ix1 p)) := by
  rw [Read.val_main_v75_apply, Read.val_main_v74_apply, Read.val_main_v71_apply, Read.val_main_v73_apply, Read.val_main_v70_apply, Read.val_main_v72_apply,
    Read.val_main_c_15_apply, Read.val_main_c_16_apply, select_wrap]
  congr 2
  funext a; match a with | ⟨0, _⟩ => rfl

/-! ## The coefficients, spread along rows and sub-dimensions -/

theorem coef_c1 (x : (⟨1, ![128]⟩ : Shape).Idx → EReal) (b : Fin 1024) (p : Fin 128) (d : Fin 32) :
    Read.val_main_v10 (F := Ideal) x (ix3 b p d) = x (ix1 p) := by
  rw [Read.val_main_v10_apply, Read.val_main_v2_apply]
  congr 1
  funext a; match a with | ⟨0, _⟩ => rfl

theorem coef_c2 (x : (⟨1, ![2048]⟩ : Shape).Idx → EReal) (b : Fin 1024) (p : Fin 2048) (d : Fin 32) :
    Read.val_main_v27 (F := Ideal) x (ix3 b p d) = x (ix1 p) := by
  rw [Read.val_main_v27_apply, Read.val_main_v19_apply]
  congr 1
  funext a; match a with | ⟨0, _⟩ => rfl

theorem coef_c3 (x : (⟨1, ![4096]⟩ : Shape).Idx → EReal) (b : Fin 1024) (p : Fin 4096) (d : Fin 32) :
    Read.val_main_v52 (F := Ideal) x (ix3 b p d) = x (ix1 p) := by
  rw [Read.val_main_v52_apply, Read.val_main_v44_apply]
  congr 1
  funext a; match a with | ⟨0, _⟩ => rfl

/-! ## The six reads of segments

  Path p reads, at row b and sub-dimension d, the segment its wrapped word names, clamped into the table. -/

theorem read_i1 (x0 : (⟨2, ![1024, 4096]⟩ : Shape).Idx → EReal) (x : (⟨1, ![128]⟩ : Shape).Idx → BitVec 32)
    (b : Fin 1024) (p : Fin 128) (d : Fin 32) :
    Read.val_main_v9 (F := Ideal) x0 x (ix3 b p d) = x0 (ix2 b (flat (rd (x (ix1 p))) d)) := by
  unfold Read.val_main_v9
  refine (segGather_apply gather_S1024x128x32_S128x1_S1024x128x32_02_1_n_n_1_1_1024132.wf (Read.val_main_v0 (F := Ideal) x0)
    (Read.val_main_v8 (F := Ideal) x) b p d).trans ?_
  rw [x_seg]
  simp only [word_i1]
  rfl

theorem read_a2 (x0 : (⟨2, ![1024, 4096]⟩ : Shape).Idx → EReal) (x : (⟨1, ![2048]⟩ : Shape).Idx → BitVec 32)
    (b : Fin 1024) (p : Fin 2048) (d : Fin 32) :
    Read.val_main_v26 (F := Ideal) x0 x (ix3 b p d) = x0 (ix2 b (flat (rd (x (ix1 p))) d)) := by
  unfold Read.val_main_v26
  refine (segGather_apply gather_S1024x128x32_S2048x1_S1024x2048x32_02_1_n_n_1_1_1024132.wf (Read.val_main_v0 (F := Ideal) x0)
    (Read.val_main_v25 (F := Ideal) x) b p d).trans ?_
  rw [x_seg]
  simp only [word_a2]
  rfl

theorem read_b2 (x0 : (⟨2, ![1024, 4096]⟩ : Shape).Idx → EReal) (x : (⟨1, ![2048]⟩ : Shape).Idx → BitVec 32)
    (b : Fin 1024) (p : Fin 2048) (d : Fin 32) :
    Read.val_main_v35 (F := Ideal) x0 x (ix3 b p d) = x0 (ix2 b (flat (rd (x (ix1 p))) d)) := by
  unfold Read.val_main_v35
  refine (segGather_apply gather_S1024x128x32_S2048x1_S1024x2048x32_02_1_n_n_1_1_1024132.wf (Read.val_main_v0 (F := Ideal) x0)
    (Read.val_main_v34 (F := Ideal) x) b p d).trans ?_
  rw [x_seg]
  simp only [word_b2]
  rfl

theorem read_a3 (x0 : (⟨2, ![1024, 4096]⟩ : Shape).Idx → EReal) (x : (⟨1, ![4096]⟩ : Shape).Idx → BitVec 32)
    (b : Fin 1024) (p : Fin 4096) (d : Fin 32) :
    Read.val_main_v51 (F := Ideal) x0 x (ix3 b p d) = x0 (ix2 b (flat (rd (x (ix1 p))) d)) := by
  unfold Read.val_main_v51
  refine (segGather_apply gather_S1024x128x32_S4096x1_S1024x4096x32_02_1_n_n_1_1_1024132.wf (Read.val_main_v0 (F := Ideal) x0)
    (Read.val_main_v50 (F := Ideal) x) b p d).trans ?_
  rw [x_seg]
  simp only [word_a3]
  rfl

theorem read_b3 (x0 : (⟨2, ![1024, 4096]⟩ : Shape).Idx → EReal) (x : (⟨1, ![4096]⟩ : Shape).Idx → BitVec 32)
    (b : Fin 1024) (p : Fin 4096) (d : Fin 32) :
    Read.val_main_v60 (F := Ideal) x0 x (ix3 b p d) = x0 (ix2 b (flat (rd (x (ix1 p))) d)) := by
  unfold Read.val_main_v60
  refine (segGather_apply gather_S1024x128x32_S4096x1_S1024x4096x32_02_1_n_n_1_1_1024132.wf (Read.val_main_v0 (F := Ideal) x0)
    (Read.val_main_v59 (F := Ideal) x) b p d).trans ?_
  rw [x_seg]
  simp only [word_b3]
  rfl

theorem read_d3 (x0 : (⟨2, ![1024, 4096]⟩ : Shape).Idx → EReal) (x : (⟨1, ![4096]⟩ : Shape).Idx → BitVec 32)
    (b : Fin 1024) (p : Fin 4096) (d : Fin 32) :
    Read.val_main_v68 (F := Ideal) x0 x (ix3 b p d) = x0 (ix2 b (flat (rd (x (ix1 p))) d)) := by
  unfold Read.val_main_v68
  refine (segGather_apply gather_S1024x128x32_S4096x1_S1024x4096x32_02_1_n_n_1_1_1024132.wf (Read.val_main_v0 (F := Ideal) x0)
    (Read.val_main_v67 (F := Ideal) x) b p d).trans ?_
  rw [x_seg]
  simp only [word_d3]
  rfl

/-! ## The three stages -/

theorem stage1 (I : Inputs) (b : Fin 1024) (s : Fin 128) (d : Fin 32) :
    Read.val_main_v18 (F := Ideal) I.x0 I.c1 I.i1 I.o1 (ix3 b s d) = out1 I b s d := by
  unfold Read.val_main_v18 Host.scatterAdd
  rw [Ideal.hostScatterAdd_def]
  refine (segScatter_apply scatter_S1024x128x32_S128x1_S1024x128x32_02_1_1_1.wf _ _ _ b s d
    (fun p => hits (I.o1 (ix1 p)) s) ?_).trans ?_
  · intro p
    rw [word_o1]
    exact Iff.rfl
  · unfold out1
    congr 1
    · rw [Read.val_main_v1_apply, Read.val_main_cst_apply]
      exact Ideal.ofBits_zero_f32
    · refine Finset.sum_congr rfl ?_
      intro p _
      rw [Read.val_main_v11_apply, Ideal.mulf_def, coef_c1, read_i1]
      rfl

theorem stage2 (I : Inputs) (b : Fin 1024) (s : Fin 128) (d : Fin 32) :
    Read.val_main_v43 (F := Ideal) I.x0 I.c1 I.i1 I.o1 I.c2 I.a2 I.b2 I.o2 (ix3 b s d) = out2 I b s d := by
  unfold Read.val_main_v43 Host.scatterAdd
  rw [Ideal.hostScatterAdd_def]
  refine (segScatter_apply scatter_S1024x128x32_S2048x1_S1024x2048x32_02_1_1_1.wf _ _ _ b s d
    (fun p => hits (I.o2 (ix1 p)) s) ?_).trans ?_
  · intro p
    rw [word_o2]
    exact Iff.rfl
  · unfold out2
    congr 1
    · exact stage1 I b s d
    · refine Finset.sum_congr rfl ?_
      intro p _
      rw [Read.val_main_v36_apply, Ideal.mulf_def, Read.val_main_v28_apply, Ideal.mulf_def, coef_c2, read_a2, read_b2]
      rfl

theorem stage3 (I : Inputs) (b : Fin 1024) (s : Fin 128) (d : Fin 32) :
    Read.val_main_v76 (F := Ideal) I.x0 I.c1 I.i1 I.o1 I.c2 I.a2 I.b2 I.o2 I.c3 I.a3 I.b3 I.d3 I.o3 (ix3 b s d)
      = out3 I b s d := by
  unfold Read.val_main_v76 Host.scatterAdd
  rw [Ideal.hostScatterAdd_def]
  refine (segScatter_apply scatter_S1024x128x32_S4096x1_S1024x4096x32_02_1_1_1.wf _ _ _ b s d
    (fun p => hits (I.o3 (ix1 p)) s) ?_).trans ?_
  · intro p
    rw [word_o3]
    exact Iff.rfl
  · unfold out3
    congr 1
    · exact stage2 I b s d
    · refine Finset.sum_congr rfl ?_
      intro p _
      rw [Read.val_main_v69_apply, Ideal.mulf_def, Read.val_main_v61_apply, Ideal.mulf_def, Read.val_main_v53_apply,
        Ideal.mulf_def, coef_c3, read_a3, read_b3, read_d3]
      rfl

/-! ## The result -/

/-- Row b, flat position s·32 + d of the result is segment s, sub-dimension d of row b. -/
theorem flat_idx (b : Fin 1024) (s : Fin 128) (d : Fin 32) : Read.idx_main_v77 (ix2 b (flat s d)) = ix3 b s d := by
  have hb : b.val < 1024 := b.isLt
  have hs : s.val < 128 := s.isLt
  have hd : d.val < 32 := d.isLt
  funext a
  match a with
  | ⟨0, _⟩ =>
    refine Fin.ext ?_
    show (b.val * 4096 + (s.val * 32 + d.val)) / 4096 = b.val
    omega
  | ⟨1, _⟩ =>
    refine Fin.ext ?_
    show (b.val * 4096 + (s.val * 32 + d.val)) / 32 % 128 = s.val
    omega
  | ⟨2, _⟩ =>
    refine Fin.ext ?_
    show (b.val * 4096 + (s.val * 32 + d.val)) % 32 = d.val
    omega

/-- The whole program at row b, flat position s·32 + d. -/
theorem value_G (I : Inputs) (b : Fin 1024) (s : Fin 128) (d : Fin 32) :
    Read.val_main_v80 (F := Ideal) I.x0 I.coeff0 I.c1 I.i1 I.o1 I.c2 I.a2 I.b2 I.o2 I.c3 I.a3 I.b3 I.d3 I.o3
      (ix2 b (flat s d)) = G I b s d := by
  rw [Read.val_main_v80_apply, Ideal.addf_def, Read.val_main_v77_apply, Read.val_main_v79_apply,
    Read.val_main_v78_apply, flat_idx, stage3]
  unfold G
  congr 2
  funext a; match a with | ⟨0, _⟩ => rfl

/-! ## The statement -/

/-- The fourteen argument arrays of device c in memory m. -/
def inputs (m : (ℓ : Loc nD τ sig) → Buf (Elt Ideal) ℓ) (c : Dev nD) : Cert.SegPoly.Inputs where
  x0 := m ((c.tc : Thread nD τ).loc main_arg0)
  coeff0 := m ((c.tc : Thread nD τ).loc main_arg1)
  c1 := m ((c.tc : Thread nD τ).loc main_arg2)
  i1 := m ((c.tc : Thread nD τ).loc main_arg3)
  o1 := m ((c.tc : Thread nD τ).loc main_arg4)
  c2 := m ((c.tc : Thread nD τ).loc main_arg5)
  a2 := m ((c.tc : Thread nD τ).loc main_arg6)
  b2 := m ((c.tc : Thread nD τ).loc main_arg7)
  o2 := m ((c.tc : Thread nD τ).loc main_arg8)
  c3 := m ((c.tc : Thread nD τ).loc main_arg9)
  a3 := m ((c.tc : Thread nD τ).loc main_arg10)
  b3 := m ((c.tc : Thread nD τ).loc main_arg11)
  d3 := m ((c.tc : Thread nD τ).loc main_arg12)
  o3 := m ((c.tc : Thread nD τ).loc main_arg13)

/-- The reference's result at row b, flat position s·32 + d, is G at (b, s, d). -/
theorem res_eq_G (m : (ℓ : Loc nD τ sig) → Buf (Elt Ideal) ℓ) (c : Dev nD) (b : Fin 1024) (s : Fin 128) (d : Fin 32) :
    (Cert.ReferenceIdeal.Value.res_out0 (F := Ideal) m c : S1024x4096.Idx → EReal) (ix2 b (flat s d))
      = G (inputs m c) b s d := by
  have h := congrFun (Read.val_main_v80_eq (F := Ideal) m c) (ix2 b (flat s d))
  exact h.trans (value_G (inputs m c) b s d)

end Cert.ReferenceIdeal
end
-- ==== Proof.KernelBody.lean ====
/-
  What one grid point's body leaves in the output block, as one pure term of the ten input blocks.

  The body is: the degree-1 product x · W1; a counted loop of 4 trips adding, per trip, the product of
  (x · Ga) ⊙ (x · Gb) with a 512-row slice of Go; a counted loop of 8 trips doing the same with three factors;
  and the sum of the three with the bias tile, stored whole.  The loops' carried values are the recursions
  `loopVal1` / `loopVal2` over the trip's value `tripVal1` / `tripVal2`; each trip reads the 512 columns (rows)
  of the routing matrices that start at 512 · trip.
-/
import proofs.«401186_j52879637348694_2_alg».proof.Proof.Gen.KernelIdeal.Frame
import Idealize.ShloMosaic.Lib.Pipeline.Value
import Idealize.ShloMosaic.Lib.WholeRead

set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access. -/
theorem off00 : (![0, 0] : Fin 2 → ℕ) = fun _ => 0 := by
  funext a; fin_cases a <;> rfl

/-! ## One trip of each loop -/

/-- Trip k of the degree-2 loop on carried value acc: columns 512k … 512k+511 of Ga, Gb and rows 512k … of Go. -/
def tripVal1 (x0 : Vec F S1024x128 .bf16) (x2 x3 : Vec F S128x2048 .bf16) (x4 : Vec F S2048x128 .bf16)
    (k : Fin k0_t1_loop.trips) (acc : FVec F S1024x128 .f32) : FVec F S1024x128 .f32 :=
  k0_pay3 x0 acc
    (View.ld x2 (Rect.unit (s := S128x2048) (k0_off1 k) S128x512.size (k0_off1_inb k)))
    (View.ld x3 (Rect.unit (s := S128x2048) (k0_off1 k) S128x512.size (k0_off1_inb k)))
    (View.ld x4 (Rect.unit (s := S2048x128) (k0_off2 k) S512x128.size (k0_off2_inb k)))

/-- Trip k of the degree-3 loop. -/
def tripVal2 (x0 : Vec F S1024x128 .bf16) (x5 x6 x7 : Vec F S128x4096 .bf16) (x8 : Vec F S4096x128 .bf16)
    (k : Fin k0_t2_loop.trips) (acc : FVec F S1024x128 .f32) : FVec F S1024x128 .f32 :=
  k0_pay5 x0 acc
    (View.ld x5 (Rect.unit (s := S128x4096) (k0_off3 k) S128x512.size (k0_off3_inb k)))
    (View.ld x6 (Rect.unit (s := S128x4096) (k0_off3 k) S128x512.size (k0_off3_inb k)))
    (View.ld x7 (Rect.unit (s := S128x4096) (k0_off3 k) S128x512.size (k0_off3_inb k)))
    (View.ld x8 (Rect.unit (s := S4096x128) (k0_off4 k) S512x128.size (k0_off4_inb k)))

/-- The degree-2 accumulator before trip j. -/
def loopVal1 (x0 : Vec F S1024x128 .bf16) (x2 x3 : Vec F S128x2048 .bf16) (x4 : Vec F S2048x128 .bf16) :
    ℕ → FVec F S1024x128 .f32
  | 0 => k0_pay2
  | j + 1 => if h : j < k0_t1_loop.trips then tripVal1 x0 x2 x3 x4 ⟨j, h⟩ (loopVal1 x0 x2 x3 x4 j) else loopVal1 x0 x2 x3 x4 j

/-- The degree-3 accumulator before trip j. -/
def loopVal2 (x0 : Vec F S1024x128 .bf16) (x5 x6 x7 : Vec F S128x4096 .bf16) (x8 : Vec F S4096x128 .bf16) :
    ℕ → FVec F S1024x128 .f32
  | 0 => k0_pay4
  | j + 1 => if h : j < k0_t2_loop.trips then tripVal2 x0 x5 x6 x7 x8 ⟨j, h⟩ (loopVal2 x0 x5 x6 x7 x8 j) else loopVal2 x0 x5 x6 x7 x8 j

/-- What a trip of the degree-2 loop yields, the three routing buffers held at contents that read x2, x3, x4. -/
theorem trip1_val (𝒱 : Variants) (c : Dev nD) (bd : Option 𝒱.V) (i : grid0.Coords) (arg1 : Memref sig .tc .vmem S1024x128 .bf16) (harg1 : arg1.IsWhole) (arg2 : Memref sig .tc .vmem S128x128 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .bf16) (harg5 : arg5.IsWhole) (arg6 : Memref sig .tc .vmem S128x4096 .bf16) (harg6 : arg6.IsWhole) (arg7 : Memref sig .tc .vmem S128x4096 .bf16) (harg7 : arg7.IsWhole) (arg8 : Memref sig .tc .vmem S128x4096 .bf16) (harg8 : arg8.IsWhole) (arg9 : Memref sig .tc .vmem S4096x128 .bf16) (harg9 : arg9.IsWhole) (arg10 : Memref sig .tc .vmem S1024x128 .f32) (harg10 : arg10.IsWhole) (arg11 : Memref sig .tc .vmem S1024x128 .f32) (harg11 : arg11.IsWhole)
    (x0 : Vec F S1024x128 .bf16) (x2 x3 : Vec F S128x2048 .bf16) (x4 : Vec F S2048x128 .bf16)
    (k : Fin k0_t1_loop.trips) (acc : FVec F S1024x128 .f32) :
    (trip_k0_t1 (F := F) 𝒱 c bd i arg1 harg1 arg2 harg2 arg3 harg3 arg4 harg4 arg5 harg5 arg6 harg6 arg7 harg7 arg8 harg8 arg9 harg9 arg10 harg10 arg11 harg11 x0 (harg3.unread x2) (harg4.unread x3) (harg5.unread x4) k).1 acc
      = tripVal1 x0 x2 x3 x4 k acc := by
  unfold trip_k0_t1 tripVal1
  show k0_pay3 x0 acc
      (View.readAt (Elt F) arg3.view (Rect.unit (s := S128x2048) (k0_off1 k) S128x512.size (k0_off1_inb k)).toLoadRect (harg3.unread x2))
      (View.readAt (Elt F) arg4.view (Rect.unit (s := S128x2048) (k0_off1 k) S128x512.size (k0_off1_inb k)).toLoadRect (harg4.unread x3))
      (View.readAt (Elt F) arg5.view (Rect.unit (s := S2048x128) (k0_off2 k) S512x128.size (k0_off2_inb k)).toLoadRect (harg5.unread x4)) = _
  simp only [View.readAt_eq_ld, harg3.read_unread, harg4.read_unread, harg5.read_unread]

/-- What a trip of the degree-3 loop yields. -/
theorem trip2_val (𝒱 : Variants) (c : Dev nD) (bd : Option 𝒱.V) (i : grid0.Coords) (arg1 : Memref sig .tc .vmem S1024x128 .bf16) (harg1 : arg1.IsWhole) (arg2 : Memref sig .tc .vmem S128x128 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .bf16) (harg5 : arg5.IsWhole) (arg6 : Memref sig .tc .vmem S128x4096 .bf16) (harg6 : arg6.IsWhole) (arg7 : Memref sig .tc .vmem S128x4096 .bf16) (harg7 : arg7.IsWhole) (arg8 : Memref sig .tc .vmem S128x4096 .bf16) (harg8 : arg8.IsWhole) (arg9 : Memref sig .tc .vmem S4096x128 .bf16) (harg9 : arg9.IsWhole) (arg10 : Memref sig .tc .vmem S1024x128 .f32) (harg10 : arg10.IsWhole) (arg11 : Memref sig .tc .vmem S1024x128 .f32) (harg11 : arg11.IsWhole)
    (x0 : Vec F S1024x128 .bf16) (x5 x6 x7 : Vec F S128x4096 .bf16) (x8 : Vec F S4096x128 .bf16)
    (k : Fin k0_t2_loop.trips) (acc : FVec F S1024x128 .f32) :
    (trip_k0_t2 (F := F) 𝒱 c bd i arg1 harg1 arg2 harg2 arg3 harg3 arg4 harg4 arg5 harg5 arg6 harg6 arg7 harg7 arg8 harg8 arg9 harg9 arg10 harg10 arg11 harg11 x0 (harg6.unread x5) (harg7.unread x6) (harg8.unread x7) (harg9.unread x8) k).1 acc
      = tripVal2 x0 x5 x6 x7 x8 k acc := by
  unfold trip_k0_t2 tripVal2
  show k0_pay5 x0 acc
      (View.readAt (Elt F) arg6.view (Rect.unit (s := S128x4096) (k0_off3 k) S128x512.size (k0_off3_inb k)).toLoadRect (harg6.unread x5))
      (View.readAt (Elt F) arg7.view (Rect.unit (s := S128x4096) (k0_off3 k) S128x512.size (k0_off3_inb k)).toLoadRect (harg7.unread x6))
      (View.readAt (Elt F) arg8.view (Rect.unit (s := S128x4096) (k0_off3 k) S128x512.size (k0_off3_inb k)).toLoadRect (harg8.unread x7))
      (View.readAt (Elt F) arg9.view (Rect.unit (s := S4096x128) (k0_off4 k) S512x128.size (k0_off4_inb k)).toLoadRect (harg9.unread x8)) = _
  simp only [View.readAt_eq_ld, harg6.read_unread, harg7.read_unread, harg8.read_unread, harg9.read_unread]

/-! ## The carried values -/

theorem st1_eq (𝒱 : Variants) (c : Dev nD) (bd : Option 𝒱.V) (i : grid0.Coords) (arg1 : Memref sig .tc .vmem S1024x128 .bf16) (harg1 : arg1.IsWhole) (arg2 : Memref sig .tc .vmem S128x128 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .bf16) (harg5 : arg5.IsWhole) (arg6 : Memref sig .tc .vmem S128x4096 .bf16) (harg6 : arg6.IsWhole) (arg7 : Memref sig .tc .vmem S128x4096 .bf16) (harg7 : arg7.IsWhole) (arg8 : Memref sig .tc .vmem S128x4096 .bf16) (harg8 : arg8.IsWhole) (arg9 : Memref sig .tc .vmem S4096x128 .bf16) (harg9 : arg9.IsWhole) (arg10 : Memref sig .tc .vmem S1024x128 .f32) (harg10 : arg10.IsWhole) (arg11 : Memref sig .tc .vmem S1024x128 .f32) (harg11 : arg11.IsWhole)
    (x0 : Vec F S1024x128 .bf16) (x2 x3 : Vec F S128x2048 .bf16) (x4 : Vec F S2048x128 .bf16) (n : ℕ) :
    st_k0_t1 (F := F) 𝒱 c bd i arg1 harg1 arg2 harg2 arg3 harg3 arg4 harg4 arg5 harg5 arg6 harg6 arg7 harg7 arg8 harg8 arg9 harg9 arg10 harg10 arg11 harg11 x0 (harg3.unread x2) (harg4.unread x3) (harg5.unread x4) k0_pay2 n
      = loopVal1 x0 x2 x3 x4 n := by
  induction n with
  | zero => rfl
  | succ j ih =>
    rw [st_k0_t1.eq_2, loopVal1]
    unfold st_k0_t1Step
    by_cases h : j < k0_t1_loop.trips
    · rw [dif_pos h, dif_pos h, ih]
      exact trip1_val 𝒱 c bd i arg1 harg1 arg2 harg2 arg3 harg3 arg4 harg4 arg5 harg5 arg6 harg6 arg7 harg7 arg8 harg8 arg9 harg9 arg10 harg10 arg11 harg11 x0 x2 x3 x4 ⟨j, h⟩ _
    · rw [dif_neg h, dif_neg h, ih]

theorem st2_eq (𝒱 : Variants) (c : Dev nD) (bd : Option 𝒱.V) (i : grid0.Coords) (arg1 : Memref sig .tc .vmem S1024x128 .bf16) (harg1 : arg1.IsWhole) (arg2 : Memref sig .tc .vmem S128x128 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .bf16) (harg5 : arg5.IsWhole) (arg6 : Memref sig .tc .vmem S128x4096 .bf16) (harg6 : arg6.IsWhole) (arg7 : Memref sig .tc .vmem S128x4096 .bf16) (harg7 : arg7.IsWhole) (arg8 : Memref sig .tc .vmem S128x4096 .bf16) (harg8 : arg8.IsWhole) (arg9 : Memref sig .tc .vmem S4096x128 .bf16) (harg9 : arg9.IsWhole) (arg10 : Memref sig .tc .vmem S1024x128 .f32) (harg10 : arg10.IsWhole) (arg11 : Memref sig .tc .vmem S1024x128 .f32) (harg11 : arg11.IsWhole)
    (x0 : Vec F S1024x128 .bf16) (x5 x6 x7 : Vec F S128x4096 .bf16) (x8 : Vec F S4096x128 .bf16) (n : ℕ) :
    st_k0_t2 (F := F) 𝒱 c bd i arg1 harg1 arg2 harg2 arg3 harg3 arg4 harg4 arg5 harg5 arg6 harg6 arg7 harg7 arg8 harg8 arg9 harg9 arg10 harg10 arg11 harg11 x0 (harg6.unread x5) (harg7.unread x6) (harg8.unread x7) (harg9.unread x8) k0_pay4 n
      = loopVal2 x0 x5 x6 x7 x8 n := by
  induction n with
  | zero => rfl
  | succ j ih =>
    rw [st_k0_t2.eq_2, loopVal2]
    unfold st_k0_t2Step
    by_cases h : j < k0_t2_loop.trips
    · rw [dif_pos h, dif_pos h, ih]
      exact trip2_val 𝒱 c bd i arg1 harg1 arg2 harg2 arg3 harg3 arg4 harg4 arg5 harg5 arg6 harg6 arg7 harg7 arg8 harg8 arg9 harg9 arg10 harg10 arg11 harg11 x0 x5 x6 x7 x8 ⟨j, h⟩ _
    · rw [dif_neg h, dif_neg h, ih]

/-! ## The block the body leaves -/

/-- The output block after the body, from the ten input blocks: degree 1 + degree 2 + degree 3 + bias. -/
def blockVal (x0 : Vec F S1024x128 .bf16) (x1 : Vec F S128x128 .bf16) (x2 : Vec F S128x2048 .bf16) (x3 : Vec F S128x2048 .bf16) (x4 : Vec F S2048x128 .bf16) (x5 : Vec F S128x4096 .bf16) (x6 : Vec F S128x4096 .bf16) (x7 : Vec F S128x4096 .bf16) (x8 : Vec F S4096x128 .bf16) (x9 : Vec F S1024x128 .f32) : FVec F S1024x128 .f32 :=
  k0_pay6 x0 x1 (loopVal1 x0 x2 x3 x4 4) (loopVal2 x0 x5 x6 x7 x8 8) x9

theorem out_eq_blockVal (c : Dev nD) (i : grid0.Coords) (arg1 : Memref sig .tc .vmem S1024x128 .bf16) (harg1 : arg1.IsWhole) (arg2 : Memref sig .tc .vmem S128x128 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .bf16) (harg5 : arg5.IsWhole) (arg6 : Memref sig .tc .vmem S128x4096 .bf16) (harg6 : arg6.IsWhole) (arg7 : Memref sig .tc .vmem S128x4096 .bf16) (harg7 : arg7.IsWhole) (arg8 : Memref sig .tc .vmem S128x4096 .bf16) (harg8 : arg8.IsWhole) (arg9 : Memref sig .tc .vmem S4096x128 .bf16) (harg9 : arg9.IsWhole) (arg10 : Memref sig .tc .vmem S1024x128 .f32) (harg10 : arg10.IsWhole) (arg11 : Memref sig .tc .vmem S1024x128 .f32) (harg11 : arg11.IsWhole) (x0 : Vec F S1024x128 .bf16) (x1 : Vec F S128x128 .bf16) (x2 : Vec F S128x2048 .bf16) (x3 : Vec F S128x2048 .bf16) (x4 : Vec F S2048x128 .bf16) (x5 : Vec F S128x4096 .bf16) (x6 : Vec F S128x4096 .bf16) (x7 : Vec F S128x4096 .bf16) (x8 : Vec F S4096x128 .bf16) (x9 : Vec F S1024x128 .f32) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 = blockVal x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  sl_unfold_words
  rw [View.canon_unit_zero off00]
  simp only [View.readAt_eq_ld, harg1.read_unread, harg2.read_unread, harg10.read_unread,
    View.ld_unit_zero (S := S1024x128) off00, View.ld_unit_zero (S := S128x128) off00]
  rw [st1_eq, st2_eq]
  rfl

end Cert.KernelIdeal.Gen
end
-- ==== Proof.BodySpec.lean ====
/-
  One grid point's computation over abstract matrices: the form the kernel's body has at any point, before the
  matrices are identified with the routing matrices of the argument arrays.

  X is the point's 1024 × 128 block of the re-laid input, W1 the degree-1 routing matrix, GA/GB(/GD) the 0/1 input
  routing matrices and GO the scaled output routing matrices of the two higher degrees, B the bias tile.  The
  higher degrees are accumulated tile by tile, 512 paths a tile.
-/
import proofs.«401186_j52879637348694_2_alg».proof.Proof.Spec

noncomputable section
namespace Cert.SegPoly

open Idealize.ShloMosaic Idealize.ShloMosaic.ValueIdx

variable (X : Fin 1024 → Fin 128 → EReal) (W1 : Fin 128 → Fin 128 → EReal)
  (GA2 GB2 : Fin 128 → Fin 2048 → EReal) (GO2 : Fin 2048 → Fin 128 → EReal)
  (GA3 GB3 GD3 : Fin 128 → Fin 4096 → EReal) (GO3 : Fin 4096 → Fin 128 → EReal)
  (B : Fin 1024 → Fin 128 → EReal)

/-- One tile of 512 degree-2 paths starting at path `base`, at row r and column s. -/
def btile2 (r : Fin 1024) (s : Fin 128) (base : Nat) (hb : base + 512 ≤ 2048) : EReal :=
  ∑ q : Fin 512,
    ((∑ k : Fin 128, X r k * GA2 k ⟨base + q.val, by omega⟩) * (∑ k : Fin 128, X r k * GB2 k ⟨base + q.val, by omega⟩))
      * GO2 ⟨base + q.val, by omega⟩ s

/-- One tile of 512 degree-3 paths. -/
def btile3 (r : Fin 1024) (s : Fin 128) (base : Nat) (hb : base + 512 ≤ 4096) : EReal :=
  ∑ q : Fin 512,
    (((∑ k : Fin 128, X r k * GA3 k ⟨base + q.val, by omega⟩) * (∑ k : Fin 128, X r k * GB3 k ⟨base + q.val, by omega⟩))
        * (∑ k : Fin 128, X r k * GD3 k ⟨base + q.val, by omega⟩))
      * GO3 ⟨base + q.val, by omega⟩ s

/-- The degree-2 accumulator before tile j. -/
def bacc2 (r : Fin 1024) (s : Fin 128) : Nat → EReal
  | 0 => 0
  | j + 1 => if h : j * 512 + 512 ≤ 2048 then bacc2 r s j + btile2 X GA2 GB2 GO2 r s (j * 512) h else bacc2 r s j

/-- The degree-3 accumulator before tile j. -/
def bacc3 (r : Fin 1024) (s : Fin 128) : Nat → EReal
  | 0 => 0
  | j + 1 => if h : j * 512 + 512 ≤ 4096 then bacc3 r s j + btile3 X GA3 GB3 GD3 GO3 r s (j * 512) h else bacc3 r s j

/-- The block a grid point leaves: degree 1 + degree 2 + degree 3 + bias. -/
def bodyFn (r : Fin 1024) (s : Fin 128) : EReal :=
  (((∑ k : Fin 128, X r k * W1 k s) + bacc2 X GA2 GB2 GO2 r s 4) + bacc3 X GA3 GB3 GD3 GO3 r s 8) + B r s

end Cert.SegPoly

namespace Cert.SegPoly

open Idealize.ShloMosaic Idealize.ShloMosaic.ValueIdx

variable (I : Inputs)

/-- Row r of grid point t's block is row t·1024 + r of the matrix. -/
def rowOf (t : Fin 32) (r : Fin 1024) : Fin 32768 := ⟨t.val * 1024 + r.val, by omega⟩

theorem acc2_eq_bacc2 (t : Fin 32) (r : Fin 1024) (s : Fin 128) (j : Nat) :
    acc2 I (rowOf t r) s j
      = bacc2 (fun r k => xt I (rowOf t r) k) (fun k p => oh (I.a2 (ix1 p)) k) (fun k p => oh (I.b2 (ix1 p)) k)
          (fun p s => oh (I.o2 (ix1 p)) s * I.c2 (ix1 p)) r s j := by
  induction j with
  | zero => rfl
  | succ j ih =>
    rw [acc2, bacc2]
    by_cases h : j * 512 + 512 ≤ 2048
    · rw [dif_pos h, dif_pos h, ih]; rfl
    · rw [dif_neg h, dif_neg h, ih]

theorem acc3_eq_bacc3 (t : Fin 32) (r : Fin 1024) (s : Fin 128) (j : Nat) :
    acc3 I (rowOf t r) s j
      = bacc3 (fun r k => xt I (rowOf t r) k) (fun k p => oh (I.a3 (ix1 p)) k) (fun k p => oh (I.b3 (ix1 p)) k)
          (fun k p => oh (I.d3 (ix1 p)) k) (fun p s => oh (I.o3 (ix1 p)) s * I.c3 (ix1 p)) r s j := by
  induction j with
  | zero => rfl
  | succ j ih =>
    rw [acc3, bacc3]
    by_cases h : j * 512 + 512 ≤ 4096
    · rw [dif_pos h, dif_pos h, ih]; rfl
    · rw [dif_neg h, dif_neg h, ih]

/-- The kernel's closed form at row t·1024 + r is the point's computation over the routing matrices of the inputs. -/
theorem Kout_eq_bodyFn (t : Fin 32) (r : Fin 1024) (s : Fin 128) :
    Kout I (rowOf t r) s
      = bodyFn (fun r k => xt I (rowOf t r) k) (w1 I)
          (fun k p => oh (I.a2 (ix1 p)) k) (fun k p => oh (I.b2 (ix1 p)) k) (fun p s => oh (I.o2 (ix1 p)) s * I.c2 (ix1 p))
          (fun k p => oh (I.a3 (ix1 p)) k) (fun k p => oh (I.b3 (ix1 p)) k) (fun k p => oh (I.d3 (ix1 p)) k)
          (fun p s => oh (I.o3 (ix1 p)) s * I.c3 (ix1 p))
          (bias I) r s := by
  unfold Kout bodyFn
  rw [acc2_eq_bacc2, acc3_eq_bacc3]
  have hr : (⟨(rowOf t r).val % 1024, Nat.mod_lt _ (by decide)⟩ : Fin 1024) = r := by
    apply Fin.ext
    show (t.val * 1024 + r.val) % 1024 = r.val
    have := r.isLt
    omega
  rw [hr]

end Cert.SegPoly
end
-- ==== Proof.KernelBodyIdx.lean ====
/-
  The block one grid point leaves, read at an index, at the ideal values.

  Each matrix product into a zero accumulator is the plain sum over the contracted position; a change of float
  format is the identity; a trip of a loop adds to the carried value the product of the elementwise product of two
  (three) 1024 × 512 products with 512 rows of the output routing matrix, and the columns (rows) a trip reads are
  those at 512 · trip + q.  Index by index this is the computation `bodyFn` over the ten blocks' entries.
-/
import proofs.«401186_j52879637348694_2_alg».proof.Proof.KernelBody
import proofs.«401186_j52879637348694_2_alg».proof.Proof.BodySpec
import Idealize.ShloMosaic.Lib.ValueIdx
import Idealize.ShloMosaic.Lib.Pipeline.Value
import Idealize.ShloMosaic.PureOps.Ideal.Laws
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.SegPoly

/-! ## The three products read at an index -/

theorem dA_lhs_0 (j : S1024x128.Idx) (k : (dot_S1024x128_S128x128_S1024x128_1_0_0_1_n_n).contr.Idx) : ((dot_S1024x128_S128x128_S1024x128_1_0_0_1_n_n).lhsIdx j k 0).val = (j 0).val := by
  unfold DotDims.lhsIdx
  rw [dif_neg (show ¬(0 : Fin S1024x128.rank) ∈ (dot_S1024x128_S128x128_S1024x128_1_0_0_1_n_n).lhsBatch by decide),
    dif_pos (show (0 : Fin S1024x128.rank) ∈ (dot_S1024x128_S128x128_S1024x128_1_0_0_1_n_n).lhsNonContracting by decide)]
  rfl

theorem dA_lhs_1 (j : S1024x128.Idx) (k : (dot_S1024x128_S128x128_S1024x128_1_0_0_1_n_n).contr.Idx) : ((dot_S1024x128_S128x128_S1024x128_1_0_0_1_n_n).lhsIdx j k 1).val = (k ⟨0, by decide⟩).val :=
  (dot_S1024x128_S128x128_S1024x128_1_0_0_1_n_n).lhsIdx_val_of_single rfl j k

theorem dA_rhs_0 (j : S1024x128.Idx) (k : (dot_S1024x128_S128x128_S1024x128_1_0_0_1_n_n).contr.Idx) : ((dot_S1024x128_S128x128_S1024x128_1_0_0_1_n_n).rhsIdx j k 0).val = (k ⟨0, by decide⟩).val :=
  (dot_S1024x128_S128x128_S1024x128_1_0_0_1_n_n).rhsIdx_val_of_single rfl j k

theorem dA_rhs_1 (j : S1024x128.Idx) (k : (dot_S1024x128_S128x128_S1024x128_1_0_0_1_n_n).contr.Idx) : ((dot_S1024x128_S128x128_S1024x128_1_0_0_1_n_n).rhsIdx j k 1).val = (j 1).val := by
  unfold DotDims.rhsIdx
  rw [dif_neg (show ¬(1 : Fin S128x128.rank) ∈ (dot_S1024x128_S128x128_S1024x128_1_0_0_1_n_n).rhsBatch by decide),
    dif_pos (show (1 : Fin S128x128.rank) ∈ (dot_S1024x128_S128x128_S1024x128_1_0_0_1_n_n).rhsNonContracting by decide)]
  rfl

/-- The product into a zero accumulator, read at (r, s): the sum over the 128 contracted positions. -/
theorem dA_apply (prec : Option ContractPrecision) (lhs : FVec Ideal S1024x128 .bf16) (rhs : FVec Ideal S128x128 .bf16)
    (r : Fin 1024) (s : Fin 128) :
    matmul (dot_S1024x128_S128x128_S1024x128_1_0_0_1_n_n) prec lhs rhs (constant S1024x128 .f32 0x00000000#32) (ix2 r s)
      = ∑ k : Fin 128, lhs (ix2 r k) * rhs (ix2 k s) := by
  show FloatOps.matmul (dot_S1024x128_S128x128_S1024x128_1_0_0_1_n_n) prec lhs rhs (constant S1024x128 .f32 0x00000000#32) (ix2 r s) = _
  rw [Ideal.matmul_constant_zero_apply]
  rw [← Equiv.sum_comp (contrEquiv1 (dot_S1024x128_S128x128_S1024x128_1_0_0_1_n_n) 128 rfl rfl).symm]
  refine Finset.sum_congr rfl fun k _ => ?_
  have hk := contrEquiv1_symm_val (dot_S1024x128_S128x128_S1024x128_1_0_0_1_n_n) 128 rfl rfl k
  congr 2
  · funext a
    match a with
    | ⟨0, _⟩ => exact Fin.ext (dA_lhs_0 _ _)
    | ⟨1, _⟩ => exact Fin.ext ((dA_lhs_1 _ _).trans hk)
  · funext a
    match a with
    | ⟨0, _⟩ => exact Fin.ext ((dA_rhs_0 _ _).trans hk)
    | ⟨1, _⟩ => exact Fin.ext (dA_rhs_1 _ _)

theorem dB_lhs_0 (j : S1024x512.Idx) (k : (dot_S1024x128_S128x512_S1024x512_1_0_0_1_n_n).contr.Idx) : ((dot_S1024x128_S128x512_S1024x512_1_0_0_1_n_n).lhsIdx j k 0).val = (j 0).val := by
  unfold DotDims.lhsIdx
  rw [dif_neg (show ¬(0 : Fin S1024x128.rank) ∈ (dot_S1024x128_S128x512_S1024x512_1_0_0_1_n_n).lhsBatch by decide),
    dif_pos (show (0 : Fin S1024x128.rank) ∈ (dot_S1024x128_S128x512_S1024x512_1_0_0_1_n_n).lhsNonContracting by decide)]
  rfl

theorem dB_lhs_1 (j : S1024x512.Idx) (k : (dot_S1024x128_S128x512_S1024x512_1_0_0_1_n_n).contr.Idx) : ((dot_S1024x128_S128x512_S1024x512_1_0_0_1_n_n).lhsIdx j k 1).val = (k ⟨0, by decide⟩).val :=
  (dot_S1024x128_S128x512_S1024x512_1_0_0_1_n_n).lhsIdx_val_of_single rfl j k

theorem dB_rhs_0 (j : S1024x512.Idx) (k : (dot_S1024x128_S128x512_S1024x512_1_0_0_1_n_n).contr.Idx) : ((dot_S1024x128_S128x512_S1024x512_1_0_0_1_n_n).rhsIdx j k 0).val = (k ⟨0, by decide⟩).val :=
  (dot_S1024x128_S128x512_S1024x512_1_0_0_1_n_n).rhsIdx_val_of_single rfl j k

theorem dB_rhs_1 (j : S1024x512.Idx) (k : (dot_S1024x128_S128x512_S1024x512_1_0_0_1_n_n).contr.Idx) : ((dot_S1024x128_S128x512_S1024x512_1_0_0_1_n_n).rhsIdx j k 1).val = (j 1).val := by
  unfold DotDims.rhsIdx
  rw [dif_neg (show ¬(1 : Fin S128x512.rank) ∈ (dot_S1024x128_S128x512_S1024x512_1_0_0_1_n_n).rhsBatch by decide),
    dif_pos (show (1 : Fin S128x512.rank) ∈ (dot_S1024x128_S128x512_S1024x512_1_0_0_1_n_n).rhsNonContracting by decide)]
  rfl

/-- The product into a zero accumulator, read at (r, s): the sum over the 128 contracted positions. -/
theorem dB_apply (prec : Option ContractPrecision) (lhs : FVec Ideal S1024x128 .bf16) (rhs : FVec Ideal S128x512 .bf16)
    (r : Fin 1024) (s : Fin 512) :
    matmul (dot_S1024x128_S128x512_S1024x512_1_0_0_1_n_n) prec lhs rhs (constant S1024x512 .f32 0x00000000#32) (ix2 r s)
      = ∑ k : Fin 128, lhs (ix2 r k) * rhs (ix2 k s) := by
  show FloatOps.matmul (dot_S1024x128_S128x512_S1024x512_1_0_0_1_n_n) prec lhs rhs (constant S1024x512 .f32 0x00000000#32) (ix2 r s) = _
  rw [Ideal.matmul_constant_zero_apply]
  rw [← Equiv.sum_comp (contrEquiv1 (dot_S1024x128_S128x512_S1024x512_1_0_0_1_n_n) 128 rfl rfl).symm]
  refine Finset.sum_congr rfl fun k _ => ?_
  have hk := contrEquiv1_symm_val (dot_S1024x128_S128x512_S1024x512_1_0_0_1_n_n) 128 rfl rfl k
  congr 2
  · funext a
    match a with
    | ⟨0, _⟩ => exact Fin.ext (dB_lhs_0 _ _)
    | ⟨1, _⟩ => exact Fin.ext ((dB_lhs_1 _ _).trans hk)
  · funext a
    match a with
    | ⟨0, _⟩ => exact Fin.ext ((dB_rhs_0 _ _).trans hk)
    | ⟨1, _⟩ => exact Fin.ext (dB_rhs_1 _ _)

theorem dC_lhs_0 (j : S1024x128.Idx) (k : (dot_S1024x512_S512x128_S1024x128_1_0_0_1_n_n).contr.Idx) : ((dot_S1024x512_S512x128_S1024x128_1_0_0_1_n_n).lhsIdx j k 0).val = (j 0).val := by
  unfold DotDims.lhsIdx
  rw [dif_neg (show ¬(0 : Fin S1024x512.rank) ∈ (dot_S1024x512_S512x128_S1024x128_1_0_0_1_n_n).lhsBatch by decide),
    dif_pos (show (0 : Fin S1024x512.rank) ∈ (dot_S1024x512_S512x128_S1024x128_1_0_0_1_n_n).lhsNonContracting by decide)]
  rfl

theorem dC_lhs_1 (j : S1024x128.Idx) (k : (dot_S1024x512_S512x128_S1024x128_1_0_0_1_n_n).contr.Idx) : ((dot_S1024x512_S512x128_S1024x128_1_0_0_1_n_n).lhsIdx j k 1).val = (k ⟨0, by decide⟩).val :=
  (dot_S1024x512_S512x128_S1024x128_1_0_0_1_n_n).lhsIdx_val_of_single rfl j k

theorem dC_rhs_0 (j : S1024x128.Idx) (k : (dot_S1024x512_S512x128_S1024x128_1_0_0_1_n_n).contr.Idx) : ((dot_S1024x512_S512x128_S1024x128_1_0_0_1_n_n).rhsIdx j k 0).val = (k ⟨0, by decide⟩).val :=
  (dot_S1024x512_S512x128_S1024x128_1_0_0_1_n_n).rhsIdx_val_of_single rfl j k

theorem dC_rhs_1 (j : S1024x128.Idx) (k : (dot_S1024x512_S512x128_S1024x128_1_0_0_1_n_n).contr.Idx) : ((dot_S1024x512_S512x128_S1024x128_1_0_0_1_n_n).rhsIdx j k 1).val = (j 1).val := by
  unfold DotDims.rhsIdx
  rw [dif_neg (show ¬(1 : Fin S512x128.rank) ∈ (dot_S1024x512_S512x128_S1024x128_1_0_0_1_n_n).rhsBatch by decide),
    dif_pos (show (1 : Fin S512x128.rank) ∈ (dot_S1024x512_S512x128_S1024x128_1_0_0_1_n_n).rhsNonContracting by decide)]
  rfl

/-- The product into a zero accumulator, read at (r, s): the sum over the 512 contracted positions. -/
theorem dC_apply (prec : Option ContractPrecision) (lhs : FVec Ideal S1024x512 .bf16) (rhs : FVec Ideal S512x128 .bf16)
    (r : Fin 1024) (s : Fin 128) :
    matmul (dot_S1024x512_S512x128_S1024x128_1_0_0_1_n_n) prec lhs rhs (constant S1024x128 .f32 0x00000000#32) (ix2 r s)
      = ∑ k : Fin 512, lhs (ix2 r k) * rhs (ix2 k s) := by
  show FloatOps.matmul (dot_S1024x512_S512x128_S1024x128_1_0_0_1_n_n) prec lhs rhs (constant S1024x128 .f32 0x00000000#32) (ix2 r s) = _
  rw [Ideal.matmul_constant_zero_apply]
  rw [← Equiv.sum_comp (contrEquiv1 (dot_S1024x512_S512x128_S1024x128_1_0_0_1_n_n) 512 rfl rfl).symm]
  refine Finset.sum_congr rfl fun k _ => ?_
  have hk := contrEquiv1_symm_val (dot_S1024x512_S512x128_S1024x128_1_0_0_1_n_n) 512 rfl rfl k
  congr 2
  · funext a
    match a with
    | ⟨0, _⟩ => exact Fin.ext (dC_lhs_0 _ _)
    | ⟨1, _⟩ => exact Fin.ext ((dC_lhs_1 _ _).trans hk)
  · funext a
    match a with
    | ⟨0, _⟩ => exact Fin.ext ((dC_rhs_0 _ _).trans hk)
    | ⟨1, _⟩ => exact Fin.ext (dC_rhs_1 _ _)

/-! ## The slices a trip reads -/

theorem trips1 : k0_t1_loop.trips = 4 := by decide +kernel
theorem trips2 : k0_t2_loop.trips = 8 := by decide +kernel

/-- Columns 512k … 512k + 511 of a 128 × 2048 routing matrix. -/
theorem ld_cols2 (x : Vec Ideal S128x2048 .bf16) (k : Fin k0_t1_loop.trips) (a : Fin 128) (q : Fin 512) (h : k.val * 512 + q.val < 2048) :
    View.ld x (Rect.unit (s := S128x2048) (k0_off1 k) S128x512.size (k0_off1_inb k)) (ix2 a q)
      = x (ix2 a ⟨k.val * 512 + q.val, h⟩) := by
  show x _ = x _
  congr 1
  funext ax
  apply Fin.ext
  match ax with
  | ⟨0, _⟩ => show k0_off1 k 0 + 1 * a.val = a.val; rw [k0_off1_eq]; simp
  | ⟨1, _⟩ => show k0_off1 k 1 + 1 * q.val = k.val * 512 + q.val; rw [k0_off1_eq]; simp; omega

/-- Rows 512k … 512k + 511 of a 2048 × 128 routing matrix. -/
theorem ld_rows2 (x : Vec Ideal S2048x128 .bf16) (k : Fin k0_t1_loop.trips) (q : Fin 512) (s : Fin 128) (h : k.val * 512 + q.val < 2048) :
    View.ld x (Rect.unit (s := S2048x128) (k0_off2 k) S512x128.size (k0_off2_inb k)) (ix2 q s)
      = x (ix2 ⟨k.val * 512 + q.val, h⟩ s) := by
  show x _ = x _
  congr 1
  funext ax
  apply Fin.ext
  match ax with
  | ⟨0, _⟩ => show k0_off2 k 0 + 1 * q.val = k.val * 512 + q.val; rw [k0_off2_eq]; simp; omega
  | ⟨1, _⟩ => show k0_off2 k 1 + 1 * s.val = s.val; rw [k0_off2_eq]; simp

/-- Columns 512k … of a 128 × 4096 routing matrix. -/
theorem ld_cols3 (x : Vec Ideal S128x4096 .bf16) (k : Fin k0_t2_loop.trips) (a : Fin 128) (q : Fin 512) (h : k.val * 512 + q.val < 4096) :
    View.ld x (Rect.unit (s := S128x4096) (k0_off3 k) S128x512.size (k0_off3_inb k)) (ix2 a q)
      = x (ix2 a ⟨k.val * 512 + q.val, h⟩) := by
  show x _ = x _
  congr 1
  funext ax
  apply Fin.ext
  match ax with
  | ⟨0, _⟩ => show k0_off3 k 0 + 1 * a.val = a.val; rw [k0_off3_eq]; simp
  | ⟨1, _⟩ => show k0_off3 k 1 + 1 * q.val = k.val * 512 + q.val; rw [k0_off3_eq]; simp; omega

/-- Rows 512k … of a 4096 × 128 routing matrix. -/
theorem ld_rows3 (x : Vec Ideal S4096x128 .bf16) (k : Fin k0_t2_loop.trips) (q : Fin 512) (s : Fin 128) (h : k.val * 512 + q.val < 4096) :
    View.ld x (Rect.unit (s := S4096x128) (k0_off4 k) S512x128.size (k0_off4_inb k)) (ix2 q s)
      = x (ix2 ⟨k.val * 512 + q.val, h⟩ s) := by
  show x _ = x _
  congr 1
  funext ax
  apply Fin.ext
  match ax with
  | ⟨0, _⟩ => show k0_off4 k 0 + 1 * q.val = k.val * 512 + q.val; rw [k0_off4_eq]; simp; omega
  | ⟨1, _⟩ => show k0_off4 k 1 + 1 * s.val = s.val; rw [k0_off4_eq]; simp

/-! ## A trip and the accumulators read at an index -/

section
variable (x0 : Vec Ideal S1024x128 .bf16) (x1 : Vec Ideal S128x128 .bf16) (x2 : Vec Ideal S128x2048 .bf16) (x3 : Vec Ideal S128x2048 .bf16) (x4 : Vec Ideal S2048x128 .bf16) (x5 : Vec Ideal S128x4096 .bf16) (x6 : Vec Ideal S128x4096 .bf16) (x7 : Vec Ideal S128x4096 .bf16) (x8 : Vec Ideal S4096x128 .bf16) (x9 : Vec Ideal S1024x128 .f32)

theorem pay1_apply (j : S1024x128.Idx) : k0_pay1 (F := Ideal) x0 j = x0 j := by
  unfold k0_pay1
  rw [shapeCast_self]

/-- Trip k of the degree-2 loop at (r, s): the carried value plus the tile of paths 512k … 512k + 511. -/
theorem tripVal1_apply (k : Fin k0_t1_loop.trips) (acc : FVec Ideal S1024x128 .f32) (r : Fin 1024) (s : Fin 128)
    (hb : k.val * 512 + 512 ≤ 2048) :
    tripVal1 x0 x2 x3 x4 k acc (ix2 r s)
      = acc (ix2 r s) + btile2 (fun r k => x0 (ix2 r k)) (fun k p => x2 (ix2 k p)) (fun k p => x3 (ix2 k p))
          (fun p s => x4 (ix2 p s)) r s (k.val * 512) hb := by
  unfold tripVal1 k0_pay3 btile2
  rw [addf_apply, dC_apply]
  refine congrArg (acc (ix2 r s) + ·) (Finset.sum_congr rfl fun q _ => ?_)
  rw [truncf_apply, mulf_apply, dB_apply, dB_apply, shapeCast_self, shapeCast_self, shapeCast_self]
  rw [ld_rows2 x4 k q s (by have := q.isLt; omega)]
  refine congrArg (· * _) ?_
  refine congrArg₂ (· * ·) (Finset.sum_congr rfl fun kk _ => ?_) (Finset.sum_congr rfl fun kk _ => ?_)
  · rw [pay1_apply, ld_cols2 x2 k kk q (by have := q.isLt; omega)]
  · rw [pay1_apply, ld_cols2 x3 k kk q (by have := q.isLt; omega)]

/-- Trip k of the degree-3 loop at (r, s). -/
theorem tripVal2_apply (k : Fin k0_t2_loop.trips) (acc : FVec Ideal S1024x128 .f32) (r : Fin 1024) (s : Fin 128)
    (hb : k.val * 512 + 512 ≤ 4096) :
    tripVal2 x0 x5 x6 x7 x8 k acc (ix2 r s)
      = acc (ix2 r s) + btile3 (fun r k => x0 (ix2 r k)) (fun k p => x5 (ix2 k p)) (fun k p => x6 (ix2 k p))
          (fun k p => x7 (ix2 k p)) (fun p s => x8 (ix2 p s)) r s (k.val * 512) hb := by
  unfold tripVal2 k0_pay5 btile3
  rw [addf_apply, dC_apply]
  refine congrArg (acc (ix2 r s) + ·) (Finset.sum_congr rfl fun q _ => ?_)
  rw [truncf_apply, mulf_apply, mulf_apply, dB_apply, dB_apply, dB_apply, shapeCast_self, shapeCast_self, shapeCast_self, shapeCast_self]
  rw [ld_rows3 x8 k q s (by have := q.isLt; omega)]
  refine congrArg (· * _) ?_
  refine congrArg₂ (· * ·) (congrArg₂ (· * ·) (Finset.sum_congr rfl fun kk _ => ?_) (Finset.sum_congr rfl fun kk _ => ?_))
    (Finset.sum_congr rfl fun kk _ => ?_)
  · rw [pay1_apply, ld_cols3 x5 k kk q (by have := q.isLt; omega)]
  · rw [pay1_apply, ld_cols3 x6 k kk q (by have := q.isLt; omega)]
  · rw [pay1_apply, ld_cols3 x7 k kk q (by have := q.isLt; omega)]

/-- The degree-2 accumulator before trip j, at (r, s). -/
theorem loopVal1_apply (r : Fin 1024) (s : Fin 128) (j : ℕ) :
    loopVal1 x0 x2 x3 x4 j (ix2 r s)
      = bacc2 (fun r k => x0 (ix2 r k)) (fun k p => x2 (ix2 k p)) (fun k p => x3 (ix2 k p)) (fun p s => x4 (ix2 p s)) r s j := by
  induction j with
  | zero =>
    show k0_pay2 (F := Ideal) (ix2 r s) = 0
    unfold k0_pay2
    exact Ideal.ofBits_zero_f32
  | succ j ih =>
    rw [loopVal1, bacc2]
    by_cases h : j < k0_t1_loop.trips
    · have hb : j * 512 + 512 ≤ 2048 := by rw [trips1] at h; omega
      rw [dif_pos h, dif_pos hb, tripVal1_apply x0 x2 x3 x4 ⟨j, h⟩ _ r s hb, ih]
    · have hb : ¬ j * 512 + 512 ≤ 2048 := by rw [trips1] at h; omega
      rw [dif_neg h, dif_neg hb, ih]

/-- The degree-3 accumulator before trip j, at (r, s). -/
theorem loopVal2_apply (r : Fin 1024) (s : Fin 128) (j : ℕ) :
    loopVal2 x0 x5 x6 x7 x8 j (ix2 r s)
      = bacc3 (fun r k => x0 (ix2 r k)) (fun k p => x5 (ix2 k p)) (fun k p => x6 (ix2 k p)) (fun k p => x7 (ix2 k p))
          (fun p s => x8 (ix2 p s)) r s j := by
  induction j with
  | zero =>
    show k0_pay4 (F := Ideal) (ix2 r s) = 0
    unfold k0_pay4
    exact Ideal.ofBits_zero_f32
  | succ j ih =>
    rw [loopVal2, bacc3]
    by_cases h : j < k0_t2_loop.trips
    · have hb : j * 512 + 512 ≤ 4096 := by rw [trips2] at h; omega
      rw [dif_pos h, dif_pos hb, tripVal2_apply x0 x5 x6 x7 x8 ⟨j, h⟩ _ r s hb, ih]
    · have hb : ¬ j * 512 + 512 ≤ 4096 := by rw [trips2] at h; omega
      rw [dif_neg h, dif_neg hb, ih]

end

/-- The block a grid point leaves, at (r, s), from the entries of its ten input blocks. -/
theorem blockVal_apply (x0 : Vec Ideal S1024x128 .bf16) (x1 : Vec Ideal S128x128 .bf16) (x2 : Vec Ideal S128x2048 .bf16) (x3 : Vec Ideal S128x2048 .bf16) (x4 : Vec Ideal S2048x128 .bf16) (x5 : Vec Ideal S128x4096 .bf16) (x6 : Vec Ideal S128x4096 .bf16) (x7 : Vec Ideal S128x4096 .bf16) (x8 : Vec Ideal S4096x128 .bf16) (x9 : Vec Ideal S1024x128 .f32) (r : Fin 1024) (s : Fin 128) :
    blockVal (F := Ideal) x0 x1 x2 x3 x4 x5 x6 x7 x8 x9 (ix2 r s)
      = Cert.SegPoly.bodyFn (fun r k => x0 (ix2 r k)) (fun k s => x1 (ix2 k s))
          (fun k p => x2 (ix2 k p)) (fun k p => x3 (ix2 k p)) (fun p s => x4 (ix2 p s))
          (fun k p => x5 (ix2 k p)) (fun k p => x6 (ix2 k p)) (fun k p => x7 (ix2 k p)) (fun p s => x8 (ix2 p s))
          (fun r s => x9 (ix2 r s)) r s := by
  unfold blockVal k0_pay6 bodyFn
  rw [addf_apply, addf_apply, addf_apply, dA_apply, shapeCast_self, shapeCast_self, loopVal1_apply, loopVal2_apply]
  refine congrArg (· + _) (congrArg (· + _) (congrArg (· + _) (Finset.sum_congr rfl fun k _ => ?_)))
  rw [pay1_apply]

end Cert.KernelIdeal.Gen
end
-- ==== Proof.KInputs.lean ====
/-
  The argument arrays a launch memory holds on a device, gathered as the specification's inputs.
-/
import proofs.«401186_j52879637348694_2_alg».proof.KernelIdeal
import proofs.«401186_j52879637348694_2_alg».proof.Proof.Spec

noncomputable section
namespace Cert.KernelIdeal

open Idealize.ShloMosaic Idealize.SL.Sem

/-- The fourteen argument arrays of device c in memory m. -/
def inputs (m : (ℓ : Loc nD τ sig) → Buf (Elt Ideal) ℓ) (c : Dev nD) : Cert.SegPoly.Inputs where
  x0 := m ((c.tc : Thread nD τ).loc main_arg0)
  coeff0 := m ((c.tc : Thread nD τ).loc main_arg1)
  c1 := m ((c.tc : Thread nD τ).loc main_arg2)
  i1 := m ((c.tc : Thread nD τ).loc main_arg3)
  o1 := m ((c.tc : Thread nD τ).loc main_arg4)
  c2 := m ((c.tc : Thread nD τ).loc main_arg5)
  a2 := m ((c.tc : Thread nD τ).loc main_arg6)
  b2 := m ((c.tc : Thread nD τ).loc main_arg7)
  o2 := m ((c.tc : Thread nD τ).loc main_arg8)
  c3 := m ((c.tc : Thread nD τ).loc main_arg9)
  a3 := m ((c.tc : Thread nD τ).loc main_arg10)
  b3 := m ((c.tc : Thread nD τ).loc main_arg11)
  d3 := m ((c.tc : Thread nD τ).loc main_arg12)
  o3 := m ((c.tc : Thread nD τ).loc main_arg13)

end Cert.KernelIdeal
end
-- ==== Proof.KernelHost1.lean ====
/-
  The arrays the host lines before the region leave for windows 0, 1 and 9 of the kernel, read at an index:
  the input re-laid as a 32768 × 128 matrix, the degree-1 routing matrix, and the bias tile.
-/
import proofs.«401186_j52879637348694_2_alg».proof.Proof.Gen.KernelIdeal.Frame
import proofs.«401186_j52879637348694_2_alg».proof.Proof.KInputs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
namespace Cert.KernelIdeal.HostVal

open Idealize.ShloMosaic Idealize.ShloMosaic.TcCoe Idealize.SL.Sem Idealize.ShloMosaic.ValueIdx
open Cert.KernelIdeal Cert.KernelIdeal.Gen Cert.SegPoly

variable (m : (ℓ : Loc nD τ sig) → Buf (Elt Ideal) ℓ)

/-! ## The re-laid input

Row n of the 32768 × 128 matrix is (b, d) = (n / 32, n % 32); the three layout steps move entry (s, d) of row b, at flat
position s·32 + d, to row b·32 + d, column s. Row-major positions on both sides of each regrouping agree. -/

/-- The layout steps of the input, over any 1024 × 4096 matrix, read at row n, column k. -/
theorem xt_read (x0 : S1024x4096.Idx → EReal) (n : Fin 32768) (k : Fin 128) :
    (truncf (F := Ideal) .bf16 (shapeCast S32768x128 (transpose S1024x32x128 [0, 2, 1]
          (shapeCast S1024x128x32 x0 shapeCasts_S1024x4096_S1024x128x32)
          transposes_S1024x128x32_S1024x32x128_0_2_1) shapeCasts_S1024x32x128_S32768x128) bitsLt_bf16_f32
        : S32768x128.Idx → EReal) (ix2 n k)
      = x0 (ix2 (⟨n.val / 32, by omega⟩ : Fin 1024) (flat k ⟨n.val % 32, Nat.mod_lt _ (by decide)⟩)) := by
  rw [truncf_apply]
  -- row n of the matrix is row (n / 32, n % 32) of the stack of 1024 transposed blocks
  refine (shapeCast_apply _ _ (ix2 n k)
    (ix3 (⟨n.val / 32, by omega⟩ : Fin 1024) (⟨n.val % 32, Nat.mod_lt _ (by decide)⟩ : Fin 32) k) ?_).trans ?_
  · rw [Shape.rowMajor_val_three, Shape.rowMajor_val_two]
    show (n.val / 32 * 32 + n.val % 32) * 128 + k.val = n.val * 128 + k.val
    omega
  refine (transpose_ix3_021_apply _ _ _ _ _).trans ?_
  -- entry (k, d) of block b sits at flat position k·32 + d of row b
  refine shapeCast_apply _ _ _ _ ?_
  rw [Shape.rowMajor_val_two, Shape.rowMajor_val_three]
  show n.val / 32 * 4096 + (k.val * 32 + n.val % 32) = (n.val / 32 * 128 + k.val) * 32 + n.val % 32
  omega

/-- Window 0's array is the layout steps applied to the input argument. -/
theorem e_xt (c : Dev nD) :
    (V m c main_v3 : S32768x128.Idx → EReal)
      = truncf (F := Ideal) .bf16 (shapeCast S32768x128 (transpose S1024x32x128 [0, 2, 1]
          (shapeCast S1024x128x32 (m ((c.tc : Thread nD τ).loc main_arg0)) shapeCasts_S1024x4096_S1024x128x32)
          transposes_S1024x128x32_S1024x32x128_0_2_1) shapeCasts_S1024x32x128_S32768x128) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results; rfl

/-- Window 0's array: row b·32 + d, column s of the re-laid input is entry (s, d) of row b. -/
theorem V_xt (c : Dev nD) (n : Fin 32768) (k : Fin 128) :
    (V m c main_v3 : S32768x128.Idx → EReal) (ix2 n k) = xt (inputs m c) n k := by
  rw [e_xt m c]
  exact xt_read _ n k

/-! ## The bias tile

The 4096 biases, read as 128 segments of 32, are transposed to 32 rows of 128 and repeated 32 times down the tile:
row r of the tile is row r % 32 of the transposed table. -/

/-- The layout steps of the bias, over any table of 4096 numbers, read at row r, column s. -/
theorem bias_read (co : S4096.Idx → EReal) (r : Fin 1024) (s : Fin 128) :
    (shapeCast S1024x128 (broadcastInDim S32x32x1x128 ![0, 1, 2, 3] bcast_S1x32x1x128_S32x32x1x128_0_1_2_3
      (shapeCast S1x32x1x128 (transpose S32x128 [1, 0] (shapeCast S128x32 co shapeCasts_S4096_S128x32)
        transposes_S128x32_S32x128_1_0) shapeCasts_S32x128_S1x32x1x128)) shapeCasts_S32x32x1x128_S1024x128
        : S1024x128.Idx → EReal) (ix2 r s)
      = co (ix1 (flat s ⟨r.val % 32, Nat.mod_lt _ (by decide)⟩)) := by
  -- row r of the tile is copy r / 32, row r % 32
  refine (shapeCast_apply _ _ (ix2 r s)
    (ix4 (⟨r.val / 32, by omega⟩ : Fin 32) (⟨r.val % 32, Nat.mod_lt _ (by decide)⟩ : Fin 32) (0 : Fin 1) s) ?_).trans ?_
  · rw [Shape.rowMajor_val_four, Shape.rowMajor_val_two]
    show ((r.val / 32 * 32 + r.val % 32) * 1 + 0) * 128 + s.val = r.val * 128 + s.val
    omega
  -- every copy is the one table
  refine (broadcastInDim_apply _ _ _ _
    (ix4 (0 : Fin 1) (⟨r.val % 32, Nat.mod_lt _ (by decide)⟩ : Fin 32) (0 : Fin 1) s) ?_).trans ?_
  · intro a
    match a with
    | ⟨0, _⟩ => rfl
    | ⟨1, _⟩ => rfl
    | ⟨2, _⟩ => rfl
    | ⟨3, _⟩ => rfl
  refine (shapeCast_apply _ _ _ (ix2 (⟨r.val % 32, Nat.mod_lt _ (by decide)⟩ : Fin 32) s) ?_).trans ?_
  · rw [Shape.rowMajor_val_two, Shape.rowMajor_val_four]
    show r.val % 32 * 128 + s.val = ((0 * 32 + r.val % 32) * 1 + 0) * 128 + s.val
    omega
  refine (transpose_ix2_apply _ _ _ _).trans ?_
  -- entry (s, d) of the table read as 128 × 32 is the bias at flat position s·32 + d
  refine shapeCast_apply _ _ _ _ ?_
  rw [Shape.rowMajor_val_one, Shape.rowMajor_val_two]
  rfl

set_option maxHeartbeats 2000000 in
/-- Window 9's array is the layout steps applied to the bias argument. -/
theorem e_bias (c : Dev nD) :
    (V m c main_v44 : S1024x128.Idx → EReal)
      = shapeCast S1024x128 (broadcastInDim S32x32x1x128 ![0, 1, 2, 3] bcast_S1x32x1x128_S32x32x1x128_0_1_2_3
          (shapeCast S1x32x1x128 (transpose S32x128 [1, 0]
            (shapeCast S128x32 (m ((c.tc : Thread nD τ).loc main_arg1)) shapeCasts_S4096_S128x32)
            transposes_S128x32_S32x128_1_0) shapeCasts_S32x128_S1x32x1x128)) shapeCasts_S32x32x1x128_S1024x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> rfl

/-- Window 9's array: the bias of sub-dimension r mod 32 and segment s. -/
theorem V_bias (c : Dev nD) (r : Fin 1024) (s : Fin 128) :
    (V m c main_v44 : S1024x128.Idx → EReal) (ix2 r s) = bias (inputs m c) r s := by
  rw [e_bias m c]
  exact bias_read _ r s

/-! ## The degree-1 routing matrix

A table of zeros receives, for every path p, the coefficient c1 p at the entry (wrap (i1 p), wrap (o1 p)), the
contributions of paths that meet at one entry added; a path whose wrapped pair names no entry adds nothing. -/

/-- A scattered update lands on an operand index exactly when, on every axis, its start plus its window coordinate
    is that index's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · next hh =>
      have hv := congrArg Fin.val (congrFun (Option.some.inj h) a)
      simp only at hv
      have := (hh a).1
      omega
    · exact absurd h (by simp)
  · intro H
    have hh : ∀ a, 0 ≤ d.start j idx a + d.window j a ∧ d.start j idx a + d.window j a < s.size a := by
      intro a; rw [H a]; exact ⟨by omega, by exact_mod_cast (i a).isLt⟩
    rw [dif_pos hh]
    congr 1
    funext a
    apply Fin.ext
    show (d.start j idx a + d.window j a).toNat = (i a).val
    rw [H a]; simp

/-- Path p starts its update, on the first axis, at the word in column 0 of row p of the index array. -/
theorem start0 (idx : IVec S128x2 32) (p : Fin 128) :
    scatter_S128x128_S128x2_S128_n_01_01_1.start (ix1 p) idx 0 = (idx (ix2 p 0)).toInt := by
  rw [ScatterDims.start, dif_pos (by decide)]
  refine congrArg BitVec.toInt (congrArg idx ?_)
  funext b
  match b with
  | ⟨0, _⟩ => rfl
  | ⟨1, _⟩ => rfl

/-- … and, on the second axis, at the word in column 1. -/
theorem start1 (idx : IVec S128x2 32) (p : Fin 128) :
    scatter_S128x128_S128x2_S128_n_01_01_1.start (ix1 p) idx 1 = (idx (ix2 p 1)).toInt := by
  rw [ScatterDims.start, dif_pos (by decide)]
  refine congrArg BitVec.toInt (congrArg idx ?_)
  funext b
  match b with
  | ⟨0, _⟩ => rfl
  | ⟨1, _⟩ => rfl

/-- Both axes of the table are inserted: an update is one number, its window coordinate 0. -/
theorem window0 (p : Fin 128) (a : Fin 2) :
    scatter_S128x128_S128x2_S128_n_01_01_1.window (ix1 p) a = 0 := by
  have hk : scatter_S128x128_S128x2_S128_n_01_01_1.sKept = [] := by decide
  rw [ScatterDims.window, dif_neg]
  rw [hk]; exact List.not_mem_nil

/-- Path p's update lands on entry (k, s) exactly when row p of the index array reads (k, s) as signed words. -/
theorem lands_iff (idx : IVec S128x2 32) (p k s : Fin 128) :
    scatter_S128x128_S128x2_S128_n_01_01_1.resultIdx? (ix1 p) idx = some (ix2 k s)
      ↔ (idx (ix2 p 0)).toInt = (k.val : Int) ∧ (idx (ix2 p 1)).toInt = (s.val : Int) := by
  rw [resultIdx?_eq_some_iff, Fin.forall_fin_two, start0, start1, window0, window0]
  simp

/-- A word below zero chosen to be the word plus 128, else the word itself: the wrapped word. -/
theorem wrap_word (w : BitVec 32) :
    Scalar.select (IntOp.cmpi .slt w 0#32) (IntOp.addi w 128#32) w = wrap w := by
  have h0 : (0#32 : BitVec 32).toInt = 0 := by decide
  unfold Scalar.select IntOp.cmpi IntOp.addi wrap
  by_cases h : w.toInt < 0
  · have hs : w.slt 0#32 = true := by simp [BitVec.slt, h0, h]
    simp [hs, h]
  · have hs : w.slt 0#32 = false := by simp [BitVec.slt, h0, h]
    simp [hs, h]

/-- The index array of the scatter: column 0 the wrapped input words, column 1 the wrapped output words. -/
abbrev idxArr (i1 o1 : IVec S128 32) : IVec S128x2 32 :=
  concatenate S128x2 1
    [⟨S128x1, broadcastInDim S128x1 ![0] bcast_S128_S128x1_0
        (select (cmpi .slt i1 (broadcastInDim S128 ![] bcast_S_S128 (constantI S_ 32 0#32)))
          (addi i1 (broadcastInDim S128 ![] bcast_S_S128 (constantI S_ 32 128#32))) i1)⟩,
     ⟨S128x1, broadcastInDim S128x1 ![0] bcast_S128_S128x1_0
        (select (cmpi .slt o1 (broadcastInDim S128 ![] bcast_S_S128 (constantI S_ 32 0#32)))
          (addi o1 (broadcastInDim S128 ![] bcast_S_S128 (constantI S_ 32 128#32))) o1)⟩]
    concatenates_S128x1_S128x1_S128x2_d1

/-- One column of the index array, read at row p: the wrapped word of path p. -/
theorem col_read (w : IVec S128 32) (p : Fin 128) :
    broadcastInDim S128x1 ![0] bcast_S128_S128x1_0
        (select (cmpi .slt w (broadcastInDim S128 ![] bcast_S_S128 (constantI S_ 32 0#32)))
          (addi w (broadcastInDim S128 ![] bcast_S_S128 (constantI S_ 32 128#32))) w) (ix2 p (0 : Fin 1))
      = wrap (w (ix1 p)) := by
  refine (broadcastInDim_apply _ _ _ _ (ix1 p) ?_).trans ?_
  · intro a
    match a with
    | ⟨0, _⟩ => rfl
  exact wrap_word (w (ix1 p))

theorem idx_read0 (i1 o1 : IVec S128 32) (p : Fin 128) : idxArr i1 o1 (ix2 p 0) = wrap (i1 (ix1 p)) := by
  refine (concatenate_pair_apply_left (t := S128x2) (s₁ := S128x1) (s₂ := S128x1) 1 _ _
    concatenates_S128x1_S128x1_S128x2_d1 (ix2 p 0) rfl (ix2 p (0 : Fin 1)) ?_).trans (col_read i1 p)
  intro b
  match b with
  | ⟨0, _⟩ => rfl
  | ⟨1, _⟩ => rfl

theorem idx_read1 (i1 o1 : IVec S128 32) (p : Fin 128) : idxArr i1 o1 (ix2 p 1) = wrap (o1 (ix1 p)) := by
  refine (concatenate_pair_apply_right (t := S128x2) (s₁ := S128x1) (s₂ := S128x1) 1 _ _
    concatenates_S128x1_S128x1_S128x2_d1 (ix2 p 1) rfl rfl (ix2 p (0 : Fin 1)) ?_ ?_).trans (col_read o1 p)
  · intro b hb
    match b, hb with
    | ⟨0, _⟩, _ => rfl
    | ⟨1, _⟩, hb => exact absurd rfl hb
  · rfl

/-- A position of a vector of n entries is its one coordinate. -/
def idxEquiv1 (n : Nat) : Fin n ≃ (⟨1, ![n]⟩ : Shape).Idx where
  toFun := ix1
  invFun j := j 0
  left_inv _ := rfl
  right_inv j := (eq_ix1 j).symm

/-- The routing matrix as the host lines build it, over any index words and coefficients. -/
abbrev w1Term (i1 o1 : IVec S128 32) (c1 : FVec Ideal S128 .f32) : FVec Ideal S128x128 .bf16 :=
  truncf .bf16
    (Host.scatterAdd scatter_S128x128_S128x2_S128_n_01_01_1
      (broadcastInDim S128x128 ![] bcast_S_S128x128 (constant (F := Ideal) S_ .f32 0x00000000#32))
      (idxArr i1 o1) c1) bitsLt_bf16_f32

/-- Entry (k, s) of the routing matrix: the coefficients of the paths whose wrapped words are (k, s), added to zero. -/
theorem w1_read (i1 o1 : IVec S128 32) (c1 : S128.Idx → EReal) (k s : Fin 128) :
    (w1Term i1 o1 c1 : S128x128.Idx → EReal) (ix2 k s)
      = 0 + ∑ p ∈ Finset.univ.filter (fun p : Fin 128 => hits (i1 (ix1 p)) k ∧ hits (o1 (ix1 p)) s), c1 (ix1 p) := by
  show Ideal.hostScatterAdd scatter_S128x128_S128x2_S128_n_01_01_1
      (broadcastInDim S128x128 ![] bcast_S_S128x128 (constant (F := Ideal) S_ .f32 0x00000000#32))
      (idxArr i1 o1) c1 (ix2 k s) = _
  unfold Ideal.hostScatterAdd
  congr 1
  · show Ideal.ofBits .f32 0x00000000#32 = 0
    exact Ideal.ofBits_zero_f32
  · refine (Finset.sum_equiv (idxEquiv1 128) ?_ ?_).symm
    · intro p
      simp only [Finset.mem_filter, Finset.mem_univ, true_and]
      show _ ↔ scatter_S128x128_S128x2_S128_n_01_01_1.resultIdx? (ix1 p) (idxArr i1 o1) = some (ix2 k s)
      rw [lands_iff, idx_read0, idx_read1]
      exact Iff.rfl
    · intro p _
      rfl

set_option maxHeartbeats 2000000 in
/-- Window 1's array is the routing matrix built from the three degree-1 arguments. -/
theorem e_w1 (c : Dev nD) :
    (V m c main_v19 : S128x128.Idx → EReal)
      = w1Term (m ((c.tc : Thread nD τ).loc main_arg3)) (m ((c.tc : Thread nD τ).loc main_arg4))
          (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> rfl

/-- Window 1's array: the accumulated coefficients of the degree-1 paths from segment k to segment s. -/
theorem V_w1 (c : Dev nD) (k s : Fin 128) :
    (V m c main_v19 : S128x128.Idx → EReal) (ix2 k s) = w1 (inputs m c) k s := by
  rw [e_w1 m c]
  exact w1_read _ _ _ k s

end Cert.KernelIdeal.HostVal
end
-- ==== Proof.KernelHost2.lean ====
/-
  The arrays the host lines before the region leave for windows 2 to 8 of the kernel, read at an index: the 0/1
  routing matrices of the degree-2 and degree-3 paths (transposed one-hot rows) and the output routing matrices scaled
  by the paths' coefficients.
-/
import proofs.«401186_j52879637348694_2_alg».proof.Proof.Gen.KernelIdeal.Frame
import proofs.«401186_j52879637348694_2_alg».proof.Proof.KInputs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384
noncomputable section
namespace Cert.KernelIdeal.HostVal

open Idealize.ShloMosaic Idealize.ShloMosaic.TcCoe Idealize.SL.Sem Idealize.ShloMosaic.ValueIdx
open Cert.KernelIdeal Cert.KernelIdeal.Gen Cert.SegPoly

/-! ## A one-hot matrix read at an index -/

/-- The comparison bit of two words, converted to a float, is 1 when they are equal and 0 otherwise. -/
theorem uitofp_cmpi_eq (w v : BitVec 32) :
    (((IntOp.cmpi .eq w v).toNat : ℝ) : EReal) = if w = v then 1 else 0 := by
  unfold IntOp.cmpi
  by_cases h : w = v
  · simp [h]
  · simp [h]

/-- The one-coordinate index of a position, in its two spellings. -/
theorem ofFin_eq_ix1 {n : Nat} (p : Fin n) : (Shape.Idx.ofFin p : (⟨1, ![n]⟩ : Shape).Idx) = ix1 p := by
  funext d
  match d with
  | ⟨0, _⟩ => rfl

/-- A vector laid along the rows of a P × 128 rectangle reads, at (p, k), its entry p. -/
theorem rows_apply {α : Type} {P : Nat} (a : (⟨1, ![P]⟩ : Shape).Idx → α)
    (h1 : (⟨1, ![P]⟩ : Shape).BroadcastsInDim ⟨2, ![P, 1]⟩ ![0])
    (h2 : (⟨2, ![P, 1]⟩ : Shape).BroadcastsInDim ⟨2, ![P, 128]⟩ ![0, 1]) (p : Fin P) (k : Fin 128) :
    broadcastInDim ⟨2, ![P, 128]⟩ ![0, 1] h2 (broadcastInDim ⟨2, ![P, 1]⟩ ![0] h1 a) (ix2 p k) = a (ix1 p) :=
  (StableHlo.Predicate.bcast_rows h1 h2 a p k).trans (congrArg a (ofFin_eq_ix1 p))

/-- The positions 0 … 127 laid along the columns of a P × 128 rectangle read, at (p, k), the word k. -/
theorem iota_cols_apply {P : Nat}
    (h3 : (⟨2, ![1, 128]⟩ : Shape).BroadcastsInDim ⟨2, ![P, 128]⟩ ![0, 1]) (p : Fin P) (k : Fin 128) :
    broadcastInDim ⟨2, ![P, 128]⟩ ![0, 1] h3 (iotaInDim ⟨2, ![1, 128]⟩ 32 1) (ix2 p k) = BitVec.ofNat 32 k.val :=
  StableHlo.Predicate.bcast_of_row h3 _ p k

/-- Entry (p, k) of the one-hot matrix of an index vector. -/
theorem onehot_apply {P : Nat} (φ : FTy) (a : (⟨1, ![P]⟩ : Shape).Idx → BitVec 32)
    (h1 : (⟨1, ![P]⟩ : Shape).BroadcastsInDim ⟨2, ![P, 1]⟩ ![0])
    (h2 : (⟨2, ![P, 1]⟩ : Shape).BroadcastsInDim ⟨2, ![P, 128]⟩ ![0, 1])
    (h3 : (⟨2, ![1, 128]⟩ : Shape).BroadcastsInDim ⟨2, ![P, 128]⟩ ![0, 1]) (p : Fin P) (k : Fin 128) :
    (uitofp (F := Ideal) φ (cmpi .eq
        (broadcastInDim ⟨2, ![P, 128]⟩ ![0, 1] h2 (broadcastInDim ⟨2, ![P, 1]⟩ ![0] h1 a))
        (broadcastInDim ⟨2, ![P, 128]⟩ ![0, 1] h3 (iotaInDim ⟨2, ![1, 128]⟩ 32 1))) : (⟨2, ![P, 128]⟩ : Shape).Idx → EReal) (ix2 p k)
      = oh (a (ix1 p)) k := by
  show (((IntOp.cmpi .eq
      (broadcastInDim ⟨2, ![P, 128]⟩ ![0, 1] h2 (broadcastInDim ⟨2, ![P, 1]⟩ ![0] h1 a) (ix2 p k))
      (broadcastInDim ⟨2, ![P, 128]⟩ ![0, 1] h3 (iotaInDim ⟨2, ![1, 128]⟩ 32 1) (ix2 p k))).toNat : ℝ) : EReal) = _
  rw [rows_apply, iota_cols_apply, uitofp_cmpi_eq]
  rfl

/-- Entry (k, p) of the transposed one-hot matrix. -/
theorem onehotT_apply {P : Nat} (φ : FTy) (a : (⟨1, ![P]⟩ : Shape).Idx → BitVec 32)
    (h1 : (⟨1, ![P]⟩ : Shape).BroadcastsInDim ⟨2, ![P, 1]⟩ ![0])
    (h2 : (⟨2, ![P, 1]⟩ : Shape).BroadcastsInDim ⟨2, ![P, 128]⟩ ![0, 1])
    (h3 : (⟨2, ![1, 128]⟩ : Shape).BroadcastsInDim ⟨2, ![P, 128]⟩ ![0, 1])
    (hT : (⟨2, ![P, 128]⟩ : Shape).Transposes [1, 0] ⟨2, ![128, P]⟩) (k : Fin 128) (p : Fin P) :
    (transpose ⟨2, ![128, P]⟩ [1, 0] (uitofp (F := Ideal) φ (cmpi .eq
        (broadcastInDim ⟨2, ![P, 128]⟩ ![0, 1] h2 (broadcastInDim ⟨2, ![P, 1]⟩ ![0] h1 a))
        (broadcastInDim ⟨2, ![P, 128]⟩ ![0, 1] h3 (iotaInDim ⟨2, ![1, 128]⟩ 32 1)))) hT
          : (⟨2, ![128, P]⟩ : Shape).Idx → EReal) (ix2 k p)
      = oh (a (ix1 p)) k := by
  rw [transpose_ix2_apply]
  exact onehot_apply φ a h1 h2 h3 p k

/-- Entry (p, s) of the one-hot matrix scaled row by row by a coefficient vector. -/
theorem onehot_scaled_apply {P : Nat} (a : (⟨1, ![P]⟩ : Shape).Idx → BitVec 32) (cf : (⟨1, ![P]⟩ : Shape).Idx → EReal)
    (h1 : (⟨1, ![P]⟩ : Shape).BroadcastsInDim ⟨2, ![P, 1]⟩ ![0])
    (h2 : (⟨2, ![P, 1]⟩ : Shape).BroadcastsInDim ⟨2, ![P, 128]⟩ ![0, 1])
    (h3 : (⟨2, ![1, 128]⟩ : Shape).BroadcastsInDim ⟨2, ![P, 128]⟩ ![0, 1])
    (hb : FTy.bf16.bits < FTy.f32.bits) (p : Fin P) (s : Fin 128) :
    (truncf (F := Ideal) .bf16 (mulf (F := Ideal) (φ := .f32)
        (uitofp (F := Ideal) .f32 (cmpi .eq
          (broadcastInDim ⟨2, ![P, 128]⟩ ![0, 1] h2 (broadcastInDim ⟨2, ![P, 1]⟩ ![0] h1 a))
          (broadcastInDim ⟨2, ![P, 128]⟩ ![0, 1] h3 (iotaInDim ⟨2, ![1, 128]⟩ 32 1))))
        (broadcastInDim ⟨2, ![P, 128]⟩ ![0, 1] h2 (broadcastInDim ⟨2, ![P, 1]⟩ ![0] h1 cf))) hb
          : (⟨2, ![P, 128]⟩ : Shape).Idx → EReal) (ix2 p s)
      = oh (a (ix1 p)) s * cf (ix1 p) := by
  rw [truncf_apply, mulf_apply, onehot_apply .f32 a h1 h2 h3 p s]
  rw [rows_apply cf h1 h2 p s]

/-! ## The seven arrays as terms over the argument arrays -/

variable (m : (ℓ : Loc nD τ sig) → Buf (Elt Ideal) ℓ)

set_option maxHeartbeats 4000000 in
/-- The transposed one-hot matrix of the first factor's segment, degree 2, as the operations that produce it applied to the argument array. -/
theorem ga2_term (c : Dev nD) :
    (V m c main_v21 : S128x2048.Idx → EReal)
      = transpose S128x2048 [1, 0]
        (uitofp (F := Ideal) .bf16 (cmpi .eq
          (broadcastInDim S2048x128 ![0, 1] bcast_S2048x1_S2048x128_0_1
            (broadcastInDim S2048x1 ![0] bcast_S2048_S2048x1_0 (m ((c : Thread nD τ).loc main_arg6))))
          (broadcastInDim S2048x128 ![0, 1] bcast_S1x128_S2048x128_0_1 (iotaInDim S1x128 32 1))))
        transposes_S2048x128_S128x2048_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The transposed one-hot matrix of the second factor's segment, degree 2, as the operations that produce it applied to the argument array. -/
theorem gb2_term (c : Dev nD) :
    (V m c main_v23 : S128x2048.Idx → EReal)
      = transpose S128x2048 [1, 0]
        (uitofp (F := Ideal) .bf16 (cmpi .eq
          (broadcastInDim S2048x128 ![0, 1] bcast_S2048x1_S2048x128_0_1
            (broadcastInDim S2048x1 ![0] bcast_S2048_S2048x1_0 (m ((c : Thread nD τ).loc main_arg7))))
          (broadcastInDim S2048x128 ![0, 1] bcast_S1x128_S2048x128_0_1 (iotaInDim S1x128 32 1))))
        transposes_S2048x128_S128x2048_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The one-hot matrix of the output segment scaled by the coefficients, degree 2, as the operations that produce it applied to the argument arrays. -/
theorem go2_term (c : Dev nD) :
    (V m c main_v28 : S2048x128.Idx → EReal)
      = truncf (F := Ideal) .bf16 (mulf (F := Ideal) (φ := .f32)
        (uitofp (F := Ideal) .f32 (cmpi .eq
          (broadcastInDim S2048x128 ![0, 1] bcast_S2048x1_S2048x128_0_1
            (broadcastInDim S2048x1 ![0] bcast_S2048_S2048x1_0 (m ((c : Thread nD τ).loc main_arg8))))
          (broadcastInDim S2048x128 ![0, 1] bcast_S1x128_S2048x128_0_1 (iotaInDim S1x128 32 1))))
        (broadcastInDim S2048x128 ![0, 1] bcast_S2048x1_S2048x128_0_1
          (broadcastInDim S2048x1 ![0] bcast_S2048_S2048x1_0 (m ((c : Thread nD τ).loc main_arg5)))))
        bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The transposed one-hot matrix of the first factor's segment, degree 3, as the operations that produce it applied to the argument array. -/
theorem ga3_term (c : Dev nD) :
    (V m c main_v30 : S128x4096.Idx → EReal)
      = transpose S128x4096 [1, 0]
        (uitofp (F := Ideal) .bf16 (cmpi .eq
          (broadcastInDim S4096x128 ![0, 1] bcast_S4096x1_S4096x128_0_1
            (broadcastInDim S4096x1 ![0] bcast_S4096_S4096x1_0 (m ((c : Thread nD τ).loc main_arg10))))
          (broadcastInDim S4096x128 ![0, 1] bcast_S1x128_S4096x128_0_1 (iotaInDim S1x128 32 1))))
        transposes_S4096x128_S128x4096_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The transposed one-hot matrix of the second factor's segment, degree 3, as the operations that produce it applied to the argument array. -/
theorem gb3_term (c : Dev nD) :
    (V m c main_v32 : S128x4096.Idx → EReal)
      = transpose S128x4096 [1, 0]
        (uitofp (F := Ideal) .bf16 (cmpi .eq
          (broadcastInDim S4096x128 ![0, 1] bcast_S4096x1_S4096x128_0_1
            (broadcastInDim S4096x1 ![0] bcast_S4096_S4096x1_0 (m ((c : Thread nD τ).loc main_arg11))))
          (broadcastInDim S4096x128 ![0, 1] bcast_S1x128_S4096x128_0_1 (iotaInDim S1x128 32 1))))
        transposes_S4096x128_S128x4096_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The transposed one-hot matrix of the third factor's segment, degree 3, as the operations that produce it applied to the argument array. -/
theorem gd3_term (c : Dev nD) :
    (V m c main_v34 : S128x4096.Idx → EReal)
      = transpose S128x4096 [1, 0]
        (uitofp (F := Ideal) .bf16 (cmpi .eq
          (broadcastInDim S4096x128 ![0, 1] bcast_S4096x1_S4096x128_0_1
            (broadcastInDim S4096x1 ![0] bcast_S4096_S4096x1_0 (m ((c : Thread nD τ).loc main_arg12))))
          (broadcastInDim S4096x128 ![0, 1] bcast_S1x128_S4096x128_0_1 (iotaInDim S1x128 32 1))))
        transposes_S4096x128_S128x4096_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

set_option maxHeartbeats 4000000 in
/-- The one-hot matrix of the output segment scaled by the coefficients, degree 3, as the operations that produce it applied to the argument arrays. -/
theorem go3_term (c : Dev nD) :
    (V m c main_v39 : S4096x128.Idx → EReal)
      = truncf (F := Ideal) .bf16 (mulf (F := Ideal) (φ := .f32)
        (uitofp (F := Ideal) .f32 (cmpi .eq
          (broadcastInDim S4096x128 ![0, 1] bcast_S4096x1_S4096x128_0_1
            (broadcastInDim S4096x1 ![0] bcast_S4096_S4096x1_0 (m ((c : Thread nD τ).loc main_arg13))))
          (broadcastInDim S4096x128 ![0, 1] bcast_S1x128_S4096x128_0_1 (iotaInDim S1x128 32 1))))
        (broadcastInDim S4096x128 ![0, 1] bcast_S4096x1_S4096x128_0_1
          (broadcastInDim S4096x1 ![0] bcast_S4096_S4096x1_0 (m ((c : Thread nD τ).loc main_arg9)))))
        bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-! ## Read at an index -/

theorem V_ga2 (c : Dev nD) (k : Fin 128) (p : Fin 2048) :
    (V m c main_v21 : S128x2048.Idx → EReal) (ix2 k p) = oh ((inputs m c).a2 (ix1 p)) k :=
  (congrFun (ga2_term m c) (ix2 k p)).trans
    (onehotT_apply .bf16 _ bcast_S2048_S2048x1_0 bcast_S2048x1_S2048x128_0_1 bcast_S1x128_S2048x128_0_1
      transposes_S2048x128_S128x2048_1_0 k p)

theorem V_gb2 (c : Dev nD) (k : Fin 128) (p : Fin 2048) :
    (V m c main_v23 : S128x2048.Idx → EReal) (ix2 k p) = oh ((inputs m c).b2 (ix1 p)) k :=
  (congrFun (gb2_term m c) (ix2 k p)).trans
    (onehotT_apply .bf16 _ bcast_S2048_S2048x1_0 bcast_S2048x1_S2048x128_0_1 bcast_S1x128_S2048x128_0_1
      transposes_S2048x128_S128x2048_1_0 k p)

theorem V_go2 (c : Dev nD) (p : Fin 2048) (s : Fin 128) :
    (V m c main_v28 : S2048x128.Idx → EReal) (ix2 p s) = oh ((inputs m c).o2 (ix1 p)) s * (inputs m c).c2 (ix1 p) :=
  (congrFun (go2_term m c) (ix2 p s)).trans
    (onehot_scaled_apply _ _ bcast_S2048_S2048x1_0 bcast_S2048x1_S2048x128_0_1 bcast_S1x128_S2048x128_0_1
      bitsLt_bf16_f32 p s)

theorem V_ga3 (c : Dev nD) (k : Fin 128) (p : Fin 4096) :
    (V m c main_v30 : S128x4096.Idx → EReal) (ix2 k p) = oh ((inputs m c).a3 (ix1 p)) k :=
  (congrFun (ga3_term m c) (ix2 k p)).trans
    (onehotT_apply .bf16 _ bcast_S4096_S4096x1_0 bcast_S4096x1_S4096x128_0_1 bcast_S1x128_S4096x128_0_1
      transposes_S4096x128_S128x4096_1_0 k p)

theorem V_gb3 (c : Dev nD) (k : Fin 128) (p : Fin 4096) :
    (V m c main_v32 : S128x4096.Idx → EReal) (ix2 k p) = oh ((inputs m c).b3 (ix1 p)) k :=
  (congrFun (gb3_term m c) (ix2 k p)).trans
    (onehotT_apply .bf16 _ bcast_S4096_S4096x1_0 bcast_S4096x1_S4096x128_0_1 bcast_S1x128_S4096x128_0_1
      transposes_S4096x128_S128x4096_1_0 k p)

theorem V_gd3 (c : Dev nD) (k : Fin 128) (p : Fin 4096) :
    (V m c main_v34 : S128x4096.Idx → EReal) (ix2 k p) = oh ((inputs m c).d3 (ix1 p)) k :=
  (congrFun (gd3_term m c) (ix2 k p)).trans
    (onehotT_apply .bf16 _ bcast_S4096_S4096x1_0 bcast_S4096x1_S4096x128_0_1 bcast_S1x128_S4096x128_0_1
      transposes_S4096x128_S128x4096_1_0 k p)

theorem V_go3 (c : Dev nD) (p : Fin 4096) (s : Fin 128) :
    (V m c main_v39 : S4096x128.Idx → EReal) (ix2 p s) = oh ((inputs m c).o3 (ix1 p)) s * (inputs m c).c3 (ix1 p) :=
  (congrFun (go3_term m c) (ix2 p s)).trans
    (onehot_scaled_apply _ _ bcast_S4096_S4096x1_0 bcast_S4096x1_S4096x128_0_1 bcast_S1x128_S4096x128_0_1
      bitsLt_bf16_f32 p s)

end Cert.KernelIdeal.HostVal
end
-- ==== Proof.KernelArray.lean ====
/-
  From blocks to the array: after the run the kernel's 32768 × 128 output holds the closed form Kout of the
  argument arrays at every index.  Grid point t writes back rows t·1024 … t·1024 + 1023; what it writes is the
  body's block of the point's input blocks; the input blocks are the routing matrices the host lines built (read
  whole at every point) and rows t·1024 … of the re-laid input; the 32 points' blocks cover the array.
-/
import proofs.«401186_j52879637348694_2_alg».proof.Proof.KernelBodyIdx
import proofs.«401186_j52879637348694_2_alg».proof.Proof.KernelHost1
import proofs.«401186_j52879637348694_2_alg».proof.Proof.KernelHost2
import Idealize.ShloMosaic.Lib.Pipeline.Value

set_option maxRecDepth 16384
noncomputable section
namespace Cert.KernelIdeal.ArrayVal

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.HostVal Cert.SegPoly

variable (m : (ℓ : Loc nD τ sig) → Buf (Elt Ideal) ℓ)

/-- The block index maps over the 32 grid points: the input rows and the output rows move with the point (block t of
    1024 rows, the one block of 128 columns); every other window stays on its one block. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The grid has 32 points. -/
theorem N_eq : cfg0.N = 32 := by decide

/-- Window 0's block at point t is rows t·1024 … t·1024 + 1023 of the re-laid input. -/
theorem blk0_apply (c : Dev nD) (t : Fin cfg0.N) (r : Fin 1024) (k : Fin 128) (n : Fin 32768)
    (hn : n.val = t.val * 1024 + r.val) :
    (iblk m c 0 t : Vec Ideal S1024x128 .bf16) (ix2 r k) = (V m c main_v3 : S32768x128.Idx → EReal) (ix2 n k) := by
  obtain ⟨o0, o1, f00, f01, f10, f11, f20, f21, f30, f31, f40, f41, f50, f51, f60, f61, f70, f71, f80, f81, f90, f91⟩ := idx_facts t
  unfold iblk
  rw [View.read_apply]
  show V m c main_v3 _ = V m c main_v3 _
  congr 1
  funext a
  apply Fin.ext
  match a with
  | ⟨0, _⟩ => show win0_0.index t (0 : Fin 2) * 1024 + 1 * r.val = n.val; omega
  | ⟨1, _⟩ => show win0_0.index t (1 : Fin 2) * 128 + 1 * k.val = k.val; omega

/-- Window 1's block at any point is the whole degree-1 routing matrix. -/
theorem blk1_apply (c : Dev nD) (t : Fin cfg0.N) (k : Fin 128) (s : Fin 128) :
    (iblk m c 1 t : Vec Ideal S128x128 .bf16) (ix2 k s) = (V m c main_v19 : S128x128.Idx → EReal) (ix2 k s) := by
  obtain ⟨o0, o1, f00, f01, f10, f11, f20, f21, f30, f31, f40, f41, f50, f51, f60, f61, f70, f71, f80, f81, f90, f91⟩ := idx_facts t
  unfold iblk
  rw [View.read_apply]
  show V m c main_v19 _ = V m c main_v19 _
  congr 1
  funext a
  apply Fin.ext
  match a with
  | ⟨0, _⟩ => show win0_1.index t (0 : Fin 2) * 128 + 1 * k.val = k.val; omega
  | ⟨1, _⟩ => show win0_1.index t (1 : Fin 2) * 128 + 1 * s.val = s.val; omega

/-- Window 2's block at any point is the whole first-factor routing matrix of the degree-2 paths. -/
theorem blk2_apply (c : Dev nD) (t : Fin cfg0.N) (k : Fin 128) (p : Fin 2048) :
    (iblk m c 2 t : Vec Ideal S128x2048 .bf16) (ix2 k p) = (V m c main_v21 : S128x2048.Idx → EReal) (ix2 k p) := by
  obtain ⟨o0, o1, f00, f01, f10, f11, f20, f21, f30, f31, f40, f41, f50, f51, f60, f61, f70, f71, f80, f81, f90, f91⟩ := idx_facts t
  unfold iblk
  rw [View.read_apply]
  show V m c main_v21 _ = V m c main_v21 _
  congr 1
  funext a
  apply Fin.ext
  match a with
  | ⟨0, _⟩ => show win0_2.index t (0 : Fin 2) * 128 + 1 * k.val = k.val; omega
  | ⟨1, _⟩ => show win0_2.index t (1 : Fin 2) * 2048 + 1 * p.val = p.val; omega

/-- Window 3's block at any point is the whole second-factor routing matrix of the degree-2 paths. -/
theorem blk3_apply (c : Dev nD) (t : Fin cfg0.N) (k : Fin 128) (p : Fin 2048) :
    (iblk m c 3 t : Vec Ideal S128x2048 .bf16) (ix2 k p) = (V m c main_v23 : S128x2048.Idx → EReal) (ix2 k p) := by
  obtain ⟨o0, o1, f00, f01, f10, f11, f20, f21, f30, f31, f40, f41, f50, f51, f60, f61, f70, f71, f80, f81, f90, f91⟩ := idx_facts t
  unfold iblk
  rw [View.read_apply]
  show V m c main_v23 _ = V m c main_v23 _
  congr 1
  funext a
  apply Fin.ext
  match a with
  | ⟨0, _⟩ => show win0_3.index t (0 : Fin 2) * 128 + 1 * k.val = k.val; omega
  | ⟨1, _⟩ => show win0_3.index t (1 : Fin 2) * 2048 + 1 * p.val = p.val; omega

/-- Window 4's block at any point is the whole scaled output routing matrix of the degree-2 paths. -/
theorem blk4_apply (c : Dev nD) (t : Fin cfg0.N) (p : Fin 2048) (s : Fin 128) :
    (iblk m c 4 t : Vec Ideal S2048x128 .bf16) (ix2 p s) = (V m c main_v28 : S2048x128.Idx → EReal) (ix2 p s) := by
  obtain ⟨o0, o1, f00, f01, f10, f11, f20, f21, f30, f31, f40, f41, f50, f51, f60, f61, f70, f71, f80, f81, f90, f91⟩ := idx_facts t
  unfold iblk
  rw [View.read_apply]
  show V m c main_v28 _ = V m c main_v28 _
  congr 1
  funext a
  apply Fin.ext
  match a with
  | ⟨0, _⟩ => show win0_4.index t (0 : Fin 2) * 2048 + 1 * p.val = p.val; omega
  | ⟨1, _⟩ => show win0_4.index t (1 : Fin 2) * 128 + 1 * s.val = s.val; omega

/-- Window 5's block at any point is the whole first-factor routing matrix of the degree-3 paths. -/
theorem blk5_apply (c : Dev nD) (t : Fin cfg0.N) (k : Fin 128) (p : Fin 4096) :
    (iblk m c 5 t : Vec Ideal S128x4096 .bf16) (ix2 k p) = (V m c main_v30 : S128x4096.Idx → EReal) (ix2 k p) := by
  obtain ⟨o0, o1, f00, f01, f10, f11, f20, f21, f30, f31, f40, f41, f50, f51, f60, f61, f70, f71, f80, f81, f90, f91⟩ := idx_facts t
  unfold iblk
  rw [View.read_apply]
  show V m c main_v30 _ = V m c main_v30 _
  congr 1
  funext a
  apply Fin.ext
  match a with
  | ⟨0, _⟩ => show win0_5.index t (0 : Fin 2) * 128 + 1 * k.val = k.val; omega
  | ⟨1, _⟩ => show win0_5.index t (1 : Fin 2) * 4096 + 1 * p.val = p.val; omega

/-- Window 6's block at any point is the whole second-factor routing matrix of the degree-3 paths. -/
theorem blk6_apply (c : Dev nD) (t : Fin cfg0.N) (k : Fin 128) (p : Fin 4096) :
    (iblk m c 6 t : Vec Ideal S128x4096 .bf16) (ix2 k p) = (V m c main_v32 : S128x4096.Idx → EReal) (ix2 k p) := by
  obtain ⟨o0, o1, f00, f01, f10, f11, f20, f21, f30, f31, f40, f41, f50, f51, f60, f61, f70, f71, f80, f81, f90, f91⟩ := idx_facts t
  unfold iblk
  rw [View.read_apply]
  show V m c main_v32 _ = V m c main_v32 _
  congr 1
  funext a
  apply Fin.ext
  match a with
  | ⟨0, _⟩ => show win0_6.index t (0 : Fin 2) * 128 + 1 * k.val = k.val; omega
  | ⟨1, _⟩ => show win0_6.index t (1 : Fin 2) * 4096 + 1 * p.val = p.val; omega

/-- Window 7's block at any point is the whole third-factor routing matrix of the degree-3 paths. -/
theorem blk7_apply (c : Dev nD) (t : Fin cfg0.N) (k : Fin 128) (p : Fin 4096) :
    (iblk m c 7 t : Vec Ideal S128x4096 .bf16) (ix2 k p) = (V m c main_v34 : S128x4096.Idx → EReal) (ix2 k p) := by
  obtain ⟨o0, o1, f00, f01, f10, f11, f20, f21, f30, f31, f40, f41, f50, f51, f60, f61, f70, f71, f80, f81, f90, f91⟩ := idx_facts t
  unfold iblk
  rw [View.read_apply]
  show V m c main_v34 _ = V m c main_v34 _
  congr 1
  funext a
  apply Fin.ext
  match a with
  | ⟨0, _⟩ => show win0_7.index t (0 : Fin 2) * 128 + 1 * k.val = k.val; omega
  | ⟨1, _⟩ => show win0_7.index t (1 : Fin 2) * 4096 + 1 * p.val = p.val; omega

/-- Window 8's block at any point is the whole scaled output routing matrix of the degree-3 paths. -/
theorem blk8_apply (c : Dev nD) (t : Fin cfg0.N) (p : Fin 4096) (s : Fin 128) :
    (iblk m c 8 t : Vec Ideal S4096x128 .bf16) (ix2 p s) = (V m c main_v39 : S4096x128.Idx → EReal) (ix2 p s) := by
  obtain ⟨o0, o1, f00, f01, f10, f11, f20, f21, f30, f31, f40, f41, f50, f51, f60, f61, f70, f71, f80, f81, f90, f91⟩ := idx_facts t
  unfold iblk
  rw [View.read_apply]
  show V m c main_v39 _ = V m c main_v39 _
  congr 1
  funext a
  apply Fin.ext
  match a with
  | ⟨0, _⟩ => show win0_8.index t (0 : Fin 2) * 4096 + 1 * p.val = p.val; omega
  | ⟨1, _⟩ => show win0_8.index t (1 : Fin 2) * 128 + 1 * s.val = s.val; omega

/-- Window 9's block at any point is the whole bias tile. -/
theorem blk9_apply (c : Dev nD) (t : Fin cfg0.N) (r : Fin 1024) (s : Fin 128) :
    (iblk m c 9 t : Vec Ideal S1024x128 .f32) (ix2 r s) = (V m c main_v44 : S1024x128.Idx → EReal) (ix2 r s) := by
  obtain ⟨o0, o1, f00, f01, f10, f11, f20, f21, f30, f31, f40, f41, f50, f51, f60, f61, f70, f71, f80, f81, f90, f91⟩ := idx_facts t
  unfold iblk
  rw [View.read_apply]
  show V m c main_v44 _ = V m c main_v44 _
  congr 1
  funext a
  apply Fin.ext
  match a with
  | ⟨0, _⟩ => show win0_9.index t (0 : Fin 2) * 1024 + 1 * r.val = r.val; omega
  | ⟨1, _⟩ => show win0_9.index t (1 : Fin 2) * 128 + 1 * s.val = s.val; omega

/-- One point's computation over blocks that hold rows t·1024 … of the re-laid input, the routing matrices and the
    bias tile is the closed form at row t·1024 + r. -/
theorem block_eq_Kout (I : Inputs) (t : Fin 32) (x0 : Vec Ideal S1024x128 .bf16) (x1 : Vec Ideal S128x128 .bf16)
    (x2 x3 : Vec Ideal S128x2048 .bf16) (x4 : Vec Ideal S2048x128 .bf16) (x5 x6 x7 : Vec Ideal S128x4096 .bf16)
    (x8 : Vec Ideal S4096x128 .bf16) (x9 : Vec Ideal S1024x128 .f32)
    (h0 : ∀ (r : Fin 1024) (k : Fin 128), x0 (ix2 r k) = xt I (rowOf t r) k)
    (h1 : ∀ k s : Fin 128, x1 (ix2 k s) = w1 I k s)
    (h2 : ∀ (k : Fin 128) (p : Fin 2048), x2 (ix2 k p) = oh (I.a2 (ix1 p)) k)
    (h3 : ∀ (k : Fin 128) (p : Fin 2048), x3 (ix2 k p) = oh (I.b2 (ix1 p)) k)
    (h4 : ∀ (p : Fin 2048) (s : Fin 128), x4 (ix2 p s) = oh (I.o2 (ix1 p)) s * I.c2 (ix1 p))
    (h5 : ∀ (k : Fin 128) (p : Fin 4096), x5 (ix2 k p) = oh (I.a3 (ix1 p)) k)
    (h6 : ∀ (k : Fin 128) (p : Fin 4096), x6 (ix2 k p) = oh (I.b3 (ix1 p)) k)
    (h7 : ∀ (k : Fin 128) (p : Fin 4096), x7 (ix2 k p) = oh (I.d3 (ix1 p)) k)
    (h8 : ∀ (p : Fin 4096) (s : Fin 128), x8 (ix2 p s) = oh (I.o3 (ix1 p)) s * I.c3 (ix1 p))
    (h9 : ∀ (r : Fin 1024) (s : Fin 128), x9 (ix2 r s) = bias I r s) (r : Fin 1024) (s : Fin 128) :
    blockVal (F := Ideal) x0 x1 x2 x3 x4 x5 x6 x7 x8 x9 (ix2 r s) = Kout I (rowOf t r) s := by
  rw [blockVal_apply, Kout_eq_bodyFn]
  simp only [h0, h1, h2, h3, h4, h5, h6, h7, h8, h9]

/-- What point t writes back: block t of the closed form — rows t·1024 … t·1024 + 1023, all 128 columns. -/
theorem flushed_eq (c : Dev nD) (t : Fin cfg0.N) :
    (dats m 0 c).flushed 10 t
      = ((cfg0.win 10).blk t).view.read (Elt Ideal) (fun i : S32768x128.Idx => Kout (inputs m c) (i 0) (i 1)) := by
  show (cfg0.win 10).cut (grid0.coords t) ((dats m 0 c).after 10 t) = _
  rw [after0_10]
  unfold outsAt0
  rw [out_eq_blockVal]
  obtain ⟨o0, o1, f00, f01, f10, f11, f20, f21, f30, f31, f40, f41, f50, f51, f60, f61, f70, f71, f80, f81, f90, f91⟩ := idx_facts t
  have ht : t.val < 32 := N_eq ▸ t.isLt
  funext y
  obtain ⟨r, s, rfl⟩ : ∃ (r : Fin 1024) (s : Fin 128), y = ix2 r s := ⟨y 0, y 1, eq_ix2 y⟩
  rw [View.read_apply]
  show blockVal (F := Ideal) (iblk m c 0 t) (iblk m c 1 t) (iblk m c 2 t) (iblk m c 3 t) (iblk m c 4 t) (iblk m c 5 t)
      (iblk m c 6 t) (iblk m c 7 t) (iblk m c 8 t) (iblk m c 9 t) (ix2 r s)
    = Kout (inputs m c) ((((cfg0.win 10).blk t).view.emb (ix2 r s)) 0) ((((cfg0.win 10).blk t).view.emb (ix2 r s)) 1)
  refine (block_eq_Kout (inputs m c) ⟨t.val, ht⟩ (iblk m c 0 t) (iblk m c 1 t) (iblk m c 2 t) (iblk m c 3 t)
    (iblk m c 4 t) (iblk m c 5 t) (iblk m c 6 t) (iblk m c 7 t) (iblk m c 8 t) (iblk m c 9 t)
    (fun r k => (blk0_apply m c t r k (rowOf ⟨t.val, ht⟩ r) rfl).trans (V_xt m c _ k))
    (fun k s => (blk1_apply m c t k s).trans (V_w1 m c k s))
    (fun k p => (blk2_apply m c t k p).trans (V_ga2 m c k p))
    (fun k p => (blk3_apply m c t k p).trans (V_gb2 m c k p))
    (fun p s => (blk4_apply m c t p s).trans (V_go2 m c p s))
    (fun k p => (blk5_apply m c t k p).trans (V_ga3 m c k p))
    (fun k p => (blk6_apply m c t k p).trans (V_gb3 m c k p))
    (fun k p => (blk7_apply m c t k p).trans (V_gd3 m c k p))
    (fun p s => (blk8_apply m c t p s).trans (V_go3 m c p s))
    (fun r s => (blk9_apply m c t r s).trans (V_bias m c r s)) r s).trans ?_
  exact congrArg₂ (Kout (inputs m c))
    (Fin.ext (by show t.val * 1024 + r.val = win0_10.index t (0 : Fin 2) * 1024 + 1 * r.val; omega))
    (Fin.ext (by show s.val = win0_10.index t (1 : Fin 2) * 128 + 1 * s.val; omega))

/-- An index of the output array is in point t's block iff each coordinate is in the block's range on its axis. -/
theorem mem_blk (t : Fin cfg0.N) (i : S32768x128.Idx) :
    i ∈ ((cfg0.win 10).blk t).view.set ↔ ∀ a : Fin 2, win0_10.index t a * S1024x128.size a ≤ (i a).val
      ∧ (i a).val < win0_10.index t a * S1024x128.size a + S1024x128.size a := by
  show i ∈ ((View.whole main_v45).slice (win0_10.rect t)).set ↔ _
  rw [View.set_slice_whole, Rect.mem_set_unit]
  exact Iff.rfl

/-- The 32 blocks cover the array: row n lies in the block of point n / 1024. -/
theorem cover (i : S32768x128.Idx) :
    ∃ t : Fin cfg0.N, (cfg0.win 10).flush t = true ∧ i ∈ ((cfg0.win 10).blk t).view.set := by
  have hi0 : (i 0).val < 32768 := (i 0).isLt
  have hi1 : (i 1).val < 128 := (i 1).isLt
  obtain ⟨t, tv⟩ : ∃ t : Fin cfg0.N, t.val = (i 0).val / 1024 := ⟨⟨(i 0).val / 1024, by rw [N_eq]; omega⟩, rfl⟩
  refine ⟨t, flush0_10 t, ?_⟩
  rw [mem_blk]
  obtain ⟨o0, o1, -⟩ := idx_facts t
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 128 ≤ (i 1).val ∧ (i 1).val < win0_10.index t (1 : Fin 2) * 128 + 128
    omega

/-- The output array after the run, at every index (n, s): the kernel's closed form of the argument arrays. -/
theorem final10 (c : Dev nD) :
    (dats m 0 c).arrAt 10 cfg0.N = (fun i : S32768x128.Idx => Kout (inputs m c) (i 0) (i 1)) := by
  exact (dats m 0 c).arrAt_eq_of_cover 10 _ (fun t _ => flushed_eq m c t) cover

end Cert.KernelIdeal.ArrayVal
end
-- ==== Proof.KernelTail.lean ====
/-
  After the region: the 32768 × 128 output is re-laid as 1024 rows of 128 segments of 32 numbers
  ([32768,128] → [1024,32,128] → transposed [1024,128,32] → [1024,4096]), so the result at row b, flat position j is
  the kernel's output at row b·32 + j mod 32, column j / 32.
-/
import proofs.«401186_j52879637348694_2_alg».proof.Proof.Gen.KernelIdeal.Frame
import proofs.«401186_j52879637348694_2_alg».proof.Proof.KInputs
import Idealize.ShloMosaic.Lib.StableHlo.Run
import Idealize.ShloMosaic.Lib.ValueIdx
import Idealize.ShloMosaic.Lib.Pipeline.Value

set_option maxRecDepth 16384
noncomputable section
namespace Cert.KernelIdeal.TailVal

open Idealize.ShloMosaic Idealize.ShloMosaic.TcCoe Idealize.SL.Sem Idealize.ShloMosaic.ValueIdx
open Cert.KernelIdeal Cert.KernelIdeal.Gen Cert.SegPoly

variable (m : (ℓ : Loc nD τ sig) → Buf (Elt Ideal) ℓ) (ρ : Dev nD → PrngReg)

/-- The result array as a function of the argument arrays: row b, flat position j. -/
def resultFn (c : Dev nD) : S1024x4096.Idx → EReal := fun i =>
  Kres (inputs m c) (i 0) ⟨(i 1).val / 32, by have h : (i 1).val < 4096 := (i 1).isLt; omega⟩
    ⟨(i 1).val % 32, Nat.mod_lt _ (by decide)⟩

/-- The lines after the region applied to the region's output array. -/
theorem tail_val (c : Dev nD)
    (hfin : (dats m 0 c).arrAt 10 cfg0.N = (fun i : S32768x128.Idx => Kout (inputs m c) (i 0) (i 1))) :
    Pipeline.afterTail₀ cfgs (dats m) 0 (V0 m) [hostOps1] c main_v48 = resultFn m c := by
  unfold Pipeline.afterTail₀
  show StableHlo.after hostOps1 _ (Proc.devRef .tc main_v48) = _
  after_results
  funext i
  obtain ⟨b, j, rfl⟩ : ∃ (b : Fin 1024) (j : Fin 4096), i = ix2 b j := ⟨i 0, i 1, eq_ix2 i⟩
  have hj := j.isLt
  show shapeCast S1024x4096
      (transpose S1024x128x32 [0, 2, 1]
        (shapeCast S1024x32x128
          (Pipeline.withArrays spec0 c (V0 m c) (fun w => (dats m 0 c).arrAt w cfg0.N) (Proc.tc.devRef main_v45))
          shapeCasts_S32768x128_S1024x32x128)
        transposes_S1024x32x128_S1024x128x32_0_2_1)
      shapeCasts_S1024x128x32_S1024x4096 (ix2 b j) = _
  rw [shapeCast_apply _ shapeCasts_S1024x128x32_S1024x4096 (ix2 b j)
    (ix3 b (⟨j.val / 32, by omega⟩ : Fin 128) (⟨j.val % 32, Nat.mod_lt _ (by decide)⟩ : Fin 32))
    (by rw [Shape.rowMajor_val_three, Shape.rowMajor_val_two]
        show (b.val * 128 + j.val / 32) * 32 + j.val % 32 = b.val * 4096 + j.val
        omega)]
  rw [transpose_apply [0, 2, 1] _ transposes_S1024x32x128_S1024x128x32_0_2_1
    (ix3 b (⟨j.val / 32, by omega⟩ : Fin 128) (⟨j.val % 32, Nat.mod_lt _ (by decide)⟩ : Fin 32))
    (ix3 b (⟨j.val % 32, Nat.mod_lt _ (by decide)⟩ : Fin 32) (⟨j.val / 32, by omega⟩ : Fin 128))
    (fun a => match a with | ⟨0, _⟩ => rfl | ⟨1, _⟩ => rfl | ⟨2, _⟩ => rfl)]
  rw [shapeCast_apply _ shapeCasts_S32768x128_S1024x32x128
    (ix3 b (⟨j.val % 32, Nat.mod_lt _ (by decide)⟩ : Fin 32) (⟨j.val / 32, by omega⟩ : Fin 128))
    (ix2 (⟨b.val * 32 + j.val % 32, by have := b.isLt; omega⟩ : Fin 32768) (⟨j.val / 32, by omega⟩ : Fin 128))
    (by rw [Shape.rowMajor_val_three, Shape.rowMajor_val_two]; rfl)]
  rw [show Pipeline.withArrays spec0 c (V0 m c) (fun w => (dats m 0 c).arrAt w cfg0.N) (Proc.tc.devRef main_v45)
      = (dats m 0 c).arrAt 10 cfg0.N from
    Pipeline.withArrays_arr spec0 launch0.win.arr_inj c (V0 m c) (fun w => (dats m 0 c).arrAt w cfg0.N) 10, hfin]
  rfl

/-- The kernel's run, read: the result array is `resultFn` of the argument arrays, which end unchanged. -/
theorem kernel_run
    (hfin : ∀ c : Dev nD, (dats m 0 c).arrAt 10 cfg0.N = (fun i : S32768x128.Idx => Kout (inputs m c) (i 0) (i 1))) :
    θ_run defs (onTc (τ := τ) (main (F := Ideal))) ⟨m, fun _ => 0, ρ⟩ (fun r => ∀ c : Dev nD,
      r.2.mem ((c.tc : Thread nD τ).loc main_v48) = resultFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨((h c).2 main_v48 (Pipeline.mem_restRefs_of main_v48 (by decide) (by decide))).trans (tail_val m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.TailVal
end
-- ==== Proof.Algebra.lean ====
/-
  The kernel's form of the segmented polynomial equals the reference's form.

  Every index word is below 128, so a word w is its own wrapped form, a read at w takes entry w, a write at w
  lands on segment s exactly when w = s, and the 0/1 routing entry of (w, k) is 1 exactly when w = k.  A product
  of a row of the 32768 × 128 matrix with a 0/1 routing column therefore picks one entry of the row, and row
  b·32 + d of that matrix is row b of the input at sub-dimension d.  The two higher degrees then agree path by
  path (only the monoid laws of multiplication are used), and the tiles of 512 paths partition the path range.
  The degree-1 term is the one place where a product is distributed over a sum; there the values are real
  numbers and the identity is an exchange of two finite sums.
-/
import proofs.«401186_j52879637348694_2_alg».proof.Proof.Spec
import Mathlib.Data.EReal.Operations
import Mathlib.Algebra.BigOperators.Fin
import Mathlib.Algebra.BigOperators.Ring.Finset
import Mathlib.Algebra.BigOperators.Group.Finset.Piecewise

noncomputable section

namespace Cert.SegPoly

open Idealize.ShloMosaic Idealize.ShloMosaic.ValueIdx

/-! ## Index words below 128 -/

theorem toInt_of_lt {w : BitVec 32} (h : w.toNat < 128) : w.toInt = (w.toNat : Int) :=
  BitVec.toInt_eq_toNat_of_lt (by omega)

theorem wrap_of_lt {w : BitVec 32} (h : w.toNat < 128) : wrap w = w := by
  unfold wrap
  rw [if_neg]
  rw [toInt_of_lt h]
  omega

theorem rd_of_lt {w : BitVec 32} (h : w.toNat < 128) : rd w = ⟨w.toNat, h⟩ := by
  apply Fin.ext
  simp only [rd, wrap_of_lt h, toInt_of_lt h, Int.toNat_natCast]
  omega

theorem hits_iff_rd {w : BitVec 32} (h : w.toNat < 128) (s : Fin 128) : hits w s ↔ rd w = s := by
  unfold hits
  rw [wrap_of_lt h, toInt_of_lt h, rd_of_lt h, Fin.ext_iff]
  dsimp only
  omega

theorem oh_eq_ite_rd {w : BitVec 32} (h : w.toNat < 128) (k : Fin 128) :
    oh w k = if rd w = k then 1 else 0 := by
  have hk : (w = BitVec.ofNat 32 k.val) ↔ rd w = k := by
    rw [rd_of_lt h, Fin.ext_iff, ← BitVec.toNat_inj, BitVec.toNat_ofNat]
    have := k.isLt
    rw [Nat.mod_eq_of_lt (by omega)]
  unfold oh
  simp only [hk]

/-- A row times a 0/1 routing column picks the entry the word names. -/
theorem sum_mul_oh {w : BitVec 32} (h : w.toNat < 128) (f : Fin 128 → EReal) :
    ∑ k : Fin 128, f k * oh w k = f (rd w) := by
  simp only [oh_eq_ite_rd h, mul_ite, mul_one, mul_zero]
  rw [Finset.sum_ite_eq]
  simp only [Finset.mem_univ, if_true]

/-- A 0/1 routing entry times a coefficient keeps the coefficient on the segment the word names. -/
theorem oh_mul {w : BitVec 32} (h : w.toNat < 128) (s : Fin 128) (c : EReal) :
    oh w s * c = if hits w s then c else 0 := by
  rw [oh_eq_ite_rd h]
  simp only [hits_iff_rd h, ite_mul, one_mul, zero_mul]

variable (I : Inputs)

/-! ## Rows of the matrix -/

/-- Row b·32 + d of the 32768 × 128 matrix is row b of the input at sub-dimension d. -/
theorem xt_row (b : Fin 1024) (d : Fin 32) (k : Fin 128) :
    xt I ⟨b.val * 32 + d.val, by omega⟩ k = seg I b k d := by
  have h1 : (b.val * 32 + d.val) / 32 = b.val := by omega
  have h2 : (b.val * 32 + d.val) % 32 = d.val := by omega
  unfold xt seg
  simp only [h1, h2]

/-- Row (b·32 + d) mod 1024 of the bias tile carries sub-dimension d. -/
theorem bias_row (b : Fin 1024) (d : Fin 32) (s : Fin 128) :
    bias I ⟨(b.val * 32 + d.val) % 1024, Nat.mod_lt _ (by decide)⟩ s = I.coeff0 (ix1 (flat s d)) := by
  have h : (b.val * 32 + d.val) % 1024 % 32 = d.val := by omega
  unfold bias
  simp only [h]

/-! ## Tiles of 512 paths partition the path range -/

/-- A family indexed by the first N naturals, extended by zero. -/
def ext0 {N : Nat} (T : Fin N → EReal) (i : Nat) : EReal := if h : i < N then T ⟨i, h⟩ else 0

theorem sum_ext0 {N : Nat} (T : Fin N → EReal) :
    ∑ i ∈ Finset.range N, ext0 T i = ∑ p : Fin N, T p := by
  rw [Finset.sum_range]
  exact Finset.sum_congr rfl fun p _ => dif_pos p.isLt

theorem tile_ext0 {N : Nat} (T : Fin N → EReal) (base : Nat) (hb : base + 512 ≤ N) :
    ∑ q : Fin 512, T ⟨base + q.val, by omega⟩ = ∑ q ∈ Finset.range 512, ext0 T (base + q) := by
  rw [Finset.sum_range]
  refine Finset.sum_congr rfl fun q _ => ?_
  have hq : base + q.val < N := by have := q.isLt; omega
  rw [ext0, dif_pos hq]

/-! ## Degree 2 -/

/-- The contribution of degree-2 path p to row b, output segment s, sub-dimension d. -/
def term2 (b : Fin 1024) (s : Fin 128) (d : Fin 32) (p : Fin 2048) : EReal :=
  if hits (I.o2 (ix1 p)) s then
    I.c2 (ix1 p) * seg I b (rd (I.a2 (ix1 p))) d * seg I b (rd (I.b2 (ix1 p))) d
  else 0

theorem tile2_eq (hR : InRange I) (b : Fin 1024) (s : Fin 128) (d : Fin 32) (base : Nat)
    (hb : base + 512 ≤ 2048) :
    tile2 I ⟨b.val * 32 + d.val, by omega⟩ s base hb
      = ∑ q : Fin 512, term2 I b s d ⟨base + q.val, by omega⟩ := by
  unfold tile2
  refine Finset.sum_congr rfl fun q _ => ?_
  rw [sum_mul_oh (hR.a2 _), sum_mul_oh (hR.b2 _), oh_mul (hR.o2 _), xt_row, xt_row, term2]
  split_ifs
  · rw [mul_comm, ← mul_assoc]
  · rw [mul_zero]

theorem acc2_eq_range (hR : InRange I) (b : Fin 1024) (s : Fin 128) (d : Fin 32) :
    ∀ j, j ≤ 4 → acc2 I ⟨b.val * 32 + d.val, by omega⟩ s j
      = ∑ i ∈ Finset.range (j * 512), ext0 (term2 I b s d) i
  | 0, _ => by simp [acc2]
  | j + 1, hj => by
    have h : j * 512 + 512 ≤ 2048 := by omega
    have e : (j + 1) * 512 = j * 512 + 512 := by omega
    rw [acc2, dif_pos h, acc2_eq_range hR b s d j (by omega), tile2_eq I hR, tile_ext0 _ _ h, e,
      Finset.sum_range_add]

theorem acc2_four (hR : InRange I) (b : Fin 1024) (s : Fin 128) (d : Fin 32) :
    acc2 I ⟨b.val * 32 + d.val, by omega⟩ s 4
      = ∑ p ∈ Finset.univ.filter (fun p : Fin 2048 => hits (I.o2 (ix1 p)) s),
          I.c2 (ix1 p) * seg I b (rd (I.a2 (ix1 p))) d * seg I b (rd (I.b2 (ix1 p))) d := by
  rw [acc2_eq_range I hR b s d 4 (le_refl _), Finset.sum_filter]
  exact sum_ext0 (term2 I b s d)

/-! ## Degree 3 -/

/-- The contribution of degree-3 path p to row b, output segment s, sub-dimension d. -/
def term3 (b : Fin 1024) (s : Fin 128) (d : Fin 32) (p : Fin 4096) : EReal :=
  if hits (I.o3 (ix1 p)) s then
    I.c3 (ix1 p) * seg I b (rd (I.a3 (ix1 p))) d * seg I b (rd (I.b3 (ix1 p))) d
      * seg I b (rd (I.d3 (ix1 p))) d
  else 0

theorem tile3_eq (hR : InRange I) (b : Fin 1024) (s : Fin 128) (d : Fin 32) (base : Nat)
    (hb : base + 512 ≤ 4096) :
    tile3 I ⟨b.val * 32 + d.val, by omega⟩ s base hb
      = ∑ q : Fin 512, term3 I b s d ⟨base + q.val, by omega⟩ := by
  unfold tile3
  refine Finset.sum_congr rfl fun q _ => ?_
  rw [sum_mul_oh (hR.a3 _), sum_mul_oh (hR.b3 _), sum_mul_oh (hR.d3 _), oh_mul (hR.o3 _),
    xt_row, xt_row, xt_row, term3]
  split_ifs
  · rw [mul_comm, ← mul_assoc, ← mul_assoc]
  · rw [mul_zero]

theorem acc3_eq_range (hR : InRange I) (b : Fin 1024) (s : Fin 128) (d : Fin 32) :
    ∀ j, j ≤ 8 → acc3 I ⟨b.val * 32 + d.val, by omega⟩ s j
      = ∑ i ∈ Finset.range (j * 512), ext0 (term3 I b s d) i
  | 0, _ => by simp [acc3]
  | j + 1, hj => by
    have h : j * 512 + 512 ≤ 4096 := by omega
    have e : (j + 1) * 512 = j * 512 + 512 := by omega
    rw [acc3, dif_pos h, acc3_eq_range hR b s d j (by omega), tile3_eq I hR, tile_ext0 _ _ h, e,
      Finset.sum_range_add]

theorem acc3_eight (hR : InRange I) (b : Fin 1024) (s : Fin 128) (d : Fin 32) :
    acc3 I ⟨b.val * 32 + d.val, by omega⟩ s 8
      = ∑ p ∈ Finset.univ.filter (fun p : Fin 4096 => hits (I.o3 (ix1 p)) s),
          I.c3 (ix1 p) * seg I b (rd (I.a3 (ix1 p))) d * seg I b (rd (I.b3 (ix1 p))) d
            * seg I b (rd (I.d3 (ix1 p))) d := by
  rw [acc3_eq_range I hR b s d 8 (le_refl _), Finset.sum_filter]
  exact sum_ext0 (term3 I b s d)

/-! ## Degree 1 -/

/-- The coercion of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A row times the routing matrix of weighted paths: exchange the sum over entries with the sum over paths;
for each path only the entry it reads from survives. -/
theorem deg1_real {P K : Type*} [Fintype P] [Fintype K] [DecidableEq K] (X : K → ℝ) (C : P → ℝ)
    (r : P → K) (H : P → Prop) [DecidablePred H] (Q : K → P → Prop) [∀ k, DecidablePred (Q k)]
    (hQ : ∀ k p, Q k p ↔ (r p = k ∧ H p)) :
    ∑ k, X k * ∑ p ∈ Finset.univ.filter (Q k), C p
      = ∑ p ∈ Finset.univ.filter H, C p * X (r p) := by
  simp only [Finset.sum_filter, Finset.mul_sum, mul_ite, mul_zero, hQ]
  rw [Finset.sum_comm]
  refine Finset.sum_congr rfl fun p _ => ?_
  by_cases h : H p
  · simp only [h, and_true, if_true, Finset.sum_ite_eq, Finset.mem_univ, mul_comm]
  · simp only [h, and_false, if_false, Finset.sum_const_zero]

theorem deg1 (hF : Finite I) (hR : InRange I) (b : Fin 1024) (s : Fin 128) (d : Fin 32) :
    ∑ k : Fin 128, xt I ⟨b.val * 32 + d.val, by omega⟩ k * w1 I k s = out1 I b s d := by
  choose x hx using hF.x0
  choose c hc using hF.c1
  have hw : ∀ k : Fin 128, w1 I k s
      = ((∑ p ∈ Finset.univ.filter
            (fun p : Fin 128 => hits (I.i1 (ix1 p)) k ∧ hits (I.o1 (ix1 p)) s), c (ix1 p) : ℝ) : EReal) := by
    intro k
    rw [w1, zero_add, coe_sum]
    exact Finset.sum_congr rfl fun p _ => hc _
  have hL : ∑ k : Fin 128, xt I ⟨b.val * 32 + d.val, by omega⟩ k * w1 I k s
      = ((∑ k : Fin 128, x (ix2 b (flat k d)) * ∑ p ∈ Finset.univ.filter
            (fun p : Fin 128 => hits (I.i1 (ix1 p)) k ∧ hits (I.o1 (ix1 p)) s), c (ix1 p) : ℝ) : EReal) := by
    rw [coe_sum]
    refine Finset.sum_congr rfl fun k _ => ?_
    rw [xt_row, seg, hx, hw, EReal.coe_mul]
  have hG : out1 I b s d
      = ((∑ p ∈ Finset.univ.filter (fun p : Fin 128 => hits (I.o1 (ix1 p)) s),
            c (ix1 p) * x (ix2 b (flat (rd (I.i1 (ix1 p))) d)) : ℝ) : EReal) := by
    rw [out1, zero_add, coe_sum]
    refine Finset.sum_congr rfl fun p _ => ?_
    rw [seg, hx, hc, EReal.coe_mul]
  rw [hL, hG]
  congr 1
  exact deg1_real (fun k => x (ix2 b (flat k d))) (fun p => c (ix1 p)) (fun p => rd (I.i1 (ix1 p)))
    (fun p => hits (I.o1 (ix1 p)) s) (fun k p => hits (I.i1 (ix1 p)) k ∧ hits (I.o1 (ix1 p)) s)
    (fun k p => by rw [hits_iff_rd (hR.i1 _)])

/-! ## The two forms agree -/

theorem Kres_eq_G (I : Inputs) (hF : Finite I) (hR : InRange I) (b : Fin 1024) (s : Fin 128) (d : Fin 32) :
    Kres I b s d = G I b s d := by
  unfold Kres Kout G out3 out2
  rw [deg1 I hF hR b s d, acc2_four I hR b s d, acc3_eight I hR b s d]
  exact congrArg _ (bias_row I b d s)

end Cert.SegPoly

end
-- ==== Proof.PreDecode.lean ====
import proofs.«401186_j52879637348694_2_alg».proof.Pre_finite_inputs
import proofs.«401186_j52879637348694_2_alg».proof.Proof.Gen.Pre_finite_inputs
import proofs.«401186_j52879637348694_2_alg».proof.Proof.Spec
import Idealize.ShloMosaic.Lib.ReduceAll
import Idealize.ShloMosaic.Lib.StableHlo.Predicate

/-
  The precondition read back.  The printed predicate is a conjunction of fourteen "for all entries" tests, of two kinds:
  for a float array, |x| < +∞ at every entry; for an index array, 0 ≤ w and w < 128 (both signed) at every entry.
  An extended real whose absolute value max x (−x) is below ⊤ is neither ⊤ nor ⊥, hence a real number; a 32-bit word that
  is non-negative and below 128 as a signed number has unsigned value below 128.
-/

noncomputable section
namespace Cert.SegPoly

open Idealize.ShloMosaic

/-- The rank-0 shape has one index. -/
instance : Subsingleton Cert.Pre_finite_inputs.S_.Idx := ⟨fun a b => funext fun d => d.elim0⟩

/-- Two one-bit words whose conjunction is 1 are both 1, read at an index of the elementwise conjunction. -/
theorem andi_apply_eq_one {s : Shape} (a b : IVec s 1) (j : s.Idx) : andi a b j = 1#1 ↔ a j = 1#1 ∧ b j = 1#1 :=
  IntOp.andi_eq_one

/-- The pattern 0x7F800000 (exponent all ones, fraction zero, sign clear) denotes +∞. -/
theorem inf_bits : Ideal.ofBits .f32 0x7F800000#32 = (⊤ : EReal) := by
  simp [Ideal.ofBits, Ideal.ieee]

/-- An extended real whose absolute value lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A word that is ≥ 0 and < 128 as a signed number is below 128 as an unsigned one. -/
theorem toNat_lt_128 (w : BitVec 32) (h0 : IntOp.cmpi .sge w 0#32 = 1#1) (h1 : IntOp.cmpi .slt w 128#32 = 1#1) :
    w.toNat < 128 := by
  unfold IntOp.cmpi at h0 h1
  rw [StableHlo.Predicate.ofBool_eq_one_iff] at h0 h1
  simp only [BitVec.slt, BitVec.sle, decide_eq_true_eq] at h0 h1
  have hw := w.isLt
  have z : (0#32 : BitVec 32).toInt = 0 := by decide
  have c : (128#32 : BitVec 32).toInt = 128 := by decide
  rw [z] at h0
  rw [c] at h1
  rw [BitVec.toInt_eq_toNat_cond] at h0 h1
  split at h1 <;> omega

open Cert.Pre_finite_inputs in
/-- The float test: when "every entry of |x| is below +∞" came out true, every entry of x is a real number. -/
theorem real_of_all {s : Shape} {axes : List (Fin s.rank)} (x : s.Idx → EReal) (hb : S_.BroadcastsInDim s (![] : Fin 0 → Fin s.rank))
    (hr : s.ReducesTo axes S_) (hu : 0 < S_.numel)
    (e : Host.reduce IntOp.andi
        (cmpf (F := Ideal) (φ := .f32) .olt (Host.absf (F := Ideal) (φ := .f32) x)
          (broadcastInDim s ![] hb (constant (F := Ideal) S_ .f32 0x7F800000#32)))
        (constantI S_ 1 1#1) hr hu ValueIdx.ix0 = 1#1) (i : s.Idx) : ∃ r : ℝ, x i = (r : EReal) := by
  have k := Host.reduce_andi_all _ _ hr hu _ e i
  apply real_of_abs_lt_top
  have k' : Ideal.cmp .olt (max (x i) (-(x i))) (Ideal.ofBits .f32 0x7F800000#32) = 1#1 := k
  rw [inf_bits] at k'
  unfold Ideal.cmp at k'
  rw [StableHlo.Predicate.ofBool_eq_one_iff] at k'
  exact of_decide_eq_true k'

open Cert.Pre_finite_inputs in
/-- The index test: when "every entry is ≥ 0 and < 128, signed" came out true, every entry is below 128 unsigned. -/
theorem lt_of_all {s : Shape} {axes : List (Fin s.rank)} (w : IVec s 32) (hb : S_.BroadcastsInDim s (![] : Fin 0 → Fin s.rank))
    (hr : s.ReducesTo axes S_) (hu : 0 < S_.numel)
    (e : Host.reduce IntOp.andi
        (andi (cmpi .sge w (broadcastInDim s ![] hb (constantI S_ 32 0#32)))
          (cmpi .slt w (broadcastInDim s ![] hb (constantI S_ 32 128#32))))
        (constantI S_ 1 1#1) hr hu ValueIdx.ix0 = 1#1) (p : s.Idx) : (w p).toNat < 128 := by
  have k := Host.reduce_andi_all _ _ hr hu _ e p
  obtain ⟨k0, k1⟩ := (andi_apply_eq_one _ _ _).1 k
  exact toNat_lt_128 _ k0 k1

/-- The precondition decoded: the fourteen tests, split and read back one array at a time. -/
theorem of_pre (I : Inputs)
    (h : Cert.Pre_finite_inputs.fn (F := Ideal) I.x0 I.coeff0 I.c1 I.i1 I.o1 I.c2 I.a2 I.b2 I.o2 I.c3 I.a3 I.b3 I.d3 I.o3
      = (fun _ => 1#1)) : Finite I ∧ InRange I := by
  have e := congrFun h ValueIdx.ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  dsimp only [Cert.Pre_finite_inputs.fn_part4] at e
  dsimp only [Cert.Pre_finite_inputs.fn_part5] at e
  simp only [andi_apply_eq_one] at e
  obtain ⟨⟨⟨⟨⟨⟨⟨⟨⟨⟨⟨⟨⟨ex0, ecoeff0⟩, ec1⟩, ec2⟩, ec3⟩, ei1⟩, eo1⟩, ea2⟩, eb2⟩, eo2⟩, ea3⟩, eb3⟩, ed3⟩, eo3⟩ := e
  exact ⟨⟨real_of_all _ _ _ _ ex0, real_of_all _ _ _ _ ecoeff0, real_of_all _ _ _ _ ec1, real_of_all _ _ _ _ ec2,
      real_of_all _ _ _ _ ec3⟩,
    ⟨lt_of_all _ _ _ _ ei1, lt_of_all _ _ _ _ eo1, lt_of_all _ _ _ _ ea2, lt_of_all _ _ _ _ eb2, lt_of_all _ _ _ _ eo2,
      lt_of_all _ _ _ _ ea3, lt_of_all _ _ _ _ eb3, lt_of_all _ _ _ _ ed3, lt_of_all _ _ _ _ eo3⟩⟩

end Cert.SegPoly
end
-- ==== Proof.lean ====
/-
  The certificate's claims for the fused segmented-polynomial kernel.

  Both idealized programs compute, at row b and flat position s·32 + d, the polynomial G of the argument arrays
  (Proof/Spec.lean): the reference by gathers and accumulating scatters over the path lists, the kernel by matrix
  products with 0/1 routing matrices built from the same path lists, the two higher degrees accumulated over tiles
  of 512 paths inside the kernel.  The reference's result is G with no hypothesis (Proof/RefValue.lean).  The
  kernel's result is the closed form Kres: the host lines before the region build the routing matrices
  (Proof/KernelHost1.lean, Proof/KernelHost2.lean), a grid point's body leaves the block `bodyFn` of its input
  blocks (Proof/KernelBody.lean, Proof/KernelBodyIdx.lean), the 32 blocks cover the output array
  (Proof/KernelArray.lean), and the lines after the region re-lay it (Proof/KernelTail.lean).  Kres = G where every
  float argument is finite and every index word names a segment (Proof/Algebra.lean), which is what the
  precondition says (Proof/PreDecode.lean).  The three frames are the programs' runs with the results dropped; the
  idealization rewrote no operation, so its soundness claim is trivial.
-/
import proofs.«401186_j52879637348694_2_alg».proof.Defs
import proofs.«401186_j52879637348694_2_alg».proof.Proof.Gen.Kernel
import proofs.«401186_j52879637348694_2_alg».proof.Proof.Gen.Kernel.Frame
import proofs.«401186_j52879637348694_2_alg».proof.Proof.Gen.KernelIdeal
import proofs.«401186_j52879637348694_2_alg».proof.Proof.Gen.KernelIdeal.Frame
import proofs.«401186_j52879637348694_2_alg».proof.Proof.Gen.ReferenceIdeal
import proofs.«401186_j52879637348694_2_alg».proof.Proof.Gen.ReferenceIdeal.Run
import proofs.«401186_j52879637348694_2_alg».proof.Proof.Gen.Pre_finite_inputs
import proofs.«401186_j52879637348694_2_alg».proof.Proof.RefValue
import proofs.«401186_j52879637348694_2_alg».proof.Proof.KernelArray
import proofs.«401186_j52879637348694_2_alg».proof.Proof.KernelTail
import proofs.«401186_j52879637348694_2_alg».proof.Proof.Algebra
import proofs.«401186_j52879637348694_2_alg».proof.Proof.PreDecode
import Idealize.ShloMosaic.Adequacy
import Idealize.ShloMosaic.Init

noncomputable section

namespace Cert.Proof

open Idealize.ShloMosaic Idealize.SL.Sem Idealize.ShloMosaic.ValueIdx Cert.SegPoly

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- A flat position is its segment times 32 plus its sub-dimension. -/
theorem flat_div_mod (j : Fin 4096) :
    flat ⟨j.val / 32, by have := j.isLt; omega⟩ ⟨j.val % 32, Nat.mod_lt _ (by decide)⟩ = j := by
  apply Fin.ext
  show j.val / 32 * 32 + j.val % 32 = j.val
  omega

/-- From memories that agree on the arguments, the two programs see the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.inputs m' c = Cert.KernelIdeal.inputs m c := by
  obtain ⟨h0, h1, h2, h3, h4, h5, h6, h7, h8, h9, h10, h11, h12, h13⟩ := h
  unfold Cert.ReferenceIdeal.inputs Cert.KernelIdeal.inputs
  rw [h0, h1, h2, h3, h4, h5, h6, h7, h8, h9, h10, h11, h12, h13]

theorem algebraic : Cert.algebraic_KernelIdeal_ReferenceIdeal := by
  intro m ρ m' ρ' hpre hagree
  refine ⟨fun c => Cert.KernelIdeal.TailVal.resultFn m c,
    Cert.KernelIdeal.TailVal.kernel_run m ρ (fun c => Cert.KernelIdeal.ArrayVal.final10 m c), ?_⟩
  refine (θ_run Cert.ReferenceIdeal.defs _ _).mono (fun _ h c => ⟨(h c).1.trans ?_, (h c).2⟩)
    (Cert.ReferenceIdeal.Value.run (F := Ideal) m' ρ')
  obtain ⟨hF, hR⟩ := of_pre (Cert.KernelIdeal.inputs m c) (hpre c)
  funext i
  obtain ⟨b, j, rfl⟩ : ∃ (b : Fin 1024) (j : Fin 4096), i = ix2 b j := ⟨i 0, i 1, eq_ix2 i⟩
  have hj := flat_div_mod j
  show Cert.ReferenceIdeal.Value.res_out0 (F := Ideal) m' c (ix2 b j)
    = Kres (Cert.KernelIdeal.inputs m c) b ⟨j.val / 32, by have := j.isLt; omega⟩ ⟨j.val % 32, Nat.mod_lt _ (by decide)⟩
  rw [Kres_eq_G _ hF hR, ← inputs_eq m m' c (hagree c), ← Cert.ReferenceIdeal.res_eq_G m' c, hj]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
